-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x512x512 : Shape := ⟨4, ![8, 8, 512, 512]⟩
abbrev S8x1x512x512 : Shape := ⟨4, ![8, 1, 512, 512]⟩
abbrev S_ : Shape := ⟨0, ![]⟩

class Facts : Prop where
  bcast_S_S8x8x512x512 : S_.BroadcastsInDim S8x8x512x512 (![] : Fin 0 → Fin S8x8x512x512.rank)
  reducesTo_S8x8x512x512_S_d0_1_2_3 : S8x8x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_

variable [Facts]

def fn_part1 {F : FTy → Type} [FloatOps F] (main_v13 : IVec S_ 1) (main_v16 : IVec S8x8x512x512 1) : IVec S_ 1 :=
  let main_c_5 : IVec S_ 1 := constantI S_ 1 1#1
  let main_v17 : IVec S_ 1 := (fun x v => Host.reduce IntOp.andi x v reducesTo_S8x8x512x512_S_d0_1_2_3 h_S_) main_v16 main_c_5
  let main_v18 : IVec S_ 1 := andi main_v13 main_v17
  main_v18

def fn {F : FTy → Type} [FloatOps F] (main_arg0 : FVec F S8x8x512x512 .f32) (main_arg1 : FVec F S8x8x512x512 .f32) (main_arg2 : FVec F S8x1x512x512 .f32) (main_arg3 : FVec F S8x8x512x512 .f32) : IVec S_ 1 :=
  let main_v0 : FVec F S8x8x512x512 .f32 := Host.absf main_arg0
  let main_cst : FVec F S_ .f32 := constant S_ .f32 0x7F800000#32
  let main_v1 : FVec F S8x8x512x512 .f32 := broadcastInDim S8x8x512x512 ![] bcast_S_S8x8x512x512 main_cst
  let main_v2 : IVec S8x8x512x512 1 := cmpf .olt main_v0 main_v1
  let main_c : IVec S_ 1 := constantI S_ 1 1#1
  let main_v3 : IVec S_ 1 := (fun x v => Host.reduce IntOp.andi x v reducesTo_S8x8x512x512_S_d0_1_2_3 h_S_) main_v2 main_c
  let main_v4 : FVec F S8x8x512x512 .f32 := Host.absf main_arg1
  let main_cst_0 : FVec F S_ .f32 := constant S_ .f32 0x7F800000#32
  let main_v5 : FVec F S8x8x512x512 .f32 := broadcastInDim S8x8x512x512 ![] bcast_S_S8x8x512x512 main_cst_0
  let main_v6 : IVec S8x8x512x512 1 := cmpf .olt main_v4 main_v5
  let main_c_1 : IVec S_ 1 := constantI S_ 1 1#1
  let main_v7 : IVec S_ 1 := (fun x v => Host.reduce IntOp.andi x v reducesTo_S8x8x512x512_S_d0_1_2_3 h_S_) main_v6 main_c_1
  let main_v8 : IVec S_ 1 := andi main_v3 main_v7
  let main_v9 : FVec F S8x1x512x512 .f32 := Host.absf main_arg2
  let main_cst_2 : FVec F S_ .f32 := constant S_ .f32 0x7F800000#32
  let main_v10 : FVec F S8x1x512x512 .f32 := broadcastInDim S8x1x512x512 ![] bcast_S_S8x1x512x512 main_cst_2
  let main_v11 : IVec S8x1x512x512 1 := cmpf .olt main_v9 main_v10
  let main_c_3 : IVec S_ 1 := constantI S_ 1 1#1
  let main_v12 : IVec S_ 1 := (fun x v => Host.reduce IntOp.andi x v reducesTo_S8x1x512x512_S_d0_1_2_3 h_S_) main_v11 main_c_3
  let main_v13 : IVec S_ 1 := andi main_v8 main_v12
  let main_v14 : FVec F S8x8x512x512 .f32 := Host.absf main_arg3
  let main_cst_4 : FVec F S_ .f32 := constant S_ .f32 0x7F800000#32
  let main_v15 : FVec F S8x8x512x512 .f32 := broadcastInDim S8x8x512x512 ![] bcast_S_S8x8x512x512 main_cst_4
  let main_v16 : IVec S8x8x512x512 1 := cmpf .olt main_v14 main_v15
  fn_part1 (F := F) main_v13 main_v16
-- ==== Kernel.lean ====
abbrev S8x8x512x512 : Shape := ⟨4, ![8, 8, 512, 512]⟩
abbrev S8x1x512x512 : Shape := ⟨4, ![8, 1, 512, 512]⟩
abbrev S2x1x128 : Shape := ⟨3, ![2, 1, 128]⟩
abbrev S1x8x512x512 : Shape := ⟨4, ![1, 8, 512, 512]⟩
abbrev S1x1x512x512 : Shape := ⟨4, ![1, 1, 512, 512]⟩
abbrev S1x1x128 : Shape := ⟨3, ![1, 1, 128]⟩
abbrev S1x128 : Shape := ⟨2, ![1, 128]⟩
abbrev S512x512 : Shape := ⟨2, ![512, 512]⟩
abbrev S1x1 : Shape := ⟨2, ![1, 1]⟩
abbrev S512 : Shape := ⟨1, ![512]⟩
abbrev S512x1 : Shape := ⟨2, ![512, 1]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 59
  | .vmem => 24
  | .smem => 0
  | _ => 0

abbrev bufTy : (tb : Table) → Fin (tcTables nBuf tb) → BufTy
  | .hbm, ⟨0, _⟩ => ⟨S8x8x512x512, .f32⟩
  | .hbm, ⟨1, _⟩ => ⟨S8x8x512x512, .f32⟩
  | .hbm, ⟨2, _⟩ => ⟨S8x1x512x512, .f32⟩
  | .hbm, ⟨3, _⟩ => ⟨S8x8x512x512, .f32⟩
  | .hbm, ⟨4, _⟩ => ⟨S2x1x128, .f32⟩
  | .hbm, ⟨5, _⟩ => ⟨S2x1x128, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S2x1x128, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S2x1x1, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S2x1x1, .f32⟩
  | .hbm, ⟨19, _⟩ => ⟨S2, .f32⟩
  | .hbm, ⟨20, _⟩ => ⟨S_, .f32⟩
  | .hbm, ⟨21, _⟩ => ⟨S_, .f32⟩
  | .hbm, ⟨22, _⟩ => ⟨S2x1x1, .f32⟩
  | .hbm, ⟨23, _⟩ => ⟨S2, .f32⟩
  | .hbm, ⟨24, _⟩ => ⟨S_, .f32⟩
  | .hbm, ⟨25, _⟩ => ⟨S_, .f32⟩
  | .hbm, ⟨26, _⟩ => ⟨S2x1x1, .f32⟩
  | .hbm, ⟨27, _⟩ => ⟨S2, .f32⟩
  | .hbm, ⟨28, _⟩ => ⟨S_, .f32⟩
  | .hbm, ⟨29, _⟩ => ⟨S_, .f32⟩
  | .hbm, ⟨30, _⟩ => ⟨S2x1x1, .f32⟩
  | .hbm, ⟨31, _⟩ => ⟨S2, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x8x512x512, .f32⟩
  | .local _ .vmem, ⟨1, _⟩ => ⟨S1x8x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x8x512x512, .f32⟩
  | .local _ .vmem, ⟨5, _⟩ => ⟨S1x8x512x512, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x8x512x512, .f32⟩
  | .local _ .vmem, ⟨13, _⟩ => ⟨S1x8x512x512, .f32⟩
  | .local _ .vmem, ⟨14, _⟩ => ⟨S1x1x512x512, .f32⟩
  | .local _ .vmem, ⟨15, _⟩ => ⟨S1x1x512x512, .f32⟩
  | .local _ .vmem, ⟨16, _⟩ => ⟨S1x8x512x512, .f32⟩
  | .local _ .vmem, ⟨17, _⟩ => ⟨S1x8x512x512, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | _, _ => ⟨S8x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_cst_11 : Ref sig .tc := ⟨.hbm, 46, rfl⟩
abbrev main_v26 : Ref sig .tc := ⟨.hbm, 47, rfl⟩
abbrev main_cst_12 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_13 : Ref sig .tc := ⟨.hbm, 52, rfl⟩
abbrev main_v30 : Ref sig .tc := ⟨.hbm, 53, rfl⟩
abbrev main_v31 : Ref sig .tc := ⟨.hbm, 54, rfl⟩
abbrev main_cst_14 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 4], ![false, false]⟩

def cc1_transform_0 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  iota_S512x512_d1_w32 : S512x512.Iotas .tc 32 [1]
  iota_S512x512_d0_w32 : S512x512.Iotas .tc 32 [0]
  inb_S1x8x512x512_S1x1x512x512_0_3_0_0 : ∀ a, (![0, 3, 0, 0] : Fin 4 → Nat) a + S1x1x512x512.size a ≤ S1x8x512x512.size a
  h_S1x1x512x512 : 0 < S1x1x512x512.numel
  shapeCasts_S1x1x512x512_S512x512 : S1x1x512x512.ShapeCasts S512x512
  inb_S1x8x512x512_S1x1x512x512_0_4_0_0 : ∀ a, (![0, 4, 0, 0] : Fin 4 → Nat) a + S1x1x512x512.size a ≤ S1x8x512x512.size a
  rotates_S512x512_d1 : S512x512.Rotates 1 none
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S1x8x512x512_S1x1x512x512_0_1_0_0 : ∀ a, (![0, 1, 0, 0] : Fin 4 → Nat) a + S1x1x512x512.size a ≤ S1x8x512x512.size a
  inb_S1x8x512x512_S1x1x512x512_0_6_0_0 : ∀ a, (![0, 6, 0, 0] : Fin 4 → Nat) a + S1x1x512x512.size a ≤ S1x8x512x512.size a
  rotates_S512x512_d0 : S512x512.Rotates 0 none
  inb_S1x8x512x512_S1x1x512x512_0_2_0_0 : ∀ a, (![0, 2, 0, 0] : Fin 4 → Nat) a + S1x1x512x512.size a ≤ S1x8x512x512.size a
  inb_S1x8x512x512_S1x1x512x512_0_5_0_0 : ∀ a, (![0, 5, 0, 0] : Fin 4 → Nat) a + S1x1x512x512.size a ≤ S1x8x512x512.size a
  inb_S1x8x512x512_S1x1x512x512_0_0_0_0 : ∀ a, (![0, 0, 0, 0] : Fin 4 → Nat) a + S1x1x512x512.size a ≤ S1x8x512x512.size a
  inb_S1x8x512x512_S1x1x512x512_0_7_0_0 : ∀ a, (![0, 7, 0, 0] : Fin 4 → Nat) a + S1x1x512x512.size a ≤ S1x8x512x512.size a
  inb_S1x1x512x512_S1x1x512x512_0_0_0_0 : ∀ a, (![0, 0, 0, 0] : Fin 4 → Nat) a + S1x1x512x512.size a ≤ S1x1x512x512.size a
  shapeCasts_S1x1_S1x1 : S1x1.ShapeCasts S1x1
  broadcasts_S1x1_S1x128 : S1x1.Broadcasts S1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512x512.size a ≤ S8x8x512x512.size a
  hwx0_0 : ∀ i : grid0.Coords, EltTy.bits .f32 = 32 ∨ (Rect.block (s := S8x8x512x512) S1x8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x1x512x512.size a
  hwx0_1 : ∀ i : grid0.Coords, EltTy.bits .f32 = 32 ∨ (Rect.block (s := S8x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x512.size a ≤ S8x8x512x512.size a
  hwx0_2 : ∀ i : grid0.Coords, EltTy.bits .f32 = 32 ∨ (Rect.block (s := S8x8x512x512) S1x8x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x512x512.size a ≤ S8x8x512x512.size a
  hwx1_0 : ∀ i : grid1.Coords, EltTy.bits .f32 = 32 ∨ (Rect.block (s := S8x8x512x512) S1x8x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512x512.size a ≤ S8x1x512x512.size a
  hwx1_1 : ∀ i : grid1.Coords, EltTy.bits .f32 = 32 ∨ (Rect.block (s := S8x1x512x512) S1x1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x512x512.size a ≤ S8x8x512x512.size a
  hwx1_2 : ∀ i : grid1.Coords, EltTy.bits .f32 = 32 ∨ (Rect.block (s := S8x8x512x512) S1x8x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)

variable [Facts₀]

abbrev win0_0 : Pipeline.Window sig grid0 :=
  Pipeline.Window.ofSpec (Memref.whole main_arg0) S1x8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x8x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1x8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x8x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_2) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x8x512x512 : Shape := ⟨4, ![8, 8, 512, 512]⟩
abbrev S8x1x512x512 : Shape := ⟨4, ![8, 1, 512, 512]⟩
abbrev S_ : Shape := ⟨0, ![]⟩
abbrev S8x512x512 : Shape := ⟨3, ![8, 512, 512]⟩
abbrev S8x512x513 : Shape := ⟨3, ![8, 512, 513]⟩
abbrev S8x513x512 : Shape := ⟨3, ![8, 513, 512]⟩

abbrev nBuf : Space → Nat
  | .hbm => 410
  | .vmem => 0
  | .smem => 0
  | _ => 0

abbrev hbmTy0_0 (i : Nat) : BufTy := match i % 128 with
  | 0 => ⟨S8x8x512x512, .f32⟩
  | 1 => ⟨S8x8x512x512, .f32⟩
  | 2 => ⟨S8x1x512x512, .f32⟩
  | 3 => ⟨S8x8x512x512, .f32⟩
  | 4 => ⟨S_, .f32⟩
  | 5 => ⟨S8x512x512, .f32⟩
  | 6 => ⟨S_, .f32⟩
  | 7 => ⟨S8x512x512, .f32⟩
  | 8 => ⟨S8x512x512, .i1⟩
  | 9 => ⟨S_, .f32⟩
  | 10 => ⟨S8x512x512, .f32⟩
  | 11 => ⟨S8x512x512, .i1⟩
  | 12 => ⟨S8x512x512, .i1⟩
  | 13 => ⟨S_, .f32⟩
  | 14 => ⟨S_, .f32⟩
  | 15 => ⟨S8x512x512, .f32⟩
  | 16 => ⟨S8x512x512, .f32⟩
  | 17 => ⟨S8x512x512, .f32⟩
  | 18 => ⟨S8x8x512x512, .f32⟩
  | 19 => ⟨S8x8x512x512, .f32⟩
  | 20 => ⟨S_, .f32⟩
  | 21 => ⟨S8x8x512x512, .f32⟩
  | 22 => ⟨S8x8x512x512, .f32⟩
  | 23 => ⟨S_, .f32⟩
  | 24 => ⟨S8x8x512x512, .f32⟩
  | 25 => ⟨S8x8x512x512, .f32⟩
  | 26 => ⟨S8x8x512x512, .f32⟩
  | 27 => ⟨S8x8x512x512, .f32⟩
  | 28 => ⟨S_, .f32⟩
  | 29 => ⟨S8x8x512x512, .f32⟩
  | 30 => ⟨S8x8x512x512, .f32⟩
  | 31 => ⟨S_, .f32⟩
  | 32 => ⟨S8x8x512x512, .f32⟩
  | 33 => ⟨S8x8x512x512, .f32⟩
  | 34 => ⟨S8x1x512x512, .f32⟩
  | 35 => ⟨S8x512x512, .f32⟩
  | 36 => ⟨S_, .i32⟩
  | 37 => ⟨S_, .f32⟩
  | 38 => ⟨S8x512x513, .f32⟩
  | 39 => ⟨S8x512x512, .f32⟩
  | 40 => ⟨S8x1x512x512, .f32⟩
  | 41 => ⟨S8x512x512, .f32⟩
  | 42 => ⟨S_, .i32⟩
  | 43 => ⟨S_, .f32⟩
  | 44 => ⟨S8x512x513, .f32⟩
  | 45 => ⟨S8x512x512, .f32⟩
  | 46 => ⟨S8x1x512x512, .f32⟩
  | 47 => ⟨S8x512x512, .f32⟩
  | 48 => ⟨S_, .i32⟩
  | 49 => ⟨S_, .f32⟩
  | 50 => ⟨S8x513x512, .f32⟩
  | 51 => ⟨S8x512x512, .f32⟩
  | 52 => ⟨S_, .i32⟩
  | 53 => ⟨S_, .f32⟩
  | 54 => ⟨S8x512x513, .f32⟩
  | 55 => ⟨S8x512x512, .f32⟩
  | 56 => ⟨S8x1x512x512, .f32⟩
  | 57 => ⟨S8x512x512, .f32⟩
  | 58 => ⟨S_, .i32⟩
  | 59 => ⟨S_, .f32⟩
  | 60 => ⟨S8x513x512, .f32⟩
  | 61 => ⟨S8x512x512, .f32⟩
  | 62 => ⟨S_, .i32⟩
  | 63 => ⟨S_, .f32⟩
  | 64 => ⟨S8x512x513, .f32⟩
  | 65 => ⟨S8x512x512, .f32⟩
  | 66 => ⟨S8x1x512x512, .f32⟩
  | 67 => ⟨S8x512x512, .f32⟩
  | 68 => ⟨S_, .i32⟩
  | 69 => ⟨S_, .f32⟩
  | 70 => ⟨S8x513x512, .f32⟩
  | 71 => ⟨S8x512x512, .f32⟩
  | 72 => ⟨S_, .i32⟩
  | 73 => ⟨S_, .f32⟩
  | 74 => ⟨S8x512x513, .f32⟩
  | 75 => ⟨S8x512x512, .f32⟩
  | 76 => ⟨S8x1x512x512, .f32⟩
  | 77 => ⟨S8x512x512, .f32⟩
  | 78 => ⟨S_, .i32⟩
  | 79 => ⟨S_, .f32⟩
  | 80 => ⟨S8x513x512, .f32⟩
  | 81 => ⟨S8x512x512, .f32⟩
  | 82 => ⟨S8x1x512x512, .f32⟩
  | 83 => ⟨S8x512x512, .f32⟩
  | 84 => ⟨S_, .i32⟩
  | 85 => ⟨S_, .f32⟩
  | 86 => ⟨S8x513x512, .f32⟩
  | 87 => ⟨S8x512x512, .f32⟩
  | 88 => ⟨S8x1x512x512, .f32⟩
  | 89 => ⟨S8x512x512, .f32⟩
  | 90 => ⟨S_, .i32⟩
  | 91 => ⟨S_, .f32⟩
  | 92 => ⟨S8x513x512, .f32⟩
  | 93 => ⟨S8x512x512, .f32⟩
  | 94 => ⟨S_, .i32⟩
  | 95 => ⟨S_, .f32⟩
  | 96 => ⟨S8x512x513, .f32⟩
  | 97 => ⟨S8x512x512, .f32⟩
  | 98 => ⟨S8x1x512x512, .f32⟩
  | 99 => ⟨S8x512x512, .f32⟩
  | 100 => ⟨S8x512x512, .f32⟩
  | 101 => ⟨S8x1x512x512, .f32⟩
  | 102 => ⟨S8x512x512, .f32⟩
  | 103 => ⟨S8x512x512, .f32⟩
  | 104 => ⟨S8x1x512x512, .f32⟩
  | 105 => ⟨S8x512x512, .f32⟩
  | 106 => ⟨S8x512x512, .f32⟩
  | 107 => ⟨S8x1x512x512, .f32⟩
  | 108 => ⟨S8x512x512, .f32⟩
  | 109 => ⟨S8x512x512, .f32⟩
  | 110 => ⟨S8x1x512x512, .f32⟩
  | 111 => ⟨S8x512x512, .f32⟩
  | 112 => ⟨S8x512x512, .f32⟩
  | 113 => ⟨S8x1x512x512, .f32⟩
  | 114 => ⟨S8x512x512, .f32⟩
  | 115 => ⟨S8x512x512, .f32⟩
  | 116 => ⟨S8x1x512x512, .f32⟩
  | 117 => ⟨S8x512x512, .f32⟩
  | 118 => ⟨S8x512x512, .f32⟩
  | 119 => ⟨S8x1x512x512, .f32⟩
  | 120 => ⟨S8x512x512, .f32⟩
  | 121 => ⟨S8x512x512, .f32⟩
  | 122 => ⟨S8x1x512x512, .f32⟩
  | 123 => ⟨S8x1x512x512, .f32⟩
  | 124 => ⟨S8x1x512x512, .f32⟩
  | 125 => ⟨S8x1x512x512, .f32⟩
  | 126 => ⟨S8x1x512x512, .f32⟩
  | 127 => ⟨S8x1x512x512, .f32⟩
  | _ => ⟨S8x8x512x512, .f32⟩

abbrev hbmTy0_1 (i : Nat) : BufTy := match i % 128 with
  | 0 => ⟨S8x1x512x512, .f32⟩
  | 1 => ⟨S8x1x512x512, .f32⟩
  | 2 => ⟨S8x8x512x512, .f32⟩
  | 3 => ⟨S_, .f32⟩
  | 4 => ⟨S8x512x512, .f32⟩
  | 5 => ⟨S_, .f32⟩
  | 6 => ⟨S8x512x512, .f32⟩
  | 7 => ⟨S8x512x512, .f32⟩
  | 8 => ⟨S8x1x512x512, .f32⟩
  | 9 => ⟨S8x512x512, .f32⟩
  | 10 => ⟨S_, .i32⟩
  | 11 => ⟨S_, .f32⟩
  | 12 => ⟨S8x512x513, .f32⟩
  | 13 => ⟨S8x512x512, .f32⟩
  | 14 => ⟨S8x1x512x512, .f32⟩
  | 15 => ⟨S8x512x512, .f32⟩
  | 16 => ⟨S_, .i32⟩
  | 17 => ⟨S_, .f32⟩
  | 18 => ⟨S8x512x513, .f32⟩
  | 19 => ⟨S8x512x512, .f32⟩
  | 20 => ⟨S8x1x512x512, .f32⟩
  | 21 => ⟨S8x512x512, .f32⟩
  | 22 => ⟨S_, .i32⟩
  | 23 => ⟨S_, .f32⟩
  | 24 => ⟨S8x513x512, .f32⟩
  | 25 => ⟨S8x512x512, .f32⟩
  | 26 => ⟨S_, .i32⟩
  | 27 => ⟨S_, .f32⟩
  | 28 => ⟨S8x512x513, .f32⟩
  | 29 => ⟨S8x512x512, .f32⟩
  | 30 => ⟨S8x1x512x512, .f32⟩
  | 31 => ⟨S8x512x512, .f32⟩
  | 32 => ⟨S_, .i32⟩
  | 33 => ⟨S_, .f32⟩
  | 34 => ⟨S8x513x512, .f32⟩
  | 35 => ⟨S8x512x512, .f32⟩
  | 36 => ⟨S_, .i32⟩
  | 37 => ⟨S_, .f32⟩
  | 38 => ⟨S8x512x513, .f32⟩
  | 39 => ⟨S8x512x512, .f32⟩
  | 40 => ⟨S8x1x512x512, .f32⟩
  | 41 => ⟨S8x512x512, .f32⟩
  | 42 => ⟨S_, .i32⟩
  | 43 => ⟨S_, .f32⟩
  | 44 => ⟨S8x513x512, .f32⟩
  | 45 => ⟨S8x512x512, .f32⟩
  | 46 => ⟨S_, .i32⟩
  | 47 => ⟨S_, .f32⟩
  | 48 => ⟨S8x512x513, .f32⟩
  | 49 => ⟨S8x512x512, .f32⟩
  | 50 => ⟨S8x1x512x512, .f32⟩
  | 51 => ⟨S8x512x512, .f32⟩
  | 52 => ⟨S_, .i32⟩
  | 53 => ⟨S_, .f32⟩
  | 54 => ⟨S8x513x512, .f32⟩
  | 55 => ⟨S8x512x512, .f32⟩
  | 56 => ⟨S8x1x512x512, .f32⟩
  | 57 => ⟨S8x512x512, .f32⟩
  | 58 => ⟨S_, .i32⟩
  | 59 => ⟨S_, .f32⟩
  | 60 => ⟨S8x513x512, .f32⟩
  | 61 => ⟨S8x512x512, .f32⟩
  | 62 => ⟨S8x1x512x512, .f32⟩
  | 63 => ⟨S8x512x512, .f32⟩
  | 64 => ⟨S_, .i32⟩
  | 65 => ⟨S_, .f32⟩
  | 66 => ⟨S8x513x512, .f32⟩
  | 67 => ⟨S8x512x512, .f32⟩
  | 68 => ⟨S_, .i32⟩
  | 69 => ⟨S_, .f32⟩
  | 70 => ⟨S8x512x513, .f32⟩
  | 71 => ⟨S8x512x512, .f32⟩
  | 72 => ⟨S8x1x512x512, .f32⟩
  | 73 => ⟨S8x512x512, .f32⟩
  | 74 => ⟨S8x512x512, .f32⟩
  | 75 => ⟨S8x1x512x512, .f32⟩
  | 76 => ⟨S8x512x512, .f32⟩
  | 77 => ⟨S8x512x512, .f32⟩
  | 78 => ⟨S8x1x512x512, .f32⟩
  | 79 => ⟨S8x512x512, .f32⟩
  | 80 => ⟨S8x512x512, .f32⟩
  | 81 => ⟨S8x1x512x512, .f32⟩
  | 82 => ⟨S8x512x512, .f32⟩
  | 83 => ⟨S8x512x512, .f32⟩
  | 84 => ⟨S8x1x512x512, .f32⟩
  | 85 => ⟨S8x512x512, .f32⟩
  | 86 => ⟨S8x512x512, .f32⟩
  | 87 => ⟨S8x1x512x512, .f32⟩
  | 88 => ⟨S8x512x512, .f32⟩
  | 89 => ⟨S8x512x512, .f32⟩
  | 90 => ⟨S8x1x512x512, .f32⟩
  | 91 => ⟨S8x512x512, .f32⟩
  | 92 => ⟨S8x512x512, .f32⟩
  | 93 => ⟨S8x1x512x512, .f32⟩
  | 94 => ⟨S8x512x512, .f32⟩
  | 95 => ⟨S8x512x512, .f32⟩
  | 96 => ⟨S8x1x512x512, .f32⟩
  | 97 => ⟨S8x1x512x512, .f32⟩
  | 98 => ⟨S8x1x512x512, .f32⟩
  | 99 => ⟨S8x1x512x512, .f32⟩
  | 100 => ⟨S8x1x512x512, .f32⟩
  | 101 => ⟨S8x1x512x512, .f32⟩
  | 102 => ⟨S8x1x512x512, .f32⟩
  | 103 => ⟨S8x1x512x512, .f32⟩
  | 104 => ⟨S8x8x512x512, .f32⟩
  | 105 => ⟨S_, .f32⟩
  | 106 => ⟨S8x512x512, .f32⟩
  | 107 => ⟨S_, .f32⟩
  | 108 => ⟨S8x512x512, .f32⟩
  | 109 => ⟨S8x512x512, .f32⟩
  | 110 => ⟨S_, .f32⟩
  | 111 => ⟨S8x512x512, .f32⟩
  | 112 => ⟨S_, .f32⟩
  | 113 => ⟨S8x512x512, .f32⟩
  | 114 => ⟨S8x512x512, .f32⟩
  | 115 => ⟨S8x512x512, .f32⟩
  | 116 => ⟨S8x512x512, .f32⟩
  | 117 => ⟨S_, .f32⟩
  | 118 => ⟨S8x512x512, .f32⟩
  | 119 => ⟨S8x512x512, .f32⟩
  | 120 => ⟨S8x512x512, .f32⟩
  | 121 => ⟨S8x512x512, .f32⟩
  | 122 => ⟨S8x512x512, .f32⟩
  | 123 => ⟨S8x1x512x512, .f32⟩
  | 124 => ⟨S8x1x512x512, .f32⟩
  | 125 => ⟨S_, .f32⟩
  | 126 => ⟨S_, .f32⟩
  | 127 => ⟨S8x1x512x512, .f32⟩
  | _ => ⟨S8x8x512x512, .f32⟩

abbrev hbmTy0_2 (i : Nat) : BufTy := match i % 128 with
  | 0 => ⟨S8x1x512x512, .f32⟩
  | 1 => ⟨S_, .f32⟩
  | 2 => ⟨S8x1x512x512, .f32⟩
  | 3 => ⟨S8x1x512x512, .f32⟩
  | 4 => ⟨S8x1x512x512, .f32⟩
  | 5 => ⟨S_, .f32⟩
  | 6 => ⟨S_, .f32⟩
  | 7 => ⟨S8x1x512x512, .f32⟩
  | 8 => ⟨S8x1x512x512, .f32⟩
  | 9 => ⟨S8x1x512x512, .f32⟩
  | 10 => ⟨S_, .f32⟩
  | 11 => ⟨S8x1x512x512, .f32⟩
  | 12 => ⟨S8x1x512x512, .f32⟩
  | 13 => ⟨S8x1x512x512, .f32⟩
  | 14 => ⟨S8x1x512x512, .f32⟩
  | 15 => ⟨S_, .f32⟩
  | 16 => ⟨S_, .f32⟩
  | 17 => ⟨S_, .f32⟩
  | 18 => ⟨S_, .f32⟩
  | 19 => ⟨S_, .f32⟩
  | 20 => ⟨S8x1x512x512, .f32⟩
  | 21 => ⟨S8x1x512x512, .f32⟩
  | 22 => ⟨S_, .f32⟩
  | 23 => ⟨S_, .f32⟩
  | 24 => ⟨S8x1x512x512, .f32⟩
  | 25 => ⟨S8x1x512x512, .f32⟩
  | 26 => ⟨S_, .f32⟩
  | 27 => ⟨S8x1x512x512, .f32⟩
  | 28 => ⟨S8x1x512x512, .f32⟩
  | 29 => ⟨S8x1x512x512, .f32⟩
  | 30 => ⟨S_, .f32⟩
  | 31 => ⟨S_, .f32⟩
  | 32 => ⟨S8x1x512x512, .f32⟩
  | 33 => ⟨S8x1x512x512, .f32⟩
  | 34 => ⟨S8x1x512x512, .f32⟩
  | 35 => ⟨S_, .f32⟩
  | 36 => ⟨S8x1x512x512, .f32⟩
  | 37 => ⟨S8x1x512x512, .f32⟩
  | 38 => ⟨S8x1x512x512, .f32⟩
  | 39 => ⟨S8x1x512x512, .f32⟩
  | 40 => ⟨S_, .f32⟩
  | 41 => ⟨S_, .f32⟩
  | 42 => ⟨S_, .f32⟩
  | 43 => ⟨S_, .f32⟩
  | 44 => ⟨S_, .f32⟩
  | 45 => ⟨S8x8x512x512, .f32⟩
  | 46 => ⟨S_, .f32⟩
  | 47 => ⟨S_, .f32⟩
  | 48 => ⟨S8x8x512x512, .f32⟩
  | 49 => ⟨S8x8x512x512, .f32⟩
  | 50 => ⟨S_, .f32⟩
  | 51 => ⟨S8x8x512x512, .f32⟩
  | 52 => ⟨S8x8x512x512, .f32⟩
  | 53 => ⟨S8x8x512x512, .f32⟩
  | 54 => ⟨S_, .f32⟩
  | 55 => ⟨S_, .f32⟩
  | 56 => ⟨S8x8x512x512, .f32⟩
  | 57 => ⟨S8x8x512x512, .f32⟩
  | 58 => ⟨S8x8x512x512, .f32⟩
  | 59 => ⟨S_, .f32⟩
  | 60 => ⟨S8x8x512x512, .f32⟩
  | 61 => ⟨S8x8x512x512, .f32⟩
  | 62 => ⟨S8x8x512x512, .f32⟩
  | 63 => ⟨S8x8x512x512, .f32⟩
  | 64 => ⟨S_, .f32⟩
  | 65 => ⟨S_, .f32⟩
  | 66 => ⟨S_, .f32⟩
  | 67 => ⟨S_, .f32⟩
  | 68 => ⟨S_, .f32⟩
  | 69 => ⟨S8x8x512x512, .f32⟩
  | 70 => ⟨S_, .f32⟩
  | 71 => ⟨S_, .f32⟩
  | 72 => ⟨S8x8x512x512, .f32⟩
  | 73 => ⟨S8x8x512x512, .f32⟩
  | 74 => ⟨S_, .f32⟩
  | 75 => ⟨S8x8x512x512, .f32⟩
  | 76 => ⟨S8x8x512x512, .f32⟩
  | 77 => ⟨S8x8x512x512, .f32⟩
  | 78 => ⟨S_, .f32⟩
  | 79 => ⟨S_, .f32⟩
  | 80 => ⟨S8x8x512x512, .f32⟩
  | 81 => ⟨S8x8x512x512, .f32⟩
  | 82 => ⟨S8x8x512x512, .f32⟩
  | 83 => ⟨S_, .f32⟩
  | 84 => ⟨S8x8x512x512, .f32⟩
  | 85 => ⟨S8x8x512x512, .f32⟩
  | 86 => ⟨S8x8x512x512, .f32⟩
  | 87 => ⟨S8x8x512x512, .f32⟩
  | 88 => ⟨S_, .f32⟩
  | 89 => ⟨S_, .f32⟩
  | 90 => ⟨S_, .f32⟩
  | 91 => ⟨S_, .f32⟩
  | 92 => ⟨S_, .f32⟩
  | 93 => ⟨S8x8x512x512, .f32⟩
  | 94 => ⟨S_, .f32⟩
  | 95 => ⟨S_, .f32⟩
  | 96 => ⟨S8x8x512x512, .f32⟩
  | 97 => ⟨S8x8x512x512, .f32⟩
  | 98 => ⟨S_, .f32⟩
  | 99 => ⟨S8x8x512x512, .f32⟩
  | 100 => ⟨S8x8x512x512, .f32⟩
  | 101 => ⟨S8x8x512x512, .f32⟩
  | 102 => ⟨S_, .f32⟩
  | 103 => ⟨S_, .f32⟩
  | 104 => ⟨S8x8x512x512, .f32⟩
  | 105 => ⟨S8x8x512x512, .f32⟩
  | 106 => ⟨S8x8x512x512, .f32⟩
  | 107 => ⟨S_, .f32⟩
  | 108 => ⟨S8x8x512x512, .f32⟩
  | 109 => ⟨S8x8x512x512, .f32⟩
  | 110 => ⟨S8x8x512x512, .f32⟩
  | 111 => ⟨S8x8x512x512, .f32⟩
  | 112 => ⟨S_, .f32⟩
  | 113 => ⟨S_, .f32⟩
  | 114 => ⟨S_, .f32⟩
  | 115 => ⟨S_, .f32⟩
  | 116 => ⟨S_, .f32⟩
  | 117 => ⟨S8x8x512x512, .f32⟩
  | 118 => ⟨S_, .f32⟩
  | 119 => ⟨S_, .f32⟩
  | 120 => ⟨S8x8x512x512, .f32⟩
  | 121 => ⟨S8x8x512x512, .f32⟩
  | 122 => ⟨S_, .f32⟩
  | 123 => ⟨S8x8x512x512, .f32⟩
  | 124 => ⟨S8x8x512x512, .f32⟩
  | 125 => ⟨S8x8x512x512, .f32⟩
  | 126 => ⟨S_, .f32⟩
  | 127 => ⟨S_, .f32⟩
  | _ => ⟨S8x8x512x512, .f32⟩

abbrev hbmTy0_3 (i : Nat) : BufTy := match i % 128 with
  | 0 => ⟨S8x8x512x512, .f32⟩
  | 1 => ⟨S8x8x512x512, .f32⟩
  | 2 => ⟨S8x8x512x512, .f32⟩
  | 3 => ⟨S_, .f32⟩
  | 4 => ⟨S8x8x512x512, .f32⟩
  | 5 => ⟨S8x8x512x512, .f32⟩
  | 6 => ⟨S8x8x512x512, .f32⟩
  | 7 => ⟨S8x8x512x512, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S8x8x512x512, .f32⟩

abbrev hbmTy (i : Nat) : BufTy := match i / 128 with
  | 0 => hbmTy0_0 i
  | 1 => hbmTy0_1 i
  | 2 => hbmTy0_2 i
  | 3 => hbmTy0_3 i
  | _ => ⟨S8x8x512x512, .f32⟩

abbrev bufTy : (tb : Table) → Fin (tcTables nBuf tb) → BufTy
  | .hbm, ⟨i, _⟩ => hbmTy i
  | _, _ => ⟨S8x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_call2_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_call3_v0 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_call4_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_call5_v0 : Ref sig .tc := ⟨.hbm, 59, rfl⟩
abbrev main_v35 : Ref sig .tc := ⟨.hbm, 60, rfl⟩
abbrev main_v36 : Ref sig .tc := ⟨.hbm, 61, rfl⟩
abbrev main_c_12 : Ref sig .tc := ⟨.hbm, 62, rfl⟩
abbrev main_call6_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_13 : Ref sig .tc := ⟨.hbm, 68, rfl⟩
abbrev main_call7_v0 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_call8_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_call9_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_16 : Ref sig .tc := ⟨.hbm, 84, rfl⟩
abbrev main_call10_v0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_call11_v0 : Ref sig .tc := ⟨.hbm, 91, rfl⟩
abbrev main_v55 : Ref sig .tc := ⟨.hbm, 92, rfl⟩
abbrev main_v56 : Ref sig .tc := ⟨.hbm, 93, rfl⟩
abbrev main_c_18 : Ref sig .tc := ⟨.hbm, 94, rfl⟩
abbrev main_call12_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_19 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_21 : Ref sig .tc := ⟨.hbm, 138, rfl⟩
abbrev main_call13_v0 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_22 : Ref sig .tc := ⟨.hbm, 144, rfl⟩
abbrev main_call14_v0 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_23 : Ref sig .tc := ⟨.hbm, 150, rfl⟩
abbrev main_call15_v0 : Ref sig .tc := ⟨.hbm, 151, rfl⟩
abbrev main_v105 : Ref sig .tc := ⟨.hbm, 152, rfl⟩
abbrev main_v106 : Ref sig .tc := ⟨.hbm, 153, rfl⟩
abbrev main_c_24 : Ref sig .tc := ⟨.hbm, 154, rfl⟩
abbrev main_call16_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_25 : Ref sig .tc := ⟨.hbm, 160, rfl⟩
abbrev main_call17_v0 : Ref sig .tc := ⟨.hbm, 161, rfl⟩
abbrev main_v111 : Ref sig .tc := ⟨.hbm, 162, rfl⟩
abbrev main_v112 : Ref sig .tc := ⟨.hbm, 163, rfl⟩
abbrev main_c_26 : Ref sig .tc := ⟨.hbm, 164, rfl⟩
abbrev main_call18_v0 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_27 : Ref sig .tc := ⟨.hbm, 170, rfl⟩
abbrev main_call19_v0 : Ref sig .tc := ⟨.hbm, 171, rfl⟩
abbrev main_v117 : Ref sig .tc := ⟨.hbm, 172, rfl⟩
abbrev main_v118 : Ref sig .tc := ⟨.hbm, 173, rfl⟩
abbrev main_c_28 : Ref sig .tc := ⟨.hbm, 174, rfl⟩
abbrev main_call20_v0 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_c_29 : Ref sig .tc := ⟨.hbm, 180, rfl⟩
abbrev main_call21_v0 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_30 : Ref sig .tc := ⟨.hbm, 186, rfl⟩
abbrev main_call22_v0 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_31 : Ref sig .tc := ⟨.hbm, 192, rfl⟩
abbrev main_call23_v0 : Ref sig .tc := ⟨.hbm, 193, rfl⟩
abbrev main_v131 : Ref sig .tc := ⟨.hbm, 194, rfl⟩
abbrev main_v132 : Ref sig .tc := ⟨.hbm, 195, rfl⟩
abbrev main_c_32 : Ref sig .tc := ⟨.hbm, 196, rfl⟩
abbrev main_call24_v0 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_33 : Ref sig .tc := ⟨.hbm, 233, rfl⟩
abbrev main_v168 : Ref sig .tc := ⟨.hbm, 234, rfl⟩
abbrev main_cst_34 : Ref sig .tc := ⟨.hbm, 235, rfl⟩
abbrev main_v169 : Ref sig .tc := ⟨.hbm, 236, rfl⟩
abbrev main_v170 : Ref sig .tc := ⟨.hbm, 237, rfl⟩
abbrev main_cst_35 : Ref sig .tc := ⟨.hbm, 238, rfl⟩
abbrev main_v171 : Ref sig .tc := ⟨.hbm, 239, rfl⟩
abbrev main_cst_36 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_cst_37 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_38 : Ref sig .tc := ⟨.hbm, 253, rfl⟩
abbrev main_call25_v0 : Ref sig .tc := ⟨.hbm, 254, rfl⟩
abbrev main_call25_v1 : Ref sig .tc := ⟨.hbm, 255, rfl⟩
abbrev main_v183 : Ref sig .tc := ⟨.hbm, 256, rfl⟩
abbrev main_cst_39 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_cst_40 : Ref sig .tc := ⟨.hbm, 261, rfl⟩
abbrev main_call26_v0 : Ref sig .tc := ⟨.hbm, 262, rfl⟩
abbrev main_call26_v1 : Ref sig .tc := ⟨.hbm, 263, rfl⟩
abbrev main_v187 : Ref sig .tc := ⟨.hbm, 264, rfl⟩
abbrev main_v188 : Ref sig .tc := ⟨.hbm, 265, rfl⟩
abbrev main_cst_41 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_cst_42 : Ref sig .tc := ⟨.hbm, 271, rfl⟩
abbrev main_v193 : Ref sig .tc := ⟨.hbm, 272, rfl⟩
abbrev main_cst_43 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_cst_44 : Ref sig .tc := ⟨.hbm, 278, rfl⟩
abbrev main_call27_v0 : Ref sig .tc := ⟨.hbm, 279, rfl⟩
abbrev main_call27_v1 : Ref sig .tc := ⟨.hbm, 280, rfl⟩
abbrev main_v198 : Ref sig .tc := ⟨.hbm, 281, rfl⟩
abbrev main_cst_45 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_cst_46 : Ref sig .tc := ⟨.hbm, 286, rfl⟩
abbrev main_call28_v0 : Ref sig .tc := ⟨.hbm, 287, rfl⟩
abbrev main_call28_v1 : Ref sig .tc := ⟨.hbm, 288, rfl⟩
abbrev main_v202 : Ref sig .tc := ⟨.hbm, 289, rfl⟩
abbrev main_v203 : Ref sig .tc := ⟨.hbm, 290, rfl⟩
abbrev main_cst_47 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_cst_48 : Ref sig .tc := ⟨.hbm, 296, rfl⟩
abbrev main_v208 : Ref sig .tc := ⟨.hbm, 297, rfl⟩
abbrev main_cst_49 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_cst_50 : Ref sig .tc := ⟨.hbm, 302, rfl⟩
abbrev main_call29_v0 : Ref sig .tc := ⟨.hbm, 303, rfl⟩
abbrev main_call29_v1 : Ref sig .tc := ⟨.hbm, 304, rfl⟩
abbrev main_v212 : Ref sig .tc := ⟨.hbm, 305, rfl⟩
abbrev main_cst_51 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_cst_52 : Ref sig .tc := ⟨.hbm, 310, rfl⟩
abbrev main_call30_v0 : Ref sig .tc := ⟨.hbm, 311, rfl⟩
abbrev main_call30_v1 : Ref sig .tc := ⟨.hbm, 312, rfl⟩
abbrev main_v216 : Ref sig .tc := ⟨.hbm, 313, rfl⟩
abbrev main_v217 : Ref sig .tc := ⟨.hbm, 314, rfl⟩
abbrev main_cst_53 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_cst_54 : Ref sig .tc := ⟨.hbm, 320, rfl⟩
abbrev main_v222 : Ref sig .tc := ⟨.hbm, 321, rfl⟩
abbrev main_cst_55 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_cst_56 : Ref sig .tc := ⟨.hbm, 326, rfl⟩
abbrev main_call31_v0 : Ref sig .tc := ⟨.hbm, 327, rfl⟩
abbrev main_call31_v1 : Ref sig .tc := ⟨.hbm, 328, rfl⟩
abbrev main_v226 : Ref sig .tc := ⟨.hbm, 329, rfl⟩
abbrev main_cst_57 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_cst_58 : Ref sig .tc := ⟨.hbm, 334, rfl⟩
abbrev main_call32_v0 : Ref sig .tc := ⟨.hbm, 335, rfl⟩
abbrev main_call32_v1 : Ref sig .tc := ⟨.hbm, 336, rfl⟩
abbrev main_v230 : Ref sig .tc := ⟨.hbm, 337, rfl⟩
abbrev main_v231 : Ref sig .tc := ⟨.hbm, 338, rfl⟩
abbrev main_cst_59 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_cst_60 : Ref sig .tc := ⟨.hbm, 344, rfl⟩
abbrev main_v236 : Ref sig .tc := ⟨.hbm, 345, rfl⟩
abbrev main_cst_61 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_cst_62 : Ref sig .tc := ⟨.hbm, 350, rfl⟩
abbrev main_call33_v0 : Ref sig .tc := ⟨.hbm, 351, rfl⟩
abbrev main_call33_v1 : Ref sig .tc := ⟨.hbm, 352, rfl⟩
abbrev main_v240 : Ref sig .tc := ⟨.hbm, 353, rfl⟩
abbrev main_cst_63 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_cst_64 : Ref sig .tc := ⟨.hbm, 358, rfl⟩
abbrev main_call34_v0 : Ref sig .tc := ⟨.hbm, 359, rfl⟩
abbrev main_call34_v1 : Ref sig .tc := ⟨.hbm, 360, rfl⟩
abbrev main_v244 : Ref sig .tc := ⟨.hbm, 361, rfl⟩
abbrev main_v245 : Ref sig .tc := ⟨.hbm, 362, rfl⟩
abbrev main_cst_65 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_cst_66 : Ref sig .tc := ⟨.hbm, 368, rfl⟩
abbrev main_v250 : Ref sig .tc := ⟨.hbm, 369, rfl⟩
abbrev main_cst_67 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_cst_68 : Ref sig .tc := ⟨.hbm, 374, rfl⟩
abbrev main_call35_v0 : Ref sig .tc := ⟨.hbm, 375, rfl⟩
abbrev main_call35_v1 : Ref sig .tc := ⟨.hbm, 376, rfl⟩
abbrev main_v254 : Ref sig .tc := ⟨.hbm, 377, rfl⟩
abbrev main_cst_69 : Ref sig .tc := ⟨.hbm, 378, rfl⟩
abbrev main_v255 : Ref sig .tc := ⟨.hbm, 379, rfl⟩
abbrev main_v256 : Ref sig .tc := ⟨.hbm, 380, rfl⟩
abbrev main_v257 : Ref sig .tc := ⟨.hbm, 381, rfl⟩
abbrev main_cst_70 : Ref sig .tc := ⟨.hbm, 382, rfl⟩
abbrev main_call36_v0 : Ref sig .tc := ⟨.hbm, 383, rfl⟩
abbrev main_call36_v1 : Ref sig .tc := ⟨.hbm, 384, rfl⟩
abbrev main_v258 : Ref sig .tc := ⟨.hbm, 385, rfl⟩
abbrev main_v259 : Ref sig .tc := ⟨.hbm, 386, rfl⟩
abbrev main_cst_71 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_v263 : Ref sig .tc := ⟨.hbm, 391, rfl⟩
abbrev main_cst_72 : Ref sig .tc := ⟨.hbm, 392, rfl⟩
abbrev main_v264 : Ref sig .tc := ⟨.hbm, 393, rfl⟩
abbrev main_cst_73 : Ref sig .tc := ⟨.hbm, 394, rfl⟩
abbrev main_v265 : Ref sig .tc := ⟨.hbm, 395, rfl⟩
abbrev main_v266 : Ref sig .tc := ⟨.hbm, 396, rfl⟩
abbrev main_cst_74 : Ref sig .tc := ⟨.hbm, 397, rfl⟩
abbrev main_v267 : Ref sig .tc := ⟨.hbm, 398, rfl⟩
abbrev main_cst_75 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_cst_76 : Ref sig .tc := ⟨.hbm, 403, rfl⟩
abbrev main_v271 : Ref sig .tc := ⟨.hbm, 404, rfl⟩
abbrev main_v272 : Ref sig .tc := ⟨.hbm, 405, rfl⟩
abbrev main_cst_77 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩

abbrev nD : Nat := 1
abbrev τ : Topo := Topo.v7x

variable {F : FTy → Type} [FloatOps F]

class Facts₀ : Prop where
  reducesTo_S8x8x512x512_S8x512x512_d1 : S8x8x512x512.ReducesTo [1] S8x512x512
  h_S_ : 0 < S_.numel
  bcast_S_S8x512x512 : S_.BroadcastsInDim S8x512x512 (![] : Fin 0 → Fin S8x512x512.rank)
  bcast_S_S8x8x512x512 : S_.BroadcastsInDim S8x8x512x512 (![] : Fin 0 → Fin S8x8x512x512.rank)
  slices_S8x8x512x512_S8x1x512x512_0_4_0_0 : S8x8x512x512.Slices ![0, 4, 0, 0] S8x1x512x512
  shapeCasts_S8x1x512x512_S8x512x512 : S8x1x512x512.ShapeCasts S8x512x512
  pads_S8x512x512_S8x512x513_000_000_100 : S8x512x512.Pads (![0, 0, 1] : Fin 3 → Nat) ![0, 0, 0] ![0, 0, 0] S8x512x513
  slices_S8x512x513_S8x512x512_0_0_0 : S8x512x513.Slices ![0, 0, 0] S8x512x512
  slices_S8x8x512x512_S8x1x512x512_0_3_0_0 : S8x8x512x512.Slices ![0, 3, 0, 0] S8x1x512x512
  pads_S8x512x512_S8x512x513_000_000_010 : S8x512x512.Pads (![0, 0, 0] : Fin 3 → Nat) ![0, 0, 1] ![0, 0, 0] S8x512x513
  slices_S8x512x513_S8x512x512_0_0_1 : S8x512x513.Slices ![0, 0, 1] S8x512x512
  slices_S8x8x512x512_S8x1x512x512_0_5_0_0 : S8x8x512x512.Slices ![0, 5, 0, 0] S8x1x512x512
  pads_S8x512x512_S8x513x512_000_100_000 : S8x512x512.Pads (![0, 1, 0] : Fin 3 → Nat) ![0, 0, 0] ![0, 0, 0] S8x513x512
  slices_S8x513x512_S8x512x512_0_0_0 : S8x513x512.Slices ![0, 0, 0] S8x512x512
  slices_S8x8x512x512_S8x1x512x512_0_2_0_0 : S8x8x512x512.Slices ![0, 2, 0, 0] S8x1x512x512
  pads_S8x512x512_S8x513x512_000_010_000 : S8x512x512.Pads (![0, 0, 0] : Fin 3 → Nat) ![0, 1, 0] ![0, 0, 0] S8x513x512
  slices_S8x513x512_S8x512x512_0_1_0 : S8x513x512.Slices ![0, 1, 0] S8x512x512
  slices_S8x8x512x512_S8x1x512x512_0_0_0_0 : S8x8x512x512.Slices ![0, 0, 0, 0] S8x1x512x512
  slices_S8x8x512x512_S8x1x512x512_0_6_0_0 : S8x8x512x512.Slices ![0, 6, 0, 0] S8x1x512x512
  slices_S8x8x512x512_S8x1x512x512_0_1_0_0 : S8x8x512x512.Slices ![0, 1, 0, 0] S8x1x512x512
  slices_S8x8x512x512_S8x1x512x512_0_7_0_0 : S8x8x512x512.Slices ![0, 7, 0, 0] S8x1x512x512
  bcast_S8x512x512_S8x1x512x512_0_2_3 : S8x512x512.BroadcastsInDim S8x1x512x512 (![0, 2, 3] : Fin 3 → Fin S8x1x512x512.rank)
  concatenates_S8x1x512x512_S8x1x512x512_S8x1x512x512_S8x1x512x512_S8x1x512x512_S8x1x512x512_S8x1x512x512_S8x1x512x512_S8x8x512x512_d1 : Shape.Concatenates [S8x1x512x512, S8x1x512x512, S8x1x512x512, S8x1x512x512, S8x1x512x512, S8x1x512x512, S8x1x512x512, S8x1x512x512] S8x8x512x512 1
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  reducesTo_S8x8x512x512_S_d0_1_2_3 : S8x8x512x512.ReducesTo [0, 1, 2, 3] S_

variable [Facts₀]

class Facts : Prop extends Facts₀ where

variable [Facts]
-- ==== Proof.KVec.lean ====
/-
  The two kernel bodies as whole-plane expressions, in the kernel's own vector operations and at any float
  instance: the four border masks and one-pixel shifts (a rotation, then zero where the mask is clear), the
  clamped cross-entropy of two planes summed over columns then rows (`bce`), the eight votes `a1 … a8`, and per
  body the three scalars it adds into its three running outputs (`accum`).
-/
import proofs.«403145_j71588514889841_3_alg».proof.KernelIdeal
import Idealize.ShloMosaic.Lib.Pipeline.FrameBody

noncomputable section

namespace Cert.KernelIdeal.Vec

open Cert.KernelIdeal Idealize.ShloMosaic

variable {F : FTy → Type} [FloatOps F] [Facts]
open Facts₀ Facts

/-- column > 0 -/
def mskR : IVec S512x512 1 := cmpi .sgt (iota .tc S512x512 32 [1] iota_S512x512_d1_w32) (broadcast S512x512 (0#32 : BitVec 32))
/-- column < 511 -/
def mskL : IVec S512x512 1 := cmpi .slt (iota .tc S512x512 32 [1] iota_S512x512_d1_w32) (broadcast S512x512 (511#32 : BitVec 32))
/-- row > 0 -/
def mskD : IVec S512x512 1 := cmpi .sgt (iota .tc S512x512 32 [0] iota_S512x512_d0_w32) (broadcast S512x512 (0#32 : BitVec 32))
/-- row < 511 -/
def mskU : IVec S512x512 1 := cmpi .slt (iota .tc S512x512 32 [0] iota_S512x512_d0_w32) (broadcast S512x512 (511#32 : BitVec 32))

def zeroP : FVec F S512x512 .f32 := broadcast S512x512 (Scalar.ofBits .f32 0x00000000#32)
def oneP : FVec F S512x512 .f32 := broadcast S512x512 (Scalar.ofBits .f32 0x3F800000#32)
def m100P : FVec F S512x512 .f32 := broadcast S512x512 (Scalar.ofBits .f32 0xC2C80000#32)
def z11 : FVec F S1x1 .f32 := broadcast S1x1 (Scalar.ofBits .f32 0x00000000#32)

def shR (x : FVec F S512x512 .f32) : FVec F S512x512 .f32 := select mskR (dynamicRotate 1 (1#32) none x rotates_S512x512_d1) zeroP
def shL (x : FVec F S512x512 .f32) : FVec F S512x512 .f32 := select mskL (dynamicRotate 1 (511#32) none x rotates_S512x512_d1) zeroP
def shD (x : FVec F S512x512 .f32) : FVec F S512x512 .f32 := select mskD (dynamicRotate 0 (1#32) none x rotates_S512x512_d0) zeroP
def shU (x : FVec F S512x512 .f32) : FVec F S512x512 .f32 := select mskU (dynamicRotate 0 (511#32) none x rotates_S512x512_d0) zeroP

/-- Plane `k` of a block of eight. -/
def ch (X : Vec F S1x8x512x512 .f32) (k : Nat)
    (inb : ∀ a, (![0, k, 0, 0] : Fin 4 → Nat) a + S1x1x512x512.size a ≤ S1x8x512x512.size a) : FVec F S512x512 .f32 :=
  shapeCast S512x512 (View.ld X (Rect.unit (s := S1x8x512x512) ![0, k, 0, 0] S1x1x512x512.size inb) : Vec F S1x1x512x512 .f32)
    shapeCasts_S1x1x512x512_S512x512
/-- The one plane of a target block. -/
def chT (T : Vec F S1x1x512x512 .f32) : FVec F S512x512 .f32 :=
  shapeCast S512x512 (View.ld T (Rect.unit (s := S1x1x512x512) ![0, 0, 0, 0] S1x1x512x512.size inb_S1x1x512x512_S1x1x512x512_0_0_0_0) : Vec F S1x1x512x512 .f32)
    shapeCasts_S1x1x512x512_S512x512

/-- The clamped cross-entropy of prediction plane `p` against label plane `t`, sign flipped, summed over columns then rows. -/
def bce (p t : FVec F S512x512 .f32) : FVec F S1x1 .f32 :=
  shapeCast S1x1 (multiReduction .add [0] S1 (shapeCast S512x1 (multiReduction .add [1] S512
      (subf zeroP (addf (mulf t (maximumf (log p) m100P)) (mulf (subf oneP t) (maximumf (log (subf oneP p)) m100P))))
      0x00000000#32 reduces_S512x512_S512 (.inl rfl) rfl) shapeCasts_S512_S512x1)
    0x00000000#32 reduces_S512x1_S1 (.inl rfl) rfl) shapeCasts_S1_S1x1

/-- The sigmoid planes and label planes of one batch element, as the bodies load them. -/
structure Planes (F : FTy → Type) [FloatOps F] where
  c : Fin 8 → FVec F S512x512 .f32
  k : Fin 8 → FVec F S512x512 .f32

def planes (X C : Vec F S1x8x512x512 .f32) : Planes F where
  c := fun
    | ⟨0, _⟩ => logistic (ch X 0 inb_S1x8x512x512_S1x1x512x512_0_0_0_0)
    | ⟨1, _⟩ => logistic (ch X 1 inb_S1x8x512x512_S1x1x512x512_0_1_0_0)
    | ⟨2, _⟩ => logistic (ch X 2 inb_S1x8x512x512_S1x1x512x512_0_2_0_0)
    | ⟨3, _⟩ => logistic (ch X 3 inb_S1x8x512x512_S1x1x512x512_0_3_0_0)
    | ⟨4, _⟩ => logistic (ch X 4 inb_S1x8x512x512_S1x1x512x512_0_4_0_0)
    | ⟨5, _⟩ => logistic (ch X 5 inb_S1x8x512x512_S1x1x512x512_0_5_0_0)
    | ⟨6, _⟩ => logistic (ch X 6 inb_S1x8x512x512_S1x1x512x512_0_6_0_0)
    | ⟨7, _⟩ => logistic (ch X 7 inb_S1x8x512x512_S1x1x512x512_0_7_0_0)
    | ⟨n + 8, h⟩ => absurd h (by omega)
  k := fun
    | ⟨0, _⟩ => ch C 0 inb_S1x8x512x512_S1x1x512x512_0_0_0_0
    | ⟨1, _⟩ => ch C 1 inb_S1x8x512x512_S1x1x512x512_0_1_0_0
    | ⟨2, _⟩ => ch C 2 inb_S1x8x512x512_S1x1x512x512_0_2_0_0
    | ⟨3, _⟩ => ch C 3 inb_S1x8x512x512_S1x1x512x512_0_3_0_0
    | ⟨4, _⟩ => ch C 4 inb_S1x8x512x512_S1x1x512x512_0_4_0_0
    | ⟨5, _⟩ => ch C 5 inb_S1x8x512x512_S1x1x512x512_0_5_0_0
    | ⟨6, _⟩ => ch C 6 inb_S1x8x512x512_S1x1x512x512_0_6_0_0
    | ⟨7, _⟩ => ch C 7 inb_S1x8x512x512_S1x1x512x512_0_7_0_0
    | ⟨n + 8, h⟩ => absurd h (by omega)

variable (P : Planes F)

def a1 : FVec F S512x512 .f32 := mulf (P.c 3) (shR (P.c 4))
def a2 : FVec F S512x512 .f32 := mulf (P.c 4) (shL (P.c 3))
def a3 : FVec F S512x512 .f32 := mulf (P.c 1) (shD (P.c 6))
def a4 : FVec F S512x512 .f32 := mulf (P.c 6) (shU (P.c 1))
def a5 : FVec F S512x512 .f32 := mulf (P.c 2) (shL (shD (P.c 5)))
def a6 : FVec F S512x512 .f32 := mulf (P.c 5) (shR (shU (P.c 2)))
def a7 : FVec F S512x512 .f32 := mulf (P.c 0) (shR (shD (P.c 7)))
def a8 : FVec F S512x512 .f32 := mulf (P.c 7) (shL (shU (P.c 0)))

def gloSum : FVec F S512x512 .f32 :=
  addf (addf (addf (addf (addf (addf (addf (addf zeroP (a1 P)) (a2 P)) (a3 P)) (a4 P)) (a5 P)) (a6 P)) (a7 P)) (a8 P)
def glo : FVec F S512x512 .f32 := mulf (gloSum P) (broadcast S512x512 (Scalar.ofBits .f32 0x3E000000#32))
def sBicon : FVec F S1x1 .f32 :=
  addf (addf (addf (addf (addf (addf (addf (addf z11 (bce (a1 P) (P.k 3))) (bce (a2 P) (P.k 4))) (bce (a3 P) (P.k 1))) (bce (a4 P) (P.k 6)))
    (bce (a5 P) (P.k 2))) (bce (a6 P) (P.k 5))) (bce (a7 P) (P.k 0))) (bce (a8 P) (P.k 7))
def sConn : FVec F S1x1 .f32 :=
  addf (addf (addf (addf (addf (addf (addf (addf z11 (bce (P.c 3) (P.k 3))) (bce (P.c 4) (P.k 4))) (bce (P.c 1) (P.k 1))) (bce (P.c 6) (P.k 6)))
    (bce (P.c 2) (P.k 2))) (bce (P.c 5) (P.k 5))) (bce (P.c 0) (P.k 0))) (bce (P.c 7) (P.k 7))
def sBce (t : FVec F S512x512 .f32) : FVec F S1x1 .f32 := bce (glo P) t

def minAcc : FVec F S512x512 .f32 :=
  minimumf (minimumf (minimumf (minimumf oneP (minimumf (a1 P) (a2 P))) (minimumf (a3 P) (a4 P))) (minimumf (a5 P) (a6 P))) (minimumf (a7 P) (a8 P))
def sumConn : FVec F S512x512 .f32 :=
  addf (addf (addf (addf (addf (addf (addf (addf zeroP (P.k 3)) (P.k 4)) (P.k 1)) (P.k 6)) (P.k 2)) (P.k 5)) (P.k 0)) (P.k 7)
def edge : FVec F S512x512 .f32 :=
  select (andi (cmpf .olt (sumConn P) (broadcast S512x512 (Scalar.ofBits .f32 0x41000000#32))) (cmpf .ogt (sumConn P) zeroP)) oneP zeroP
def dec : FVec F S512x512 .f32 := addf (mulf (glo P) (subf oneP (edge P))) (mulf (subf oneP (minAcc P)) (edge P))
def sDe (t : FVec F S512x512 .f32) : FVec F S1x1 .f32 := bce (dec P) t

/-- A running output (one value in all 128 lanes) with a scalar added in every lane. -/
def accum (prev : Vec F S1x1x128 .f32) (s : FVec F S1x1 .f32) : FVec F S1x1x128 .f32 :=
  shapeCast S1x1x128 (addf (shapeCast S1x128 prev shapeCasts_S1x1x128_S1x128)
    (broadcastTo S1x128 (shapeCast S1x1 s shapeCasts_S1x1_S1x1) broadcasts_S1x1_S1x128)) shapeCasts_S1x128_S1x1x128
/-- The reset value of a running output. -/
def zero3 : FVec F S1x1x128 .f32 := shapeCast S1x1x128 (broadcast S1x128 (Scalar.ofBits .f32 0x00000000#32)) shapeCasts_S1x128_S1x1x128

end Cert.KernelIdeal.Vec

end
-- ==== Proof.KPiece.lean ====
/-
  What each kernel body leaves in its three running outputs, read off the runs the frame found: in the resetting case
  (first batch element of a core) the reset value plus the body's scalar, otherwise the running value plus the
  body's scalar — each scalar the whole-plane expression of KVec.lean over the three input blocks.
-/
import proofs.«403145_j71588514889841_3_alg».proof.Proof.Gen.KernelIdeal.Frame
import proofs.«403145_j71588514889841_3_alg».proof.Proof.KVec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Piece

open Cert.KernelIdeal Cert.KernelIdeal.Gen Cert.KernelIdeal.Vec

variable {F : FTy → Type} [FloatOps F]

theorem hz3 : (![0, 0, 0] : Fin 3 → Nat) = fun _ => 0 := funext fun a => by fin_cases a <;> rfl

/-! Resetting case: the body stores the reset value over the whole output, reads it back, and stores the sum over it
    again; the later store covers the block, so what is left is its payload with the read-back replaced by the reset
    value and every input load replaced by the whole input block. Otherwise: one covering store, whose payload reads
    the running value and the input blocks whole. In both cases the payload unfolds to the whole-plane expression. -/

theorem out0_A_3_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond0_0 i)
    (x0 : Vec F S1x8x512x512 .f32) (x1 : Vec F S1x1x512x512 .f32) (x2 : Vec F S1x8x512x512 .f32) :
    out0_A_3 c i a2 h2 a3 h3 a4 h4 a5 h5 a6 h6 a7 h7 hc x0 x1 x2 = accum zero3 (sBce (planes x0 x2) (chT x1)) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out0_B_3_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond0_0 i)
    (x0 : Vec F S1x8x512x512 .f32) (x1 : Vec F S1x1x512x512 .f32) (x2 : Vec F S1x8x512x512 .f32) (p3 p4 p5 : Vec F S1x1x128 .f32) :
    out0_B_3 c i a2 h2 a3 h3 a4 h4 a5 h5 a6 h6 a7 h7 hc x0 x1 x2 p3 p4 p5 = accum p3 (sBce (planes x0 x2) (chT x1)) := by
  unfold out0_B_3
  rw [View.read_writes_eq_canon _ _ _ (cover0_B_3 c i a2 h2 a3 h3 a4 h4 a5 h5 a6 h6 a7 h7 hc x0 x1 x2 p3 p4 p5)]
  unfold kernelRun0_B
  dsimp only
  sl_unfold_run_names
  rw [View.canon_unit_zero hz3]
  simp only [View.readAt_eq_ld, h2.read_unread, h3.read_unread, h4.read_unread, h5.read_unread, View.ld_unit_zero (S := S1x1x128) hz3]
  rfl

theorem out0_A_4_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond0_0 i)
    (x0 : Vec F S1x8x512x512 .f32) (x1 : Vec F S1x1x512x512 .f32) (x2 : Vec F S1x8x512x512 .f32) :
    out0_A_4 c i a2 h2 a3 h3 a4 h4 a5 h5 a6 h6 a7 h7 hc x0 x1 x2 = accum zero3 (sBicon (planes x0 x2)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out0_B_4_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond0_0 i)
    (x0 : Vec F S1x8x512x512 .f32) (x1 : Vec F S1x1x512x512 .f32) (x2 : Vec F S1x8x512x512 .f32) (p3 p4 p5 : Vec F S1x1x128 .f32) :
    out0_B_4 c i a2 h2 a3 h3 a4 h4 a5 h5 a6 h6 a7 h7 hc x0 x1 x2 p3 p4 p5 = accum p4 (sBicon (planes x0 x2)) := by
  unfold out0_B_4
  rw [View.read_writes_eq_canon _ _ _ (cover0_B_4 c i a2 h2 a3 h3 a4 h4 a5 h5 a6 h6 a7 h7 hc x0 x1 x2 p3 p4 p5)]
  unfold kernelRun0_B
  dsimp only
  sl_unfold_run_names
  rw [View.canon_unit_zero hz3]
  simp only [View.readAt_eq_ld, h2.read_unread, h3.read_unread, h4.read_unread, h6.read_unread, View.ld_unit_zero (S := S1x1x128) hz3]
  rfl

theorem out0_A_5_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond0_0 i)
    (x0 : Vec F S1x8x512x512 .f32) (x1 : Vec F S1x1x512x512 .f32) (x2 : Vec F S1x8x512x512 .f32) :
    out0_A_5 c i a2 h2 a3 h3 a4 h4 a5 h5 a6 h6 a7 h7 hc x0 x1 x2 = accum zero3 (sConn (planes x0 x2)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out0_B_5_eq (c : Dev nD) (i : grid0.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond0_0 i)
    (x0 : Vec F S1x8x512x512 .f32) (x1 : Vec F S1x1x512x512 .f32) (x2 : Vec F S1x8x512x512 .f32) (p3 p4 p5 : Vec F S1x1x128 .f32) :
    out0_B_5 c i a2 h2 a3 h3 a4 h4 a5 h5 a6 h6 a7 h7 hc x0 x1 x2 p3 p4 p5 = accum p5 (sConn (planes x0 x2)) := by
  unfold out0_B_5
  rw [View.read_writes_eq_canon _ _ _ (cover0_B_5 c i a2 h2 a3 h3 a4 h4 a5 h5 a6 h6 a7 h7 hc x0 x1 x2 p3 p4 p5)]
  unfold kernelRun0_B
  dsimp only
  sl_unfold_run_names
  rw [View.canon_unit_zero hz3]
  simp only [View.readAt_eq_ld, h2.read_unread, h3.read_unread, h4.read_unread, h7.read_unread, View.ld_unit_zero (S := S1x1x128) hz3]
  rfl

theorem out1_A_3_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond1_0 i)
    (x0 : Vec F S1x8x512x512 .f32) (x1 : Vec F S1x1x512x512 .f32) (x2 : Vec F S1x8x512x512 .f32) :
    out1_A_3 c i a2 h2 a3 h3 a4 h4 a5 h5 a6 h6 a7 h7 hc x0 x1 x2 = accum zero3 (sBicon (planes x0 x2)) := by
  unfold out1_A_3
  rw [View.read_writes_eq_canon _ _ _ (cover1_A_3 c i a2 h2 a3 h3 a4 h4 a5 h5 a6 h6 a7 h7 hc x0 x1 x2)]
  unfold kernelRun1_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out1_B_3_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond1_0 i)
    (x0 : Vec F S1x8x512x512 .f32) (x1 : Vec F S1x1x512x512 .f32) (x2 : Vec F S1x8x512x512 .f32) (p3 p4 p5 : Vec F S1x1x128 .f32) :
    out1_B_3 c i a2 h2 a3 h3 a4 h4 a5 h5 a6 h6 a7 h7 hc x0 x1 x2 p3 p4 p5 = accum p3 (sBicon (planes x0 x2)) := by
  unfold out1_B_3
  rw [View.read_writes_eq_canon _ _ _ (cover1_B_3 c i a2 h2 a3 h3 a4 h4 a5 h5 a6 h6 a7 h7 hc x0 x1 x2 p3 p4 p5)]
  unfold kernelRun1_B
  dsimp only
  sl_unfold_run_names
  rw [View.canon_unit_zero hz3]
  simp only [View.readAt_eq_ld, h2.read_unread, h3.read_unread, h4.read_unread, h5.read_unread, View.ld_unit_zero (S := S1x1x128) hz3]
  rfl

theorem out1_A_4_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond1_0 i)
    (x0 : Vec F S1x8x512x512 .f32) (x1 : Vec F S1x1x512x512 .f32) (x2 : Vec F S1x8x512x512 .f32) :
    out1_A_4 c i a2 h2 a3 h3 a4 h4 a5 h5 a6 h6 a7 h7 hc x0 x1 x2 = accum zero3 (sConn (planes x0 x2)) := by
  unfold out1_A_4
  rw [View.read_writes_eq_canon _ _ _ (cover1_A_4 c i a2 h2 a3 h3 a4 h4 a5 h5 a6 h6 a7 h7 hc x0 x1 x2)]
  unfold kernelRun1_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out1_B_4_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond1_0 i)
    (x0 : Vec F S1x8x512x512 .f32) (x1 : Vec F S1x1x512x512 .f32) (x2 : Vec F S1x8x512x512 .f32) (p3 p4 p5 : Vec F S1x1x128 .f32) :
    out1_B_4 c i a2 h2 a3 h3 a4 h4 a5 h5 a6 h6 a7 h7 hc x0 x1 x2 p3 p4 p5 = accum p4 (sConn (planes x0 x2)) := by
  unfold out1_B_4
  rw [View.read_writes_eq_canon _ _ _ (cover1_B_4 c i a2 h2 a3 h3 a4 h4 a5 h5 a6 h6 a7 h7 hc x0 x1 x2 p3 p4 p5)]
  unfold kernelRun1_B
  dsimp only
  sl_unfold_run_names
  rw [View.canon_unit_zero hz3]
  simp only [View.readAt_eq_ld, h2.read_unread, h3.read_unread, h4.read_unread, h6.read_unread, View.ld_unit_zero (S := S1x1x128) hz3]
  rfl

theorem out1_A_5_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : cond1_0 i)
    (x0 : Vec F S1x8x512x512 .f32) (x1 : Vec F S1x1x512x512 .f32) (x2 : Vec F S1x8x512x512 .f32) :
    out1_A_5 c i a2 h2 a3 h3 a4 h4 a5 h5 a6 h6 a7 h7 hc x0 x1 x2 = accum zero3 (sDe (planes x0 x2) (chT x1)) := by
  unfold out1_A_5
  rw [View.read_writes_eq_canon _ _ _ (cover1_A_5 c i a2 h2 a3 h3 a4 h4 a5 h5 a6 h6 a7 h7 hc x0 x1 x2)]
  unfold kernelRun1_A
  dsimp only
  sl_unfold_run_names
  rw [View.canon_cons_unit_zero (S := S1x1x128) hz3, View.readCov_unit_zero (S := S1x1x128) _ hz3]
  simp only [View.readAt_eq_ld, h2.read_unread, h3.read_unread, h4.read_unread, View.ld_unit_zero (S := S1x1x128) hz3]
  rfl

theorem out1_B_5_eq (c : Dev nD) (i : grid1.Coords) (a2 : Memref sig .tc .vmem S1x8x512x512 .f32) (h2 : a2.IsWhole)
    (a3 : Memref sig .tc .vmem S1x1x512x512 .f32) (h3 : a3.IsWhole) (a4 : Memref sig .tc .vmem S1x8x512x512 .f32) (h4 : a4.IsWhole)
    (a5 : Memref sig .tc .vmem S1x1x128 .f32) (h5 : a5.IsWhole) (a6 : Memref sig .tc .vmem S1x1x128 .f32) (h6 : a6.IsWhole)
    (a7 : Memref sig .tc .vmem S1x1x128 .f32) (h7 : a7.IsWhole) (hc : ¬cond1_0 i)
    (x0 : Vec F S1x8x512x512 .f32) (x1 : Vec F S1x1x512x512 .f32) (x2 : Vec F S1x8x512x512 .f32) (p3 p4 p5 : Vec F S1x1x128 .f32) :
    out1_B_5 c i a2 h2 a3 h3 a4 h4 a5 h5 a6 h6 a7 h7 hc x0 x1 x2 p3 p4 p5 = accum p5 (sDe (planes x0 x2) (chT x1)) := by
  unfold out1_B_5
  rw [View.read_writes_eq_canon _ _ _ (cover1_B_5 c i a2 h2 a3 h3 a4 h4 a5 h5 a6 h6 a7 h7 hc x0 x1 x2 p3 p4 p5)]
  unfold kernelRun1_B
  dsimp only
  sl_unfold_run_names
  rw [View.canon_unit_zero hz3]
  simp only [View.readAt_eq_ld, h2.read_unread, h3.read_unread, h4.read_unread, h7.read_unread, View.ld_unit_zero (S := S1x1x128) hz3]
  rfl

end Cert.KernelIdeal.Piece

end
-- ==== Proof.KAcc0.lean ====
/-
  Region 0 of the kernel program, point by point.  Grid point t (of eight) works on batch element t; points 0 and 4
  reset the three running outputs, every point adds its three scalars, and points 3 and 7 write the running outputs
  back as rows 0 and 1 of the three result arrays.  So row g of each result array holds, in every lane, the scalars of
  batch elements 4g … 4g+3 chained from the reset value.
-/
import proofs.«403145_j71588514889841_3_alg».proof.Proof.Gen.KernelIdeal.Frame
import proofs.«403145_j71588514889841_3_alg».proof.Proof.KVec
import proofs.«403145_j71588514889841_3_alg».proof.Proof.KPiece
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Acc0

open Cert.KernelIdeal Cert.KernelIdeal.Gen Cert.KernelIdeal.Vec Cert.KernelIdeal.Piece

variable {F : FTy → Type} [FloatOps F]
variable (V : (c : Dev nD) → (b : Ref sig .tc) → Buf (Elt F) ((c : Thread nD τ).loc b))

/-- The three input blocks of point t, at their literal types. -/
abbrev xb (c : Dev nD) (t : Fin cfg0.N) : Vec F S1x8x512x512 .f32 := iblk0 V c 0 t
abbrev tb (c : Dev nD) (t : Fin cfg0.N) : Vec F S1x1x512x512 .f32 := iblk0 V c 1 t
abbrev cb (c : Dev nD) (t : Fin cfg0.N) : Vec F S1x8x512x512 .f32 := iblk0 V c 2 t

/-- The three scalars point t adds, in window order. -/
def sc (c : Dev nD) (t : Fin cfg0.N) : FVec F S1x1 .f32 × FVec F S1x1 .f32 × FVec F S1x1 .f32 :=
  (sBce (planes (xb V c t) (cb V c t)) (chT (tb V c t)), sBicon (planes (xb V c t) (cb V c t)), sConn (planes (xb V c t) (cb V c t)))

/-- A resetting point leaves the reset value plus its scalars. -/
def stepA (c : Dev nD) (t : Fin cfg0.N) : Vec F S1x1x128 .f32 × Vec F S1x1x128 .f32 × Vec F S1x1x128 .f32 :=
  (accum zero3 (sc V c t).1, accum zero3 (sc V c t).2.1, accum zero3 (sc V c t).2.2)
/-- Any other point adds its scalars to what the point before left. -/
def stepB (c : Dev nD) (t : Fin cfg0.N) (p : Vec F S1x1x128 .f32 × Vec F S1x1x128 .f32 × Vec F S1x1x128 .f32) :
    Vec F S1x1x128 .f32 × Vec F S1x1x128 .f32 × Vec F S1x1x128 .f32 :=
  (accum p.1 (sc V c t).1, accum p.2.1 (sc V c t).2.1, accum p.2.2 (sc V c t).2.2)

theorem outs_A (c : Dev nD) (t : Fin cfg0.N) (h0 : t.val % 4 = 0) : outsAt0 V c t.val t.isLt = stepA V c t := by
  rw [outsAt0_A V c t h0]
  unfold stepA sc
  rw [out0_A_3_eq, out0_A_4_eq, out0_A_5_eq]

theorem outs_B (c : Dev nD) (t : Fin cfg0.N) (h0 : ¬t.val % 4 = 0) :
    outsAt0 V c t.val t.isLt = stepB V c t (outsAt0 V c (t.val - 1) (Nat.lt_of_le_of_lt (Nat.sub_le _ _) t.isLt)) := by
  rw [outsAt0_B V c t h0]
  unfold stepB sc
  rw [out0_B_3_eq, out0_B_4_eq, out0_B_5_eq]

/-- After point 3: batch elements 0 … 3 chained. -/
theorem outs_3 (c : Dev nD) : outsAt0 V c t0_3.val t0_3.isLt = stepB V c t0_3 (stepB V c t0_2 (stepB V c t0_1 (stepA V c t0_0))) := by
  have e0 := outs_A V c t0_0 (by decide)
  have e1 := outs_B V c t0_1 (by decide)
  have e2 := outs_B V c t0_2 (by decide)
  have e3 := outs_B V c t0_3 (by decide)
  rw [e3]
  show stepB V c t0_3 (outsAt0 V c t0_2.val t0_2.isLt) = _
  rw [e2]
  show stepB V c t0_3 (stepB V c t0_2 (outsAt0 V c t0_1.val t0_1.isLt)) = _
  rw [e1]
  show stepB V c t0_3 (stepB V c t0_2 (stepB V c t0_1 (outsAt0 V c t0_0.val t0_0.isLt))) = _
  rw [e0]

/-- After point 7: batch elements 4 … 7 chained. -/
theorem outs_7 (c : Dev nD) : outsAt0 V c t0_7.val t0_7.isLt = stepB V c t0_7 (stepB V c t0_6 (stepB V c t0_5 (stepA V c t0_4))) := by
  have e0 := outs_A V c t0_4 (by decide)
  have e1 := outs_B V c t0_5 (by decide)
  have e2 := outs_B V c t0_6 (by decide)
  have e3 := outs_B V c t0_7 (by decide)
  rw [e3]
  show stepB V c t0_7 (outsAt0 V c t0_6.val t0_6.isLt) = _
  rw [e2]
  show stepB V c t0_7 (stepB V c t0_6 (outsAt0 V c t0_5.val t0_5.isLt)) = _
  rw [e1]
  show stepB V c t0_7 (stepB V c t0_6 (stepB V c t0_5 (outsAt0 V c t0_4.val t0_4.isLt))) = _
  rw [e0]

end Cert.KernelIdeal.Acc0

end
-- ==== Proof.KArr0.lean ====
/-
  Region 0: the three result arrays at the end of the region.  Each is two rows of 128 lanes; row 0 is written
  back after point 3 and row 1 after point 7, so the array holds, in row g, what the running output held after point
  4g + 3.
-/
import proofs.«403145_j71588514889841_3_alg».proof.Proof.KAcc0
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr0

open Cert.KernelIdeal Cert.KernelIdeal.Gen Cert.KernelIdeal.Vec Cert.KernelIdeal.Acc0

variable {F : FTy → Type} [FloatOps F]
variable (V : (c : Dev nD) → (b : Ref sig .tc) → Buf (Elt F) ((c : Thread nD τ).loc b))

/-- Two rows from the two write-backs. -/
def rows (p q : Vec F S1x1x128 .f32) : Vec F S2x1x128 .f32 :=
  fun j => if (j 0).val = 0 then p (ix3 0 0 (j 2)) else q (ix3 0 0 (j 2))

/-- What point 3 and point 7 write back of output 3 is row 0 and row 1 of the two rows. -/
theorem flushed_eq3 (c : Dev nD) (t : Fin cfg0.N) (hf : (cfg0.win 3).flush t = true) :
    (dat0 V c).flushed 3 t = ((cfg0.win 3).blk t).view.read (Elt F)
      (rows (outsAt0 V c t0_3.val t0_3.isLt).1 (outsAt0 V c t0_7.val t0_7.isLt).1) := by
  have h3 : t.val % 4 = 3 := (flush0_3 t).mp hf
  rcases fin_N0 t with rfl | rfl | rfl | rfl | rfl | rfl | rfl | rfl
  all_goals first
    | (exfalso; revert h3; decide)
    | skip
  ·
    show (cfg0.win 3).cut (grid0.coords t0_3) ((dat0 V c).after 3 t0_3) = _
    rw [after0_3]
    funext y
    show (outsAt0 V c t0_3.val t0_3.isLt).1 y = rows (outsAt0 V c t0_3.val t0_3.isLt).1 (outsAt0 V c t0_7.val t0_7.isLt).1 (((cfg0.win 3).blk t0_3).view.emb y)
    have e0 : ((((cfg0.win 3).blk t0_3).view.emb y) 0).val = 0 := by
      show win0_3.index t0_3 0 * 1 + 1 * (y 0).val = 0
      have h1 : (y 0).val < 1 := (y 0).isLt
      have h2 : win0_3.index t0_3 0 = 0 := by decide +kernel
      omega
    have e2 : ((((cfg0.win 3).blk t0_3).view.emb y) 2).val = (y 2).val := by
      show win0_3.index t0_3 2 * 128 + 1 * (y 2).val = (y 2).val
      have h2 : win0_3.index t0_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg0.win 3).cut (grid0.coords t0_7) ((dat0 V c).after 3 t0_7) = _
    rw [after0_3]
    funext y
    show (outsAt0 V c t0_7.val t0_7.isLt).1 y = rows (outsAt0 V c t0_3.val t0_3.isLt).1 (outsAt0 V c t0_7.val t0_7.isLt).1 (((cfg0.win 3).blk t0_7).view.emb y)
    have e0 : ((((cfg0.win 3).blk t0_7).view.emb y) 0).val = 1 := by
      show win0_3.index t0_7 0 * 1 + 1 * (y 0).val = 1
      have h1 : (y 0).val < 1 := (y 0).isLt
      have h2 : win0_3.index t0_7 0 = 1 := by decide +kernel
      omega
    have e2 : ((((cfg0.win 3).blk t0_7).view.emb y) 2).val = (y 2).val := by
      show win0_3.index t0_7 2 * 128 + 1 * (y 2).val = (y 2).val
      have h2 : win0_3.index t0_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t0_3, (flush0_3 t0_3).mpr (by decide), ?_⟩
    show i ∈ ((View.whole main_v0_0).slice (win0_3.rect t0_3)).set
    rw [View.set_slice_whole, Rect.mem_set_unit]
    intro a
    match a with
    | ⟨0, _⟩ => show win0_3.index t0_3 0 * win0_3.size 0 ≤ (i 0 : Nat) ∧ (i 0 : Nat) < win0_3.index t0_3 0 * win0_3.size 0 + win0_3.xsize (grid0.coords t0_3) 0
                rw [show win0_3.index t0_3 0 * win0_3.size 0 = 0 from by decide +kernel, show win0_3.xsize (grid0.coords t0_3) 0 = 1 from by decide +kernel]; omega
    | ⟨1, _⟩ => show win0_3.index t0_3 1 * win0_3.size 1 ≤ (i 1 : Nat) ∧ (i 1 : Nat) < win0_3.index t0_3 1 * win0_3.size 1 + win0_3.xsize (grid0.coords t0_3) 1
                rw [show win0_3.index t0_3 1 * win0_3.size 1 = 0 from by decide +kernel, show win0_3.xsize (grid0.coords t0_3) 1 = 1 from by decide +kernel]; omega
    | ⟨2, _⟩ => show win0_3.index t0_3 2 * win0_3.size 2 ≤ (i 2 : Nat) ∧ (i 2 : Nat) < win0_3.index t0_3 2 * win0_3.size 2 + win0_3.xsize (grid0.coords t0_3) 2
                rw [show win0_3.index t0_3 2 * win0_3.size 2 = 0 from by decide +kernel, show win0_3.xsize (grid0.coords t0_3) 2 = 128 from by decide +kernel]; omega
  · refine ⟨t0_7, (flush0_3 t0_7).mpr (by decide), ?_⟩
    show i ∈ ((View.whole main_v0_0).slice (win0_3.rect t0_7)).set
    rw [View.set_slice_whole, Rect.mem_set_unit]
    intro a
    match a with
    | ⟨0, _⟩ => show win0_3.index t0_7 0 * win0_3.size 0 ≤ (i 0 : Nat) ∧ (i 0 : Nat) < win0_3.index t0_7 0 * win0_3.size 0 + win0_3.xsize (grid0.coords t0_7) 0
                rw [show win0_3.index t0_7 0 * win0_3.size 0 = 1 from by decide +kernel, show win0_3.xsize (grid0.coords t0_7) 0 = 1 from by decide +kernel]; omega
    | ⟨1, _⟩ => show win0_3.index t0_7 1 * win0_3.size 1 ≤ (i 1 : Nat) ∧ (i 1 : Nat) < win0_3.index t0_7 1 * win0_3.size 1 + win0_3.xsize (grid0.coords t0_7) 1
                rw [show win0_3.index t0_7 1 * win0_3.size 1 = 0 from by decide +kernel, show win0_3.xsize (grid0.coords t0_7) 1 = 1 from by decide +kernel]; omega
    | ⟨2, _⟩ => show win0_3.index t0_7 2 * win0_3.size 2 ≤ (i 2 : Nat) ∧ (i 2 : Nat) < win0_3.index t0_7 2 * win0_3.size 2 + win0_3.xsize (grid0.coords t0_7) 2
                rw [show win0_3.index t0_7 2 * win0_3.size 2 = 0 from by decide +kernel, show win0_3.xsize (grid0.coords t0_7) 2 = 128 from by decide +kernel]; omega

/-- Result array 3 at the end of the region. -/
theorem arr3 (c : Dev nD) : (dat0 V c).arrAt 3 cfg0.N
    = rows (outsAt0 V c t0_3.val t0_3.isLt).1 (outsAt0 V c t0_7.val t0_7.isLt).1 :=
  (dat0 V c).arrAt_eq_of_cover 3 _ (flushed_eq3 V c) (cover3 c)

/-- What point 3 and point 7 write back of output 4 is row 0 and row 1 of the two rows. -/
theorem flushed_eq4 (c : Dev nD) (t : Fin cfg0.N) (hf : (cfg0.win 4).flush t = true) :
    (dat0 V c).flushed 4 t = ((cfg0.win 4).blk t).view.read (Elt F)
      (rows (outsAt0 V c t0_3.val t0_3.isLt).2.1 (outsAt0 V c t0_7.val t0_7.isLt).2.1) := by
  have h3 : t.val % 4 = 3 := (flush0_4 t).mp hf
  rcases fin_N0 t with rfl | rfl | rfl | rfl | rfl | rfl | rfl | rfl
  all_goals first
    | (exfalso; revert h3; decide)
    | skip
  ·
    show (cfg0.win 4).cut (grid0.coords t0_3) ((dat0 V c).after 4 t0_3) = _
    rw [after0_4]
    funext y
    show (outsAt0 V c t0_3.val t0_3.isLt).2.1 y = rows (outsAt0 V c t0_3.val t0_3.isLt).2.1 (outsAt0 V c t0_7.val t0_7.isLt).2.1 (((cfg0.win 4).blk t0_3).view.emb y)
    have e0 : ((((cfg0.win 4).blk t0_3).view.emb y) 0).val = 0 := by
      show win0_4.index t0_3 0 * 1 + 1 * (y 0).val = 0
      have h1 : (y 0).val < 1 := (y 0).isLt
      have h2 : win0_4.index t0_3 0 = 0 := by decide +kernel
      omega
    have e2 : ((((cfg0.win 4).blk t0_3).view.emb y) 2).val = (y 2).val := by
      show win0_4.index t0_3 2 * 128 + 1 * (y 2).val = (y 2).val
      have h2 : win0_4.index t0_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg0.win 4).cut (grid0.coords t0_7) ((dat0 V c).after 4 t0_7) = _
    rw [after0_4]
    funext y
    show (outsAt0 V c t0_7.val t0_7.isLt).2.1 y = rows (outsAt0 V c t0_3.val t0_3.isLt).2.1 (outsAt0 V c t0_7.val t0_7.isLt).2.1 (((cfg0.win 4).blk t0_7).view.emb y)
    have e0 : ((((cfg0.win 4).blk t0_7).view.emb y) 0).val = 1 := by
      show win0_4.index t0_7 0 * 1 + 1 * (y 0).val = 1
      have h1 : (y 0).val < 1 := (y 0).isLt
      have h2 : win0_4.index t0_7 0 = 1 := by decide +kernel
      omega
    have e2 : ((((cfg0.win 4).blk t0_7).view.emb y) 2).val = (y 2).val := by
      show win0_4.index t0_7 2 * 128 + 1 * (y 2).val = (y 2).val
      have h2 : win0_4.index t0_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t0_3, (flush0_4 t0_3).mpr (by decide), ?_⟩
    show i ∈ ((View.whole main_v0_1).slice (win0_4.rect t0_3)).set
    rw [View.set_slice_whole, Rect.mem_set_unit]
    intro a
    match a with
    | ⟨0, _⟩ => show win0_4.index t0_3 0 * win0_4.size 0 ≤ (i 0 : Nat) ∧ (i 0 : Nat) < win0_4.index t0_3 0 * win0_4.size 0 + win0_4.xsize (grid0.coords t0_3) 0
                rw [show win0_4.index t0_3 0 * win0_4.size 0 = 0 from by decide +kernel, show win0_4.xsize (grid0.coords t0_3) 0 = 1 from by decide +kernel]; omega
    | ⟨1, _⟩ => show win0_4.index t0_3 1 * win0_4.size 1 ≤ (i 1 : Nat) ∧ (i 1 : Nat) < win0_4.index t0_3 1 * win0_4.size 1 + win0_4.xsize (grid0.coords t0_3) 1
                rw [show win0_4.index t0_3 1 * win0_4.size 1 = 0 from by decide +kernel, show win0_4.xsize (grid0.coords t0_3) 1 = 1 from by decide +kernel]; omega
    | ⟨2, _⟩ => show win0_4.index t0_3 2 * win0_4.size 2 ≤ (i 2 : Nat) ∧ (i 2 : Nat) < win0_4.index t0_3 2 * win0_4.size 2 + win0_4.xsize (grid0.coords t0_3) 2
                rw [show win0_4.index t0_3 2 * win0_4.size 2 = 0 from by decide +kernel, show win0_4.xsize (grid0.coords t0_3) 2 = 128 from by decide +kernel]; omega
  · refine ⟨t0_7, (flush0_4 t0_7).mpr (by decide), ?_⟩
    show i ∈ ((View.whole main_v0_1).slice (win0_4.rect t0_7)).set
    rw [View.set_slice_whole, Rect.mem_set_unit]
    intro a
    match a with
    | ⟨0, _⟩ => show win0_4.index t0_7 0 * win0_4.size 0 ≤ (i 0 : Nat) ∧ (i 0 : Nat) < win0_4.index t0_7 0 * win0_4.size 0 + win0_4.xsize (grid0.coords t0_7) 0
                rw [show win0_4.index t0_7 0 * win0_4.size 0 = 1 from by decide +kernel, show win0_4.xsize (grid0.coords t0_7) 0 = 1 from by decide +kernel]; omega
    | ⟨1, _⟩ => show win0_4.index t0_7 1 * win0_4.size 1 ≤ (i 1 : Nat) ∧ (i 1 : Nat) < win0_4.index t0_7 1 * win0_4.size 1 + win0_4.xsize (grid0.coords t0_7) 1
                rw [show win0_4.index t0_7 1 * win0_4.size 1 = 0 from by decide +kernel, show win0_4.xsize (grid0.coords t0_7) 1 = 1 from by decide +kernel]; omega
    | ⟨2, _⟩ => show win0_4.index t0_7 2 * win0_4.size 2 ≤ (i 2 : Nat) ∧ (i 2 : Nat) < win0_4.index t0_7 2 * win0_4.size 2 + win0_4.xsize (grid0.coords t0_7) 2
                rw [show win0_4.index t0_7 2 * win0_4.size 2 = 0 from by decide +kernel, show win0_4.xsize (grid0.coords t0_7) 2 = 128 from by decide +kernel]; omega

/-- Result array 4 at the end of the region. -/
theorem arr4 (c : Dev nD) : (dat0 V c).arrAt 4 cfg0.N
    = rows (outsAt0 V c t0_3.val t0_3.isLt).2.1 (outsAt0 V c t0_7.val t0_7.isLt).2.1 :=
  (dat0 V c).arrAt_eq_of_cover 4 _ (flushed_eq4 V c) (cover4 c)

/-- What point 3 and point 7 write back of output 5 is row 0 and row 1 of the two rows. -/
theorem flushed_eq5 (c : Dev nD) (t : Fin cfg0.N) (hf : (cfg0.win 5).flush t = true) :
    (dat0 V c).flushed 5 t = ((cfg0.win 5).blk t).view.read (Elt F)
      (rows (outsAt0 V c t0_3.val t0_3.isLt).2.2 (outsAt0 V c t0_7.val t0_7.isLt).2.2) := by
  have h3 : t.val % 4 = 3 := (flush0_5 t).mp hf
  rcases fin_N0 t with rfl | rfl | rfl | rfl | rfl | rfl | rfl | rfl
  all_goals first
    | (exfalso; revert h3; decide)
    | skip
  ·
    show (cfg0.win 5).cut (grid0.coords t0_3) ((dat0 V c).after 5 t0_3) = _
    rw [after0_5]
    funext y
    show (outsAt0 V c t0_3.val t0_3.isLt).2.2 y = rows (outsAt0 V c t0_3.val t0_3.isLt).2.2 (outsAt0 V c t0_7.val t0_7.isLt).2.2 (((cfg0.win 5).blk t0_3).view.emb y)
    have e0 : ((((cfg0.win 5).blk t0_3).view.emb y) 0).val = 0 := by
      show win0_5.index t0_3 0 * 1 + 1 * (y 0).val = 0
      have h1 : (y 0).val < 1 := (y 0).isLt
      have h2 : win0_5.index t0_3 0 = 0 := by decide +kernel
      omega
    have e2 : ((((cfg0.win 5).blk t0_3).view.emb y) 2).val = (y 2).val := by
      show win0_5.index t0_3 2 * 128 + 1 * (y 2).val = (y 2).val
      have h2 : win0_5.index t0_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg0.win 5).cut (grid0.coords t0_7) ((dat0 V c).after 5 t0_7) = _
    rw [after0_5]
    funext y
    show (outsAt0 V c t0_7.val t0_7.isLt).2.2 y = rows (outsAt0 V c t0_3.val t0_3.isLt).2.2 (outsAt0 V c t0_7.val t0_7.isLt).2.2 (((cfg0.win 5).blk t0_7).view.emb y)
    have e0 : ((((cfg0.win 5).blk t0_7).view.emb y) 0).val = 1 := by
      show win0_5.index t0_7 0 * 1 + 1 * (y 0).val = 1
      have h1 : (y 0).val < 1 := (y 0).isLt
      have h2 : win0_5.index t0_7 0 = 1 := by decide +kernel
      omega
    have e2 : ((((cfg0.win 5).blk t0_7).view.emb y) 2).val = (y 2).val := by
      show win0_5.index t0_7 2 * 128 + 1 * (y 2).val = (y 2).val
      have h2 : win0_5.index t0_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t0_3, (flush0_5 t0_3).mpr (by decide), ?_⟩
    show i ∈ ((View.whole main_v0_2).slice (win0_5.rect t0_3)).set
    rw [View.set_slice_whole, Rect.mem_set_unit]
    intro a
    match a with
    | ⟨0, _⟩ => show win0_5.index t0_3 0 * win0_5.size 0 ≤ (i 0 : Nat) ∧ (i 0 : Nat) < win0_5.index t0_3 0 * win0_5.size 0 + win0_5.xsize (grid0.coords t0_3) 0
                rw [show win0_5.index t0_3 0 * win0_5.size 0 = 0 from by decide +kernel, show win0_5.xsize (grid0.coords t0_3) 0 = 1 from by decide +kernel]; omega
    | ⟨1, _⟩ => show win0_5.index t0_3 1 * win0_5.size 1 ≤ (i 1 : Nat) ∧ (i 1 : Nat) < win0_5.index t0_3 1 * win0_5.size 1 + win0_5.xsize (grid0.coords t0_3) 1
                rw [show win0_5.index t0_3 1 * win0_5.size 1 = 0 from by decide +kernel, show win0_5.xsize (grid0.coords t0_3) 1 = 1 from by decide +kernel]; omega
    | ⟨2, _⟩ => show win0_5.index t0_3 2 * win0_5.size 2 ≤ (i 2 : Nat) ∧ (i 2 : Nat) < win0_5.index t0_3 2 * win0_5.size 2 + win0_5.xsize (grid0.coords t0_3) 2
                rw [show win0_5.index t0_3 2 * win0_5.size 2 = 0 from by decide +kernel, show win0_5.xsize (grid0.coords t0_3) 2 = 128 from by decide +kernel]; omega
  · refine ⟨t0_7, (flush0_5 t0_7).mpr (by decide), ?_⟩
    show i ∈ ((View.whole main_v0_2).slice (win0_5.rect t0_7)).set
    rw [View.set_slice_whole, Rect.mem_set_unit]
    intro a
    match a with
    | ⟨0, _⟩ => show win0_5.index t0_7 0 * win0_5.size 0 ≤ (i 0 : Nat) ∧ (i 0 : Nat) < win0_5.index t0_7 0 * win0_5.size 0 + win0_5.xsize (grid0.coords t0_7) 0
                rw [show win0_5.index t0_7 0 * win0_5.size 0 = 1 from by decide +kernel, show win0_5.xsize (grid0.coords t0_7) 0 = 1 from by decide +kernel]; omega
    | ⟨1, _⟩ => show win0_5.index t0_7 1 * win0_5.size 1 ≤ (i 1 : Nat) ∧ (i 1 : Nat) < win0_5.index t0_7 1 * win0_5.size 1 + win0_5.xsize (grid0.coords t0_7) 1
                rw [show win0_5.index t0_7 1 * win0_5.size 1 = 0 from by decide +kernel, show win0_5.xsize (grid0.coords t0_7) 1 = 1 from by decide +kernel]; omega
    | ⟨2, _⟩ => show win0_5.index t0_7 2 * win0_5.size 2 ≤ (i 2 : Nat) ∧ (i 2 : Nat) < win0_5.index t0_7 2 * win0_5.size 2 + win0_5.xsize (grid0.coords t0_7) 2
                rw [show win0_5.index t0_7 2 * win0_5.size 2 = 0 from by decide +kernel, show win0_5.xsize (grid0.coords t0_7) 2 = 128 from by decide +kernel]; omega

/-- Result array 5 at the end of the region. -/
theorem arr5 (c : Dev nD) : (dat0 V c).arrAt 5 cfg0.N
    = rows (outsAt0 V c t0_3.val t0_3.isLt).2.2 (outsAt0 V c t0_7.val t0_7.isLt).2.2 :=
  (dat0 V c).arrAt_eq_of_cover 5 _ (flushed_eq5 V c) (cover5 c)

end Cert.KernelIdeal.Arr0

end
-- ==== Proof.KBlk.lean ====
/-
  Where the two regions read and write.  Point t of either region reads batch element t of its three input arrays
  (an entry of the block at (0, k, h, w) is the array's entry at (t, k, h, w)); the second region finds the
  arguments as launched, because the first region writes none of them; and the six result arrays the host tail reads
  are what the two regions' write-backs leave.
-/
import proofs.«403145_j71588514889841_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blk

open Cert.KernelIdeal Cert.KernelIdeal.Gen

variable {F : FTy → Type} [FloatOps F]

/-- The batch element a grid point works on: the point's own number. -/
def bt0 (t : Fin cfg0.N) : Fin 8 := ⟨t.val, Nat.lt_of_lt_of_eq t.isLt N_0⟩
def bt1 (t : Fin cfg1.N) : Fin 8 := ⟨t.val, Nat.lt_of_lt_of_eq t.isLt N_1⟩

section Blocks
variable (V : (c : Dev nD) → (b : Ref sig .tc) → Buf (Elt F) ((c : Thread nD τ).loc b))

theorem iblk0_0 (c : Dev nD) (t : Fin cfg0.N) (k : Fin 8) (h w : Fin 512) :
    (iblk0 V c 0 t : Vec F S1x8x512x512 .f32) (ix4 0 k h w) = (V c main_arg0 : Vec F S8x8x512x512 .f32) (ix4 (bt0 t) k h w) := by
  show V c main_arg0 (((cfg0.win 0).blk t).view.emb (ix4 0 k h w)) = V c main_arg0 _
  refine congrArg _ (funext fun a => Fin.ext ?_)
  have hi : win0_0.index t 0 = t.val ∧ win0_0.index t 1 = 0 ∧ win0_0.index t 2 = 0 ∧ win0_0.index t 3 = 0 := by
    rcases fin_N0 t with rfl | rfl | rfl | rfl | rfl | rfl | rfl | rfl <;> decide +kernel
  match a with
  | ⟨0, _⟩ => show win0_0.index t 0 * 1 + 1 * 0 = t.val; have h' := hi.1; omega
  | ⟨1, _⟩ => show win0_0.index t 1 * 8 + 1 * k.val = k.val; have h' := hi.2.1; omega
  | ⟨2, _⟩ => show win0_0.index t 2 * 512 + 1 * h.val = h.val; have h' := hi.2.2.1; omega
  | ⟨3, _⟩ => show win0_0.index t 3 * 512 + 1 * w.val = w.val; have h' := hi.2.2.2; omega

theorem iblk0_1 (c : Dev nD) (t : Fin cfg0.N) (h w : Fin 512) :
    (iblk0 V c 1 t : Vec F S1x1x512x512 .f32) (ix4 0 0 h w) = (V c main_arg2 : Vec F S8x1x512x512 .f32) (ix4 (bt0 t) 0 h w) := by
  show V c main_arg2 (((cfg0.win 1).blk t).view.emb (ix4 0 0 h w)) = V c main_arg2 _
  refine congrArg _ (funext fun a => Fin.ext ?_)
  have hi : win0_1.index t 0 = t.val ∧ win0_1.index t 1 = 0 ∧ win0_1.index t 2 = 0 ∧ win0_1.index t 3 = 0 := by
    rcases fin_N0 t with rfl | rfl | rfl | rfl | rfl | rfl | rfl | rfl <;> decide +kernel
  match a with
  | ⟨0, _⟩ => show win0_1.index t 0 * 1 + 1 * 0 = t.val; have h' := hi.1; omega
  | ⟨1, _⟩ => show win0_1.index t 1 * 1 + 1 * 0 = 0; have h' := hi.2.1; omega
  | ⟨2, _⟩ => show win0_1.index t 2 * 512 + 1 * h.val = h.val; have h' := hi.2.2.1; omega
  | ⟨3, _⟩ => show win0_1.index t 3 * 512 + 1 * w.val = w.val; have h' := hi.2.2.2; omega

theorem iblk0_2 (c : Dev nD) (t : Fin cfg0.N) (k : Fin 8) (h w : Fin 512) :
    (iblk0 V c 2 t : Vec F S1x8x512x512 .f32) (ix4 0 k h w) = (V c main_arg3 : Vec F S8x8x512x512 .f32) (ix4 (bt0 t) k h w) := by
  show V c main_arg3 (((cfg0.win 2).blk t).view.emb (ix4 0 k h w)) = V c main_arg3 _
  refine congrArg _ (funext fun a => Fin.ext ?_)
  have hi : win0_2.index t 0 = t.val ∧ win0_2.index t 1 = 0 ∧ win0_2.index t 2 = 0 ∧ win0_2.index t 3 = 0 := by
    rcases fin_N0 t with rfl | rfl | rfl | rfl | rfl | rfl | rfl | rfl <;> decide +kernel
  match a with
  | ⟨0, _⟩ => show win0_2.index t 0 * 1 + 1 * 0 = t.val; have h' := hi.1; omega
  | ⟨1, _⟩ => show win0_2.index t 1 * 8 + 1 * k.val = k.val; have h' := hi.2.1; omega
  | ⟨2, _⟩ => show win0_2.index t 2 * 512 + 1 * h.val = h.val; have h' := hi.2.2.1; omega
  | ⟨3, _⟩ => show win0_2.index t 3 * 512 + 1 * w.val = w.val; have h' := hi.2.2.2; omega

theorem iblk1_0 (c : Dev nD) (t : Fin cfg1.N) (k : Fin 8) (h w : Fin 512) :
    (iblk1 V c 0 t : Vec F S1x8x512x512 .f32) (ix4 0 k h w) = (V c main_arg1 : Vec F S8x8x512x512 .f32) (ix4 (bt1 t) k h w) := by
  show V c main_arg1 (((cfg1.win 0).blk t).view.emb (ix4 0 k h w)) = V c main_arg1 _
  refine congrArg _ (funext fun a => Fin.ext ?_)
  have hi : win1_0.index t 0 = t.val ∧ win1_0.index t 1 = 0 ∧ win1_0.index t 2 = 0 ∧ win1_0.index t 3 = 0 := by
    rcases fin_N1 t with rfl | rfl | rfl | rfl | rfl | rfl | rfl | rfl <;> decide +kernel
  match a with
  | ⟨0, _⟩ => show win1_0.index t 0 * 1 + 1 * 0 = t.val; have h' := hi.1; omega
  | ⟨1, _⟩ => show win1_0.index t 1 * 8 + 1 * k.val = k.val; have h' := hi.2.1; omega
  | ⟨2, _⟩ => show win1_0.index t 2 * 512 + 1 * h.val = h.val; have h' := hi.2.2.1; omega
  | ⟨3, _⟩ => show win1_0.index t 3 * 512 + 1 * w.val = w.val; have h' := hi.2.2.2; omega

theorem iblk1_1 (c : Dev nD) (t : Fin cfg1.N) (h w : Fin 512) :
    (iblk1 V c 1 t : Vec F S1x1x512x512 .f32) (ix4 0 0 h w) = (V c main_arg2 : Vec F S8x1x512x512 .f32) (ix4 (bt1 t) 0 h w) := by
  show V c main_arg2 (((cfg1.win 1).blk t).view.emb (ix4 0 0 h w)) = V c main_arg2 _
  refine congrArg _ (funext fun a => Fin.ext ?_)
  have hi : win1_1.index t 0 = t.val ∧ win1_1.index t 1 = 0 ∧ win1_1.index t 2 = 0 ∧ win1_1.index t 3 = 0 := by
    rcases fin_N1 t with rfl | rfl | rfl | rfl | rfl | rfl | rfl | rfl <;> decide +kernel
  match a with
  | ⟨0, _⟩ => show win1_1.index t 0 * 1 + 1 * 0 = t.val; have h' := hi.1; omega
  | ⟨1, _⟩ => show win1_1.index t 1 * 1 + 1 * 0 = 0; have h' := hi.2.1; omega
  | ⟨2, _⟩ => show win1_1.index t 2 * 512 + 1 * h.val = h.val; have h' := hi.2.2.1; omega
  | ⟨3, _⟩ => show win1_1.index t 3 * 512 + 1 * w.val = w.val; have h' := hi.2.2.2; omega

theorem iblk1_2 (c : Dev nD) (t : Fin cfg1.N) (k : Fin 8) (h w : Fin 512) :
    (iblk1 V c 2 t : Vec F S1x8x512x512 .f32) (ix4 0 k h w) = (V c main_arg3 : Vec F S8x8x512x512 .f32) (ix4 (bt1 t) k h w) := by
  show V c main_arg3 (((cfg1.win 2).blk t).view.emb (ix4 0 k h w)) = V c main_arg3 _
  refine congrArg _ (funext fun a => Fin.ext ?_)
  have hi : win1_2.index t 0 = t.val ∧ win1_2.index t 1 = 0 ∧ win1_2.index t 2 = 0 ∧ win1_2.index t 3 = 0 := by
    rcases fin_N1 t with rfl | rfl | rfl | rfl | rfl | rfl | rfl | rfl <;> decide +kernel
  match a with
  | ⟨0, _⟩ => show win1_2.index t 0 * 1 + 1 * 0 = t.val; have h' := hi.1; omega
  | ⟨1, _⟩ => show win1_2.index t 1 * 8 + 1 * k.val = k.val; have h' := hi.2.1; omega
  | ⟨2, _⟩ => show win1_2.index t 2 * 512 + 1 * h.val = h.val; have h' := hi.2.2.1; omega
  | ⟨3, _⟩ => show win1_2.index t 3 * 512 + 1 * w.val = w.val; have h' := hi.2.2.2; omega

end Blocks

variable (m : (ℓ : Loc nD τ sig) → Buf (Elt F) ℓ) (ρ : Dev nD → PrngReg)

/-! The second region's inputs are the launch contents. -/

theorem V1_main_arg1 (c : Dev nD) : V1 m ρ c main_arg1 = m ((c : Thread nD τ).loc main_arg1) :=
  W1_of_ne m ρ c main_arg1 (by decide)
theorem V1_main_arg2 (c : Dev nD) : V1 m ρ c main_arg2 = m ((c : Thread nD τ).loc main_arg2) :=
  (W1_arr m ρ c 1).trans (((dat0 (V0 m ρ) c).arrAt_in 1 rfl _).trans (A_eq0 (V0 m ρ) c 1))
theorem V1_main_arg3 (c : Dev nD) : V1 m ρ c main_arg3 = m ((c : Thread nD τ).loc main_arg3) :=
  (W1_arr m ρ c 2).trans (((dat0 (V0 m ρ) c).arrAt_in 2 rfl _).trans (A_eq0 (V0 m ρ) c 2))

/-! The six result arrays as the host tail finds them. -/

theorem W2_v0_0 (c : Dev nD) : W2 m ρ c (Proc.devRef .tc main_v0_0) = (dat0 (V0 m ρ) c).arrAt 3 cfg0.N :=
  (W2_of_ne m ρ c main_v0_0 (by decide)).trans (W1_arr m ρ c 3)
theorem W2_v0_1 (c : Dev nD) : W2 m ρ c (Proc.devRef .tc main_v0_1) = (dat0 (V0 m ρ) c).arrAt 4 cfg0.N :=
  (W2_of_ne m ρ c main_v0_1 (by decide)).trans (W1_arr m ρ c 4)
theorem W2_v0_2 (c : Dev nD) : W2 m ρ c (Proc.devRef .tc main_v0_2) = (dat0 (V0 m ρ) c).arrAt 5 cfg0.N :=
  (W2_of_ne m ρ c main_v0_2 (by decide)).trans (W1_arr m ρ c 5)
theorem W2_v1_0 (c : Dev nD) : W2 m ρ c (Proc.devRef .tc main_v1_0) = (dat1 (V1 m ρ) c).arrAt 3 cfg1.N := W2_arr m ρ c 3
theorem W2_v1_1 (c : Dev nD) : W2 m ρ c (Proc.devRef .tc main_v1_1) = (dat1 (V1 m ρ) c).arrAt 4 cfg1.N := W2_arr m ρ c 4
theorem W2_v1_2 (c : Dev nD) : W2 m ρ c (Proc.devRef .tc main_v1_2) = (dat1 (V1 m ρ) c).arrAt 5 cfg1.N := W2_arr m ρ c 5

end Cert.KernelIdeal.Blk

end
-- ==== Proof.Spec.lean ====
/-
  The two programs as plain mathematics on the extended reals, with no program text in sight.

  One batch element is eight planes of logits `X k`, eight planes of connectivity labels `C k` and one plane of
  target labels `T`, each 512 × 512.  `sg` is the logistic function pointwise; the four shifts move a plane by one
  pixel and fill the vacated border with zero; `vote` is the bilateral vote: output channel `k` is channel `k`
  times its partner channel moved back along the direction the pair encodes.  `bt p t` is one binary cross-entropy
  term with both logarithms clamped below at -100.

  The kernel's side (`k…`, `acc4`, `tot`, `lossK`): every cross-entropy is summed with its sign already flipped
  (`0 - term`), plane by plane, the planes chained in the kernel's pair order 3,4,1,6,2,5,0,7; four batch elements
  are chained into each of two partial sums, and the host adds the two and divides.
  The reference's side (`r…`, `lossR`): one sum over everything, divided, then negated.
-/
import Idealize.ShloMosaic.PureOps.Ideal

noncomputable section

namespace Bicon

open Idealize.ShloMosaic

abbrev Plane := Fin 512 → Fin 512 → EReal

/-- out[h][w] = P[h][w-1], zero in column 0. -/
def shR (P : Plane) : Plane := fun h w => if hw : 0 < w.val then P h ⟨w.val - 1, by have := w.isLt; omega⟩ else 0
/-- out[h][w] = P[h][w+1], zero in the last column. -/
def shL (P : Plane) : Plane := fun h w => if hw : w.val < 511 then P h ⟨w.val + 1, by omega⟩ else 0
/-- out[h][w] = P[h-1][w], zero in row 0. -/
def shD (P : Plane) : Plane := fun h w => if hh : 0 < h.val then P ⟨h.val - 1, by have := h.isLt; omega⟩ w else 0
/-- out[h][w] = P[h+1][w], zero in the last row. -/
def shU (P : Plane) : Plane := fun h w => if hh : h.val < 511 then P ⟨h.val + 1, by omega⟩ w else 0

/-- The logistic function on every plane. -/
def sg (X : Fin 8 → Plane) : Fin 8 → Plane := fun k h w => Ideal.logistic (X k h w)

/-- The bilateral vote, by output channel. -/
def vote (c : Fin 8 → Plane) : Fin 8 → Plane
  | ⟨0, _⟩ => fun h w => c 0 h w * shR (shD (c 7)) h w
  | ⟨1, _⟩ => fun h w => c 1 h w * shD (c 6) h w
  | ⟨2, _⟩ => fun h w => c 2 h w * shL (shD (c 5)) h w
  | ⟨3, _⟩ => fun h w => c 3 h w * shR (c 4) h w
  | ⟨4, _⟩ => fun h w => c 4 h w * shL (c 3) h w
  | ⟨5, _⟩ => fun h w => c 5 h w * shR (shU (c 2)) h w
  | ⟨6, _⟩ => fun h w => c 6 h w * shU (c 1) h w
  | ⟨7, _⟩ => fun h w => c 7 h w * shL (shU (c 0)) h w
  | ⟨n + 8, h⟩ => absurd h (by omega)

/-- A logarithm clamped below at -100. -/
def clog (p : EReal) : EReal := max (Ideal.log p) ((-100 : ℝ) : EReal)
/-- One cross-entropy term (its sign not yet flipped). -/
def bt (p t : EReal) : EReal := t * clog p + (1 - t) * clog (1 - p)

/-- 1 where the count of connected neighbours is strictly between 0 and 8, else 0. -/
def edgeOf (s : EReal) : EReal := if s < ((8 : ℝ) : EReal) ∧ 0 < s then 1 else 0

/-! ## The kernel's side -/

/-- A plane of sign-flipped terms summed over columns, then rows. -/
def bceK (p t : Plane) : EReal := ∑ h : Fin 512, ∑ w : Fin 512, (0 - bt (p h w) (t h w))
/-- Eight values chained from zero in the kernel's pair order. -/
def chain8 (f : Fin 8 → EReal) : EReal := (((((((0 + f 3) + f 4) + f 1) + f 6) + f 2) + f 5) + f 0) + f 7
def kBicon (X C : Fin 8 → Plane) : EReal := chain8 fun k => bceK (vote (sg X) k) (C k)
def kConn (X C : Fin 8 → Plane) : EReal := chain8 fun k => bceK (sg X k) (C k)
def gloK (X : Fin 8 → Plane) : Plane := fun h w => chain8 (fun k => vote (sg X) k h w) * ((1 / 8 : ℝ) : EReal)
def kBce (X : Fin 8 → Plane) (T : Plane) : EReal := bceK (gloK X) T
def sumConnK (C : Fin 8 → Plane) : Plane := fun h w => chain8 fun k => C k h w
def minK (X : Fin 8 → Plane) : Plane := fun h w =>
  min (min (min (min 1 (min (vote (sg X) 3 h w) (vote (sg X) 4 h w))) (min (vote (sg X) 1 h w) (vote (sg X) 6 h w)))
    (min (vote (sg X) 2 h w) (vote (sg X) 5 h w))) (min (vote (sg X) 0 h w) (vote (sg X) 7 h w))
def decK (X C : Fin 8 → Plane) : Plane := fun h w =>
  gloK X h w * (1 - edgeOf (sumConnK C h w)) + (1 - minK X h w) * edgeOf (sumConnK C h w)
def kDe (X C : Fin 8 → Plane) (T : Plane) : EReal := bceK (decK X C) T

/-- Batch elements 4g … 4g+3 chained from zero. -/
def acc4 (f : Fin 8 → EReal) (g : Fin 2) : EReal :=
  (((0 + f ⟨4 * g.val, by have := g.isLt; omega⟩) + f ⟨4 * g.val + 1, by have := g.isLt; omega⟩)
    + f ⟨4 * g.val + 2, by have := g.isLt; omega⟩) + f ⟨4 * g.val + 3, by have := g.isLt; omega⟩
/-- The host's sum of the two partial sums. -/
def tot (f : Fin 8 → EReal) : EReal := 0 + ∑ g : Fin 2, acc4 f g

def N21 : EReal := ((2097152 : ℝ) : EReal)
def N24 : EReal := ((16777216 : ℝ) : EReal)

def lossK (c02 c08 : EReal) (A D : Fin 8 → Fin 8 → Plane) (T : Fin 8 → Plane) (C : Fin 8 → Fin 8 → Plane) : EReal :=
  ((((c02 * Ideal.div (tot fun b => kBicon (A b) (C b)) N24 + c08 * Ideal.div (tot fun b => kConn (A b) (C b)) N24)
      + Ideal.div (tot fun b => kBce (A b) (T b)) N21)
     + c02 * Ideal.div (tot fun b => kBicon (D b) (C b)) N24)
    + c08 * Ideal.div (tot fun b => kConn (D b) (C b)) N24)
   + Ideal.div (tot fun b => kDe (D b) (C b) (T b)) N21

/-! ## The reference's side -/

def rLoss4 (P C : Fin 8 → Fin 8 → Plane) : EReal :=
  -(Ideal.div (0 + ∑ b : Fin 8, ∑ k : Fin 8, ∑ h : Fin 512, ∑ w : Fin 512, bt (P b k h w) (C b k h w)) N24)
def rLoss3 (P T : Fin 8 → Plane) : EReal :=
  -(Ideal.div (0 + ∑ b : Fin 8, ∑ h : Fin 512, ∑ w : Fin 512, bt (P b h w) (T b h w)) N21)
def gloR (X : Fin 8 → Plane) : Plane := fun h w => Ideal.div (0 + ∑ k : Fin 8, vote (sg X) k h w) ((8 : ℝ) : EReal)
def minR (X : Fin 8 → Plane) : Plane := fun h w => (Finset.univ : Finset (Fin 8)).fold min ⊤ (fun k => vote (sg X) k h w)
def sumConnR (C : Fin 8 → Plane) : Plane := fun h w => 0 + ∑ k : Fin 8, C k h w
def decR (X C : Fin 8 → Plane) : Plane := fun h w =>
  gloR X h w * (1 - edgeOf (sumConnR C h w)) + (1 - minR X h w) * edgeOf (sumConnR C h w)

def lossR (c02 c08 : EReal) (A D : Fin 8 → Fin 8 → Plane) (T : Fin 8 → Plane) (C : Fin 8 → Fin 8 → Plane) : EReal :=
  ((((c02 * rLoss4 (fun b => vote (sg (A b))) C + c08 * rLoss4 (fun b => sg (A b)) C)
      + rLoss3 (fun b => gloR (A b)) T)
     + c02 * rLoss4 (fun b => vote (sg (D b))) C)
    + c08 * rLoss4 (fun b => sg (D b)) C)
   + rLoss3 (fun b => decR (D b) (C b)) T

end Bicon

end
-- ==== Proof.Arr.lean ====
/-
  The programs' arrays as functions of their four coordinates: a whole [8, 8, 512, 512] or [8, 1, 512, 512] array, and
  one batch element's block of eight planes or of one plane; and the two weights 0.2 and 0.8 as the words both programs spell.
-/
import proofs.«403145_j71588514889841_3_alg».proof.Proof.Spec
import Idealize.ShloMosaic.Lib.ValueIdx

noncomputable section

namespace Bicon

open Idealize.ShloMosaic Idealize.ShloMosaic.ValueIdx

def arr4 (x : (⟨4, ![8, 8, 512, 512]⟩ : Shape).Idx → EReal) : Fin 8 → Fin 8 → Plane := fun b k h w => x (ix4 b k h w)
def arr3 (x : (⟨4, ![8, 1, 512, 512]⟩ : Shape).Idx → EReal) : Fin 8 → Plane := fun b h w => x (ix4 b 0 h w)
def blk8 (x : (⟨4, ![1, 8, 512, 512]⟩ : Shape).Idx → EReal) : Fin 8 → Plane := fun k h w => x (ix4 0 k h w)
def blk1 (x : (⟨4, ![1, 1, 512, 512]⟩ : Shape).Idx → EReal) : Plane := fun h w => x (ix4 0 0 h w)

def c02 : EReal := Ideal.ofBits .f32 0x3E4CCCCD#32
def c08 : EReal := Ideal.ofBits .f32 0x3F4CCCCD#32

end Bicon

end
-- ==== Proof.Consts.lean ====
/-
  The float words the two programs spell, as the extended reals they denote: 1, -100, 1/8, 8, 2^21, 2^24 and +infinity.
  (Zero is the library's `Ideal.ofBits_zero_f32`.)  Stated in one module, which is the only one that opens the decoding.
-/
import Idealize.ShloMosaic.PureOps.Ideal
import Idealize.ShloMosaic.PureOps.Ideal.Laws

noncomputable section

namespace Bicon.Consts

open Idealize.ShloMosaic

theorem ofBits_one : Ideal.ofBits .f32 0x3F800000#32 = 1 := by
  simp [Ideal.ofBits, Ideal.ieee, -EReal.coe_mul]; norm_num

theorem ofBits_m100 : Ideal.ofBits .f32 0xC2C80000#32 = ((-100 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_2p21 : Ideal.ofBits .f32 0x4A000000#32 = ((2097152 : ℝ) : EReal) := by
  simp [Ideal.ofBits, Ideal.ieee, -EReal.coe_mul]; norm_num

theorem ofBits_2p24 : Ideal.ofBits .f32 0x4B800000#32 = ((16777216 : ℝ) : EReal) := by
  simp [Ideal.ofBits, Ideal.ieee, -EReal.coe_mul]; norm_num

theorem ofBits_inf : Ideal.ofBits .f32 0x7F800000#32 = ⊤ := by
  simp [Ideal.ofBits, Ideal.ieee]

end Bicon.Consts

end
-- ==== Proof.KVecIdx.lean ====
/-
  The whole-plane expressions of KVec.lean read at the extended reals, entry by entry: each body's scalar is the
  corresponding sum of Spec.lean over the block's planes, and a running output with a scalar added is, in every lane,
  the lane's old value plus the scalar.

  Bottom up: a plane cut out of a block reads the block at (0, k, h, w); a border mask is the comparison of the row or
  column number with 0 or 511; a shift is the rotated plane where the mask is set (the rotation by 1 reads the previous
  entry, the rotation by 511 the next one) and zero elsewhere; the clamped cross-entropy of two planes is the double sum
  over rows and columns of the sign-flipped terms; the votes, their chained sum times 1/8, their minimum, the chained
  sum of the labels and the edge mask read as the formulas of Spec.lean; and the four scalars of a body follow.
-/
import proofs.«403145_j71588514889841_3_alg».proof.Proof.KVec
import proofs.«403145_j71588514889841_3_alg».proof.Proof.Arr
import proofs.«403145_j71588514889841_3_alg».proof.Proof.Consts
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate
import Idealize.ShloMosaic.PureOps.Ideal.Laws

noncomputable section

open Idealize.ShloMosaic Idealize.ShloMosaic.ValueIdx

namespace Cert.KernelIdeal.VecIdx

open Cert.KernelIdeal Cert.KernelIdeal.Vec Bicon

variable [Facts]
open Facts₀ Facts

/-! ## A plane of a block: the block at (0, k, h, w) -/

theorem ch_apply (X : Vec Ideal S1x8x512x512 .f32) (k : Nat) (hk : k < 8)
    (inb : ∀ a, (![0, k, 0, 0] : Fin 4 → Nat) a + S1x1x512x512.size a ≤ S1x8x512x512.size a) (h w : Fin 512) :
    ch (F := Ideal) X k inb (ix2 h w) = X (ix4 0 ⟨k, hk⟩ h w) := by
  unfold ch
  refine (shapeCast_apply _ _ (ix2 h w) (ix4 0 0 h w) ?_).trans ?_
  · rw [Shape.rowMajor_val_four, Shape.rowMajor_val_two]
    show ((0 * 1 + 0) * 512 + h.val) * 512 + w.val = h.val * 512 + w.val
    omega
  · show X _ = X _
    congr 1
    funext a
    refine Fin.ext ?_
    match a with
    | ⟨0, _⟩ => rfl
    | ⟨1, _⟩ => show k + 1 * 0 = k; omega
    | ⟨2, _⟩ => show 0 + 1 * h.val = h.val; omega
    | ⟨3, _⟩ => show 0 + 1 * w.val = w.val; omega

theorem chT_apply (T : Vec Ideal S1x1x512x512 .f32) (h w : Fin 512) :
    chT (F := Ideal) T (ix2 h w) = T (ix4 0 0 h w) := by
  unfold chT
  refine (shapeCast_apply _ _ (ix2 h w) (ix4 0 0 h w) ?_).trans ?_
  · rw [Shape.rowMajor_val_four, Shape.rowMajor_val_two]
    show ((0 * 1 + 0) * 512 + h.val) * 512 + w.val = h.val * 512 + w.val
    omega
  · show T _ = T _
    congr 1
    funext a
    refine Fin.ext ?_
    match a with
    | ⟨0, _⟩ => rfl
    | ⟨1, _⟩ => rfl
    | ⟨2, _⟩ => show 0 + 1 * h.val = h.val; omega
    | ⟨3, _⟩ => show 0 + 1 * w.val = w.val; omega

/-! ## The border masks: signed comparisons of a row or column number below 512 -/

open Idealize.ShloMosaic.StableHlo.Predicate in
theorem sgt_small (n m : Nat) (hn : n < 512) (hm : m < 512) :
    IntOp.cmpi .sgt (BitVec.ofNat 32 n) (BitVec.ofNat 32 m) = if m < n then 1#1 else 0#1 := by
  have ha : (BitVec.ofNat 32 n).toNat = n := by rw [BitVec.toNat_ofNat]; omega
  have hb : (BitVec.ofNat 32 m).toNat = m := by rw [BitVec.toNat_ofNat]; omega
  have h := sgt_iff_toNat (a := BitVec.ofNat 32 n) (b := BitVec.ofNat 32 m) (by omega) (by omega)
  rw [ha, hb] at h
  by_cases hlt : m < n
  · rw [if_pos hlt]; exact h.mpr hlt
  · rw [if_neg hlt]; exact eq_zero_of_ne_one (fun h1 => hlt (h.mp h1))

open Idealize.ShloMosaic.StableHlo.Predicate in
theorem slt_small (n m : Nat) (hn : n < 512) (hm : m < 512) :
    IntOp.cmpi .slt (BitVec.ofNat 32 n) (BitVec.ofNat 32 m) = if n < m then 1#1 else 0#1 := by
  have ha : (BitVec.ofNat 32 n).toNat = n := by rw [BitVec.toNat_ofNat]; omega
  have hb : (BitVec.ofNat 32 m).toNat = m := by rw [BitVec.toNat_ofNat]; omega
  have h := slt_iff_toNat (a := BitVec.ofNat 32 n) (b := BitVec.ofNat 32 m) (by omega) (by omega)
  rw [ha, hb] at h
  by_cases hlt : n < m
  · rw [if_pos hlt]; exact h.mpr hlt
  · rw [if_neg hlt]; exact eq_zero_of_ne_one (fun h1 => hlt (h.mp h1))

theorem mskR_apply (h w : Fin 512) : mskR (ix2 h w) = if 0 < w.val then 1#1 else 0#1 := by
  show IntOp.cmpi .sgt (iota .tc S512x512 32 [1] iota_S512x512_d1_w32 (ix2 h w)) (0#32) = _
  rw [iota_single_apply]
  exact sgt_small w.val 0 w.isLt (by omega)

theorem mskL_apply (h w : Fin 512) : mskL (ix2 h w) = if w.val < 511 then 1#1 else 0#1 := by
  show IntOp.cmpi .slt (iota .tc S512x512 32 [1] iota_S512x512_d1_w32 (ix2 h w)) (511#32) = _
  rw [iota_single_apply]
  exact slt_small w.val 511 w.isLt (by omega)

theorem mskD_apply (h w : Fin 512) : mskD (ix2 h w) = if 0 < h.val then 1#1 else 0#1 := by
  show IntOp.cmpi .sgt (iota .tc S512x512 32 [0] iota_S512x512_d0_w32 (ix2 h w)) (0#32) = _
  rw [iota_single_apply]
  exact sgt_small h.val 0 h.isLt (by omega)

theorem mskU_apply (h w : Fin 512) : mskU (ix2 h w) = if h.val < 511 then 1#1 else 0#1 := by
  show IntOp.cmpi .slt (iota .tc S512x512 32 [0] iota_S512x512_d0_w32 (ix2 h w)) (511#32) = _
  rw [iota_single_apply]
  exact slt_small h.val 511 h.isLt (by omega)

/-! ## The one-pixel shifts: the rotated plane under the mask, zero on the vacated border -/

theorem shR_apply (x : FVec Ideal S512x512 .f32) (h w : Fin 512) :
    Vec.shR x (ix2 h w) = Bicon.shR (fun h w => x (ix2 h w)) h w := by
  show Scalar.select (mskR (ix2 h w)) (dynamicRotate 1 (1#32) none x rotates_S512x512_d1 (ix2 h w)) (Ideal.ofBits .f32 0x00000000#32) = _
  rw [mskR_apply, Ideal.ofBits_zero_f32]
  unfold Bicon.shR
  by_cases hw : 0 < w.val
  · rw [if_pos hw, select_one, dif_pos hw]
    exact dynamicRotate_apply (1 : Fin 2) (1#32) x _ (ix2 h w) (ix2 h ⟨w.val - 1, by have := w.isLt; omega⟩) (by
      intro b
      match b with
      | ⟨0, _⟩ => rfl
      | ⟨1, _⟩ => show w.val - 1 = (w.val + 512 - 1 % 512) % 512; omega)
  · rw [if_neg hw, select_zero, dif_neg hw]

theorem shL_apply (x : FVec Ideal S512x512 .f32) (h w : Fin 512) :
    Vec.shL x (ix2 h w) = Bicon.shL (fun h w => x (ix2 h w)) h w := by
  show Scalar.select (mskL (ix2 h w)) (dynamicRotate 1 (511#32) none x rotates_S512x512_d1 (ix2 h w)) (Ideal.ofBits .f32 0x00000000#32) = _
  rw [mskL_apply, Ideal.ofBits_zero_f32]
  unfold Bicon.shL
  by_cases hw : w.val < 511
  · rw [if_pos hw, select_one, dif_pos hw]
    exact dynamicRotate_apply (1 : Fin 2) (511#32) x _ (ix2 h w) (ix2 h ⟨w.val + 1, by omega⟩) (by
      intro b
      match b with
      | ⟨0, _⟩ => rfl
      | ⟨1, _⟩ => show w.val + 1 = (w.val + 512 - 511 % 512) % 512; omega)
  · rw [if_neg hw, select_zero, dif_neg hw]

theorem shD_apply (x : FVec Ideal S512x512 .f32) (h w : Fin 512) :
    Vec.shD x (ix2 h w) = Bicon.shD (fun h w => x (ix2 h w)) h w := by
  show Scalar.select (mskD (ix2 h w)) (dynamicRotate 0 (1#32) none x rotates_S512x512_d0 (ix2 h w)) (Ideal.ofBits .f32 0x00000000#32) = _
  rw [mskD_apply, Ideal.ofBits_zero_f32]
  unfold Bicon.shD
  by_cases hh : 0 < h.val
  · rw [if_pos hh, select_one, dif_pos hh]
    exact dynamicRotate_apply (0 : Fin 2) (1#32) x _ (ix2 h w) (ix2 ⟨h.val - 1, by have := h.isLt; omega⟩ w) (by
      intro b
      match b with
      | ⟨0, _⟩ => show h.val - 1 = (h.val + 512 - 1 % 512) % 512; omega
      | ⟨1, _⟩ => rfl)
  · rw [if_neg hh, select_zero, dif_neg hh]

theorem shU_apply (x : FVec Ideal S512x512 .f32) (h w : Fin 512) :
    Vec.shU x (ix2 h w) = Bicon.shU (fun h w => x (ix2 h w)) h w := by
  show Scalar.select (mskU (ix2 h w)) (dynamicRotate 0 (511#32) none x rotates_S512x512_d0 (ix2 h w)) (Ideal.ofBits .f32 0x00000000#32) = _
  rw [mskU_apply, Ideal.ofBits_zero_f32]
  unfold Bicon.shU
  by_cases hh : h.val < 511
  · rw [if_pos hh, select_one, dif_pos hh]
    exact dynamicRotate_apply (0 : Fin 2) (511#32) x _ (ix2 h w) (ix2 ⟨h.val + 1, by omega⟩ w) (by
      intro b
      match b with
      | ⟨0, _⟩ => show h.val + 1 = (h.val + 512 - 511 % 512) % 512; omega
      | ⟨1, _⟩ => rfl)
  · rw [if_neg hh, select_zero, dif_neg hh]

/-! ## The clamped cross-entropy of two planes: the double sum of the sign-flipped terms -/

theorem bce_apply (p t : FVec Ideal S512x512 .f32) :
    bce (F := Ideal) p t (ix2 0 0) = bceK (fun h w => p (ix2 h w)) (fun h w => t (ix2 h w)) := by
  unfold bce
  refine (shapeCast_apply _ _ (ix2 (0 : Fin 1) (0 : Fin 1)) (ix1 (0 : Fin 1)) ?_).trans ?_
  · rw [Shape.rowMajor_val_one, Shape.rowMajor_val_two]; rfl
  refine (Ideal.multiReduction_add_single _ _ reduces_S512x1_S1 _ _ (ix1 (0 : Fin 1))).trans ?_
  unfold bceK
  refine Finset.sum_congr rfl (fun hh _ => ?_)
  refine (shapeCast_apply _ _ _ (ix1 (hh : Fin 512)) ?_).trans ?_
  · rw [Shape.rowMajor_val_one, Shape.rowMajor_val_two]
    show hh.val = hh.val * 1 + 0
    omega
  refine (Ideal.multiReduction_add_single _ _ reduces_S512x512_S512 _ _ (ix1 (hh : Fin 512))).trans ?_
  refine Finset.sum_congr rfl (fun ww _ => ?_)
  have hi : (reduces_S512x512_S512).lift (ix1 (hh : Fin 512)) ww = ix2 (hh : Fin 512) (ww : Fin 512) := by
    funext a
    match a with
    | ⟨0, _⟩ => rfl
    | ⟨1, _⟩ => rfl
  rw [hi]
  show Ideal.ofBits .f32 0x00000000#32 - (t _ * max (Ideal.log (p _)) (Ideal.ofBits .f32 0xC2C80000#32)
      + (Ideal.ofBits .f32 0x3F800000#32 - t _) * max (Ideal.log (Ideal.ofBits .f32 0x3F800000#32 - p _)) (Ideal.ofBits .f32 0xC2C80000#32)) = _
  rw [Ideal.ofBits_zero_f32, Consts.ofBits_one, Consts.ofBits_m100]
  rfl

/-! ## The sigmoid and label planes of a batch element, and the eight votes -/

theorem planes_c_apply (x0 x2 : Vec Ideal S1x8x512x512 .f32) (k : Fin 8) (h w : Fin 512) :
    (planes (F := Ideal) x0 x2).c k (ix2 h w) = sg (blk8 x0) k h w := by
  match k with
  | ⟨0, _⟩ => exact congrArg Ideal.logistic (ch_apply x0 0 (by omega) _ h w)
  | ⟨1, _⟩ => exact congrArg Ideal.logistic (ch_apply x0 1 (by omega) _ h w)
  | ⟨2, _⟩ => exact congrArg Ideal.logistic (ch_apply x0 2 (by omega) _ h w)
  | ⟨3, _⟩ => exact congrArg Ideal.logistic (ch_apply x0 3 (by omega) _ h w)
  | ⟨4, _⟩ => exact congrArg Ideal.logistic (ch_apply x0 4 (by omega) _ h w)
  | ⟨5, _⟩ => exact congrArg Ideal.logistic (ch_apply x0 5 (by omega) _ h w)
  | ⟨6, _⟩ => exact congrArg Ideal.logistic (ch_apply x0 6 (by omega) _ h w)
  | ⟨7, _⟩ => exact congrArg Ideal.logistic (ch_apply x0 7 (by omega) _ h w)
  | ⟨n + 8, hn⟩ => exact absurd hn (by omega)

theorem planes_k_apply (x0 x2 : Vec Ideal S1x8x512x512 .f32) (k : Fin 8) (h w : Fin 512) :
    (planes (F := Ideal) x0 x2).k k (ix2 h w) = blk8 x2 k h w := by
  match k with
  | ⟨0, _⟩ => exact ch_apply x2 0 (by omega) _ h w
  | ⟨1, _⟩ => exact ch_apply x2 1 (by omega) _ h w
  | ⟨2, _⟩ => exact ch_apply x2 2 (by omega) _ h w
  | ⟨3, _⟩ => exact ch_apply x2 3 (by omega) _ h w
  | ⟨4, _⟩ => exact ch_apply x2 4 (by omega) _ h w
  | ⟨5, _⟩ => exact ch_apply x2 5 (by omega) _ h w
  | ⟨6, _⟩ => exact ch_apply x2 6 (by omega) _ h w
  | ⟨7, _⟩ => exact ch_apply x2 7 (by omega) _ h w
  | ⟨n + 8, hn⟩ => exact absurd hn (by omega)

section Votes
variable (P : Planes Ideal)

/-- The sigmoid planes of a batch element as a function of channel, row and column. -/
abbrev cOf : Fin 8 → Plane := fun k h w => P.c k (ix2 h w)

theorem a1_apply (h w : Fin 512) : a1 P (ix2 h w) = vote (cOf P) 3 h w := by
  show P.c 3 (ix2 h w) * Vec.shR (P.c 4) (ix2 h w) = _
  rw [shR_apply]; rfl
theorem a2_apply (h w : Fin 512) : a2 P (ix2 h w) = vote (cOf P) 4 h w := by
  show P.c 4 (ix2 h w) * Vec.shL (P.c 3) (ix2 h w) = _
  rw [shL_apply]; rfl
theorem a3_apply (h w : Fin 512) : a3 P (ix2 h w) = vote (cOf P) 1 h w := by
  show P.c 1 (ix2 h w) * Vec.shD (P.c 6) (ix2 h w) = _
  rw [shD_apply]; rfl
theorem a4_apply (h w : Fin 512) : a4 P (ix2 h w) = vote (cOf P) 6 h w := by
  show P.c 6 (ix2 h w) * Vec.shU (P.c 1) (ix2 h w) = _
  rw [shU_apply]; rfl
theorem a5_apply (h w : Fin 512) : a5 P (ix2 h w) = vote (cOf P) 2 h w := by
  show P.c 2 (ix2 h w) * Vec.shL (Vec.shD (P.c 5)) (ix2 h w) = _
  rw [shL_apply, show (fun h w => Vec.shD (P.c 5) (ix2 h w)) = Bicon.shD (fun h w => P.c 5 (ix2 h w)) from
    funext fun h => funext fun w => shD_apply _ h w]
  rfl
theorem a6_apply (h w : Fin 512) : a6 P (ix2 h w) = vote (cOf P) 5 h w := by
  show P.c 5 (ix2 h w) * Vec.shR (Vec.shU (P.c 2)) (ix2 h w) = _
  rw [shR_apply, show (fun h w => Vec.shU (P.c 2) (ix2 h w)) = Bicon.shU (fun h w => P.c 2 (ix2 h w)) from
    funext fun h => funext fun w => shU_apply _ h w]
  rfl
theorem a7_apply (h w : Fin 512) : a7 P (ix2 h w) = vote (cOf P) 0 h w := by
  show P.c 0 (ix2 h w) * Vec.shR (Vec.shD (P.c 7)) (ix2 h w) = _
  rw [shR_apply, show (fun h w => Vec.shD (P.c 7) (ix2 h w)) = Bicon.shD (fun h w => P.c 7 (ix2 h w)) from
    funext fun h => funext fun w => shD_apply _ h w]
  rfl
theorem a8_apply (h w : Fin 512) : a8 P (ix2 h w) = vote (cOf P) 7 h w := by
  show P.c 7 (ix2 h w) * Vec.shL (Vec.shU (P.c 0)) (ix2 h w) = _
  rw [shL_apply, show (fun h w => Vec.shU (P.c 0) (ix2 h w)) = Bicon.shU (fun h w => P.c 0 (ix2 h w)) from
    funext fun h => funext fun w => shU_apply _ h w]
  rfl

end Votes

theorem cOf_planes (x0 x2 : Vec Ideal S1x8x512x512 .f32) : cOf (planes (F := Ideal) x0 x2) = sg (blk8 x0) :=
  funext fun k => funext fun h => funext fun w => planes_c_apply x0 x2 k h w

/-! ## The float words, the chained sums, the mean vote, the label count and the minimum vote -/

theorem wZero : (FloatOps.ofBits (F := Ideal) .f32 0x00000000#32) = (0 : EReal) := Ideal.ofBits_zero_f32
theorem wOne : (FloatOps.ofBits (F := Ideal) .f32 0x3F800000#32) = (1 : EReal) := Consts.ofBits_one
theorem wEighth : (FloatOps.ofBits (F := Ideal) .f32 0x3E000000#32) = ((1 / 8 : ℝ) : EReal) := Consts.ofBits_eighth
theorem wEight : (FloatOps.ofBits (F := Ideal) .f32 0x41000000#32) = ((8 : ℝ) : EReal) := Consts.ofBits_eight

section Sums
variable (P : Planes Ideal)

/-- The label planes of a batch element as a function of channel, row and column. -/
abbrev kOf : Fin 8 → Plane := fun k h w => P.k k (ix2 h w)

theorem sBicon_apply : sBicon P (ix2 0 0) = chain8 fun k => bceK (vote (cOf P) k) (kOf P k) := by
  unfold sBicon z11
  simp only [addf_apply, broadcast_apply, bce_apply, wZero, a1_apply, a2_apply, a3_apply, a4_apply, a5_apply,
    a6_apply, a7_apply, a8_apply]
  rfl

theorem sConn_apply : sConn P (ix2 0 0) = chain8 fun k => bceK (cOf P k) (kOf P k) := by
  unfold sConn z11
  simp only [addf_apply, broadcast_apply, bce_apply, wZero]
  rfl

theorem glo_apply (h w : Fin 512) :
    glo P (ix2 h w) = chain8 (fun k => vote (cOf P) k h w) * ((1 / 8 : ℝ) : EReal) := by
  unfold glo gloSum zeroP
  simp only [mulf_apply, addf_apply, broadcast_apply, wZero, wEighth, a1_apply, a2_apply, a3_apply, a4_apply, a5_apply,
    a6_apply, a7_apply, a8_apply]
  rfl

theorem sumConn_apply (h w : Fin 512) : sumConn P (ix2 h w) = chain8 fun k => kOf P k h w := by
  unfold sumConn zeroP
  simp only [addf_apply, broadcast_apply, wZero]
  rfl

theorem minAcc_apply (h w : Fin 512) :
    minAcc P (ix2 h w) =
      min (min (min (min 1 (min (vote (cOf P) 3 h w) (vote (cOf P) 4 h w))) (min (vote (cOf P) 1 h w) (vote (cOf P) 6 h w)))
        (min (vote (cOf P) 2 h w) (vote (cOf P) 5 h w))) (min (vote (cOf P) 0 h w) (vote (cOf P) 7 h w)) := by
  unfold minAcc oneP
  simp only [minimumf_apply, broadcast_apply, wOne, a1_apply, a2_apply, a3_apply, a4_apply, a5_apply,
    a6_apply, a7_apply, a8_apply]

end Sums

/-! ## The edge mask and the decoded plane -/

theorem edge_word (s : EReal) :
    Scalar.select (IntOp.andi (Ideal.cmp .olt s ((8 : ℝ) : EReal)) (Ideal.cmp .ogt s 0)) (1 : EReal) 0 = edgeOf s := by
  unfold edgeOf Ideal.cmp IntOp.andi Scalar.select
  by_cases h1 : s < ((8 : ℝ) : EReal) <;> by_cases h2 : (0 : EReal) < s <;> simp [h1, h2]

section Dec
variable (P : Planes Ideal)

theorem edge_apply (h w : Fin 512) : edge P (ix2 h w) = edgeOf (chain8 fun k => kOf P k h w) := by
  rw [← sumConn_apply]
  show Scalar.select (IntOp.andi (Ideal.cmp .olt (sumConn P (ix2 h w)) (FloatOps.ofBits (F := Ideal) .f32 0x41000000#32))
      (Ideal.cmp .ogt (sumConn P (ix2 h w)) (FloatOps.ofBits (F := Ideal) .f32 0x00000000#32)))
    (FloatOps.ofBits (F := Ideal) .f32 0x3F800000#32) (FloatOps.ofBits (F := Ideal) .f32 0x00000000#32) = _
  rw [wEight, wZero, wOne]
  exact edge_word _

theorem dec_apply (h w : Fin 512) :
    dec P (ix2 h w) =
      glo P (ix2 h w) * (1 - edgeOf (chain8 fun k => kOf P k h w))
        + (1 - minAcc P (ix2 h w)) * edgeOf (chain8 fun k => kOf P k h w) := by
  unfold dec oneP
  simp only [addf_apply, mulf_apply, subf_apply, broadcast_apply, wOne, edge_apply]

end Dec

theorem kOf_planes (x0 x2 : Vec Ideal S1x8x512x512 .f32) : kOf (planes (F := Ideal) x0 x2) = blk8 x2 :=
  funext fun k => funext fun h => funext fun w => planes_k_apply x0 x2 k h w

theorem chT_eq (x1 : Vec Ideal S1x1x512x512 .f32) : (fun h w => chT (F := Ideal) x1 (ix2 h w)) = blk1 x1 :=
  funext fun h => funext fun w => chT_apply x1 h w

/-! ## The four scalars of a body -/

theorem sBicon_eq (x0 x2 : Vec Ideal S1x8x512x512 .f32) :
    sBicon (F := Ideal) (planes x0 x2) (ix2 0 0) = kBicon (blk8 x0) (blk8 x2) := by
  rw [sBicon_apply, cOf_planes, kOf_planes]
  rfl

theorem sConn_eq (x0 x2 : Vec Ideal S1x8x512x512 .f32) :
    sConn (F := Ideal) (planes x0 x2) (ix2 0 0) = kConn (blk8 x0) (blk8 x2) := by
  rw [sConn_apply, cOf_planes, kOf_planes]
  rfl

theorem sBce_eq (x0 x2 : Vec Ideal S1x8x512x512 .f32) (x1 : Vec Ideal S1x1x512x512 .f32) :
    sBce (F := Ideal) (planes x0 x2) (chT x1) (ix2 0 0) = kBce (blk8 x0) (blk1 x1) := by
  unfold sBce
  rw [bce_apply, chT_eq]
  simp only [glo_apply]
  rw [cOf_planes]
  rfl

theorem sDe_eq (x0 x2 : Vec Ideal S1x8x512x512 .f32) (x1 : Vec Ideal S1x1x512x512 .f32) :
    sDe (F := Ideal) (planes x0 x2) (chT x1) (ix2 0 0) = kDe (blk8 x0) (blk8 x2) (blk1 x1) := by
  unfold sDe
  rw [bce_apply, chT_eq]
  simp only [dec_apply, glo_apply, minAcc_apply]
  rw [cOf_planes, kOf_planes]
  rfl

/-! ## A running output with a scalar added, and its reset value -/

theorem accum_apply (p : Vec Ideal S1x1x128 .f32) (s : FVec Ideal S1x1 .f32) (l : Fin 128) :
    accum (F := Ideal) p s (ix3 0 0 l) = p (ix3 0 0 l) + s (ix2 0 0) := by
  unfold accum
  refine (shapeCast_apply _ _ (ix3 (0 : Fin 1) (0 : Fin 1) l) (ix2 (0 : Fin 1) l) ?_).trans ?_
  · rw [Shape.rowMajor_val_two, Shape.rowMajor_val_three]
    show 0 * 128 + l.val = (0 * 1 + 0) * 128 + l.val
    omega
  rw [addf_apply]
  congr 1
  · refine shapeCast_apply _ _ (ix2 (0 : Fin 1) l) (ix3 (0 : Fin 1) (0 : Fin 1) l) ?_
    rw [Shape.rowMajor_val_two, Shape.rowMajor_val_three]
    show (0 * 1 + 0) * 128 + l.val = 0 * 128 + l.val
    omega
  · rw [shapeCast_self]
    refine broadcastTo_apply _ _ (ix2 (0 : Fin 1) l) (ix2 (0 : Fin 1) (0 : Fin 1)) ?_
    intro a
    match a with
    | ⟨0, _⟩ => rfl
    | ⟨1, _⟩ => rfl

theorem zero3_apply (l : Fin 128) : zero3 (F := Ideal) (ix3 0 0 l) = 0 := by
  unfold zero3
  refine (shapeCast_apply _ _ (ix3 (0 : Fin 1) (0 : Fin 1) l) (ix2 (0 : Fin 1) l) ?_).trans ?_
  · rw [Shape.rowMajor_val_two, Shape.rowMajor_val_three]
    show 0 * 128 + l.val = (0 * 1 + 0) * 128 + l.val
    omega
  rw [broadcast_apply]
  exact wZero

end Cert.KernelIdeal.VecIdx

end
-- ==== Proof.KVal0.lean ====
/-
  Region 0 at the extended reals: every lane of row g of each of its three result arrays holds the scalars of batch
  elements 4g … 4g+3 chained from zero, each scalar the corresponding sum of Spec.lean over that batch element of
  the region's three input arrays.
-/
import proofs.«403145_j71588514889841_3_alg».proof.Proof.KArr0
import proofs.«403145_j71588514889841_3_alg».proof.Proof.KBlk
import proofs.«403145_j71588514889841_3_alg».proof.Proof.KVecIdx

set_option maxRecDepth 16384

noncomputable section

open Idealize.ShloMosaic Idealize.ShloMosaic.TcCoe Idealize.SL.Sem Idealize.ShloMosaic.ValueIdx

namespace Cert.KernelIdeal.Val0

open Cert.KernelIdeal Cert.KernelIdeal.Gen Cert.KernelIdeal.Vec Cert.KernelIdeal.Acc0 Cert.KernelIdeal.Arr0 Cert.KernelIdeal.Blk Cert.KernelIdeal.VecIdx Bicon

variable (V : (c : Dev nD) → (b : Ref sig .tc) → Buf (Elt Ideal) ((c : Thread nD τ).loc b))

theorem blk8_xb (c : Dev nD) (t : Fin cfg0.N) : blk8 (xb V c t) = arr4 (V c main_arg0) (bt0 t) :=
  funext fun k => funext fun h => funext fun w => iblk0_0 V c t k h w
theorem blk1_tb (c : Dev nD) (t : Fin cfg0.N) : blk1 (tb V c t) = arr3 (V c main_arg2) (bt0 t) :=
  funext fun h => funext fun w => iblk0_1 V c t h w
theorem blk8_cb (c : Dev nD) (t : Fin cfg0.N) : blk8 (cb V c t) = arr4 (V c main_arg3) (bt0 t) :=
  funext fun k => funext fun h => funext fun w => iblk0_2 V c t k h w

theorem sc_0 (c : Dev nD) (t : Fin cfg0.N) : (sc V c t).1 (ix2 0 0) = kBce (arr4 (V c main_arg0) (bt0 t)) (arr3 (V c main_arg2) (bt0 t)) := by
  unfold sc
  dsimp only
  rw [sBce_eq, blk8_xb, blk1_tb]
theorem stepA_0 (c : Dev nD) (t : Fin cfg0.N) (l : Fin 128) : (stepA V c t).1 (ix3 0 0 l) = 0 + kBce (arr4 (V c main_arg0) (bt0 t)) (arr3 (V c main_arg2) (bt0 t)) := by
  unfold stepA
  dsimp only
  rw [accum_apply, zero3_apply, sc_0]
theorem stepB_0 (c : Dev nD) (t : Fin cfg0.N) (p : Vec Ideal S1x1x128 .f32 × Vec Ideal S1x1x128 .f32 × Vec Ideal S1x1x128 .f32) (l : Fin 128) :
    (stepB V c t p).1 (ix3 0 0 l) = p.1 (ix3 0 0 l) + kBce (arr4 (V c main_arg0) (bt0 t)) (arr3 (V c main_arg2) (bt0 t)) := by
  unfold stepB
  dsimp only
  rw [accum_apply, sc_0]
/-- Row 0 and row 1 of result array 3. -/
theorem row0_0 (c : Dev nD) (l : Fin 128) : (outsAt0 V c t0_3.val t0_3.isLt).1 (ix3 0 0 l)
    = acc4 (fun b => kBce (arr4 (V c main_arg0) b) (arr3 (V c main_arg2) b)) 0 := by
  rw [outs_3, stepB_0, stepB_0, stepB_0, stepA_0]
  rfl
theorem row1_0 (c : Dev nD) (l : Fin 128) : (outsAt0 V c t0_7.val t0_7.isLt).1 (ix3 0 0 l)
    = acc4 (fun b => kBce (arr4 (V c main_arg0) b) (arr3 (V c main_arg2) b)) 1 := by
  rw [outs_7, stepB_0, stepB_0, stepB_0, stepA_0]
  rfl
/-- Lane 0 of row g of result array 3 at the end of the region. -/
theorem arr_0 (c : Dev nD) (g : Fin 2) : ((dat0 V c).arrAt 3 cfg0.N : Vec Ideal S2x1x128 .f32) (ix3 g 0 0)
    = acc4 (fun b => kBce (arr4 (V c main_arg0) b) (arr3 (V c main_arg2) b)) g := by
  rw [Cert.KernelIdeal.Arr0.arr3]
  unfold rows
  match g with
  | ⟨0, _⟩ => rw [if_pos rfl]; exact row0_0 V c 0
  | ⟨1, _⟩ => rw [if_neg (Nat.succ_ne_zero 0)]; exact row1_0 V c 0

theorem sc_1 (c : Dev nD) (t : Fin cfg0.N) : (sc V c t).2.1 (ix2 0 0) = kBicon (arr4 (V c main_arg0) (bt0 t)) (arr4 (V c main_arg3) (bt0 t)) := by
  unfold sc
  dsimp only
  rw [sBicon_eq, blk8_xb, blk8_cb]
theorem stepA_1 (c : Dev nD) (t : Fin cfg0.N) (l : Fin 128) : (stepA V c t).2.1 (ix3 0 0 l) = 0 + kBicon (arr4 (V c main_arg0) (bt0 t)) (arr4 (V c main_arg3) (bt0 t)) := by
  unfold stepA
  dsimp only
  rw [accum_apply, zero3_apply, sc_1]
theorem stepB_1 (c : Dev nD) (t : Fin cfg0.N) (p : Vec Ideal S1x1x128 .f32 × Vec Ideal S1x1x128 .f32 × Vec Ideal S1x1x128 .f32) (l : Fin 128) :
    (stepB V c t p).2.1 (ix3 0 0 l) = p.2.1 (ix3 0 0 l) + kBicon (arr4 (V c main_arg0) (bt0 t)) (arr4 (V c main_arg3) (bt0 t)) := by
  unfold stepB
  dsimp only
  rw [accum_apply, sc_1]
/-- Row 0 and row 1 of result array 4. -/
theorem row0_1 (c : Dev nD) (l : Fin 128) : (outsAt0 V c t0_3.val t0_3.isLt).2.1 (ix3 0 0 l)
    = acc4 (fun b => kBicon (arr4 (V c main_arg0) b) (arr4 (V c main_arg3) b)) 0 := by
  rw [outs_3, stepB_1, stepB_1, stepB_1, stepA_1]
  rfl
theorem row1_1 (c : Dev nD) (l : Fin 128) : (outsAt0 V c t0_7.val t0_7.isLt).2.1 (ix3 0 0 l)
    = acc4 (fun b => kBicon (arr4 (V c main_arg0) b) (arr4 (V c main_arg3) b)) 1 := by
  rw [outs_7, stepB_1, stepB_1, stepB_1, stepA_1]
  rfl
/-- Lane 0 of row g of result array 4 at the end of the region. -/
theorem arr_1 (c : Dev nD) (g : Fin 2) : ((dat0 V c).arrAt 4 cfg0.N : Vec Ideal S2x1x128 .f32) (ix3 g 0 0)
    = acc4 (fun b => kBicon (arr4 (V c main_arg0) b) (arr4 (V c main_arg3) b)) g := by
  rw [Cert.KernelIdeal.Arr0.arr4]
  unfold rows
  match g with
  | ⟨0, _⟩ => rw [if_pos rfl]; exact row0_1 V c 0
  | ⟨1, _⟩ => rw [if_neg (Nat.succ_ne_zero 0)]; exact row1_1 V c 0

theorem sc_2 (c : Dev nD) (t : Fin cfg0.N) : (sc V c t).2.2 (ix2 0 0) = kConn (arr4 (V c main_arg0) (bt0 t)) (arr4 (V c main_arg3) (bt0 t)) := by
  unfold sc
  dsimp only
  rw [sConn_eq, blk8_xb, blk8_cb]
theorem stepA_2 (c : Dev nD) (t : Fin cfg0.N) (l : Fin 128) : (stepA V c t).2.2 (ix3 0 0 l) = 0 + kConn (arr4 (V c main_arg0) (bt0 t)) (arr4 (V c main_arg3) (bt0 t)) := by
  unfold stepA
  dsimp only
  rw [accum_apply, zero3_apply, sc_2]
theorem stepB_2 (c : Dev nD) (t : Fin cfg0.N) (p : Vec Ideal S1x1x128 .f32 × Vec Ideal S1x1x128 .f32 × Vec Ideal S1x1x128 .f32) (l : Fin 128) :
    (stepB V c t p).2.2 (ix3 0 0 l) = p.2.2 (ix3 0 0 l) + kConn (arr4 (V c main_arg0) (bt0 t)) (arr4 (V c main_arg3) (bt0 t)) := by
  unfold stepB
  dsimp only
  rw [accum_apply, sc_2]
/-- Row 0 and row 1 of result array 5. -/
theorem row0_2 (c : Dev nD) (l : Fin 128) : (outsAt0 V c t0_3.val t0_3.isLt).2.2 (ix3 0 0 l)
    = acc4 (fun b => kConn (arr4 (V c main_arg0) b) (arr4 (V c main_arg3) b)) 0 := by
  rw [outs_3, stepB_2, stepB_2, stepB_2, stepA_2]
  rfl
theorem row1_2 (c : Dev nD) (l : Fin 128) : (outsAt0 V c t0_7.val t0_7.isLt).2.2 (ix3 0 0 l)
    = acc4 (fun b => kConn (arr4 (V c main_arg0) b) (arr4 (V c main_arg3) b)) 1 := by
  rw [outs_7, stepB_2, stepB_2, stepB_2, stepA_2]
  rfl
/-- Lane 0 of row g of result array 5 at the end of the region. -/
theorem arr_2 (c : Dev nD) (g : Fin 2) : ((dat0 V c).arrAt 5 cfg0.N : Vec Ideal S2x1x128 .f32) (ix3 g 0 0)
    = acc4 (fun b => kConn (arr4 (V c main_arg0) b) (arr4 (V c main_arg3) b)) g := by
  rw [Cert.KernelIdeal.Arr0.arr5]
  unfold rows
  match g with
  | ⟨0, _⟩ => rw [if_pos rfl]; exact row0_2 V c 0
  | ⟨1, _⟩ => rw [if_neg (Nat.succ_ne_zero 0)]; exact row1_2 V c 0

end Cert.KernelIdeal.Val0

end
-- ==== Proof.KAcc1.lean ====
/-
  Region 1 of the kernel program, point by point.  Grid point t (of eight) works on batch element t; points 0 and 4
  reset the three running outputs, every point adds its three scalars, and points 3 and 7 write the running outputs
  back as rows 0 and 1 of the three result arrays.  So row g of each result array holds, in every lane, the scalars of
  batch elements 4g … 4g+3 chained from the reset value.
-/
import proofs.«403145_j71588514889841_3_alg».proof.Proof.Gen.KernelIdeal.Frame
import proofs.«403145_j71588514889841_3_alg».proof.Proof.KVec
import proofs.«403145_j71588514889841_3_alg».proof.Proof.KPiece
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Acc1

open Cert.KernelIdeal Cert.KernelIdeal.Gen Cert.KernelIdeal.Vec Cert.KernelIdeal.Piece

variable {F : FTy → Type} [FloatOps F]
variable (V : (c : Dev nD) → (b : Ref sig .tc) → Buf (Elt F) ((c : Thread nD τ).loc b))

/-- The three input blocks of point t, at their literal types. -/
abbrev xb (c : Dev nD) (t : Fin cfg1.N) : Vec F S1x8x512x512 .f32 := iblk1 V c 0 t
abbrev tb (c : Dev nD) (t : Fin cfg1.N) : Vec F S1x1x512x512 .f32 := iblk1 V c 1 t
abbrev cb (c : Dev nD) (t : Fin cfg1.N) : Vec F S1x8x512x512 .f32 := iblk1 V c 2 t

/-- The three scalars point t adds, in window order. -/
def sc (c : Dev nD) (t : Fin cfg1.N) : FVec F S1x1 .f32 × FVec F S1x1 .f32 × FVec F S1x1 .f32 :=
  (sBicon (planes (xb V c t) (cb V c t)), sConn (planes (xb V c t) (cb V c t)), sDe (planes (xb V c t) (cb V c t)) (chT (tb V c t)))

/-- A resetting point leaves the reset value plus its scalars. -/
def stepA (c : Dev nD) (t : Fin cfg1.N) : Vec F S1x1x128 .f32 × Vec F S1x1x128 .f32 × Vec F S1x1x128 .f32 :=
  (accum zero3 (sc V c t).1, accum zero3 (sc V c t).2.1, accum zero3 (sc V c t).2.2)
/-- Any other point adds its scalars to what the point before left. -/
def stepB (c : Dev nD) (t : Fin cfg1.N) (p : Vec F S1x1x128 .f32 × Vec F S1x1x128 .f32 × Vec F S1x1x128 .f32) :
    Vec F S1x1x128 .f32 × Vec F S1x1x128 .f32 × Vec F S1x1x128 .f32 :=
  (accum p.1 (sc V c t).1, accum p.2.1 (sc V c t).2.1, accum p.2.2 (sc V c t).2.2)

theorem outs_A (c : Dev nD) (t : Fin cfg1.N) (h0 : t.val % 4 = 0) : outsAt1 V c t.val t.isLt = stepA V c t := by
  rw [outsAt1_A V c t h0]
  unfold stepA sc
  rw [out1_A_3_eq, out1_A_4_eq, out1_A_5_eq]

theorem outs_B (c : Dev nD) (t : Fin cfg1.N) (h0 : ¬t.val % 4 = 0) :
    outsAt1 V c t.val t.isLt = stepB V c t (outsAt1 V c (t.val - 1) (Nat.lt_of_le_of_lt (Nat.sub_le _ _) t.isLt)) := by
  rw [outsAt1_B V c t h0]
  unfold stepB sc
  rw [out1_B_3_eq, out1_B_4_eq, out1_B_5_eq]

/-- After point 3: batch elements 0 … 3 chained. -/
theorem outs_3 (c : Dev nD) : outsAt1 V c t1_3.val t1_3.isLt = stepB V c t1_3 (stepB V c t1_2 (stepB V c t1_1 (stepA V c t1_0))) := by
  have e0 := outs_A V c t1_0 (by decide)
  have e1 := outs_B V c t1_1 (by decide)
  have e2 := outs_B V c t1_2 (by decide)
  have e3 := outs_B V c t1_3 (by decide)
  rw [e3]
  show stepB V c t1_3 (outsAt1 V c t1_2.val t1_2.isLt) = _
  rw [e2]
  show stepB V c t1_3 (stepB V c t1_2 (outsAt1 V c t1_1.val t1_1.isLt)) = _
  rw [e1]
  show stepB V c t1_3 (stepB V c t1_2 (stepB V c t1_1 (outsAt1 V c t1_0.val t1_0.isLt))) = _
  rw [e0]

/-- After point 7: batch elements 4 … 7 chained. -/
theorem outs_7 (c : Dev nD) : outsAt1 V c t1_7.val t1_7.isLt = stepB V c t1_7 (stepB V c t1_6 (stepB V c t1_5 (stepA V c t1_4))) := by
  have e0 := outs_A V c t1_4 (by decide)
  have e1 := outs_B V c t1_5 (by decide)
  have e2 := outs_B V c t1_6 (by decide)
  have e3 := outs_B V c t1_7 (by decide)
  rw [e3]
  show stepB V c t1_7 (outsAt1 V c t1_6.val t1_6.isLt) = _
  rw [e2]
  show stepB V c t1_7 (stepB V c t1_6 (outsAt1 V c t1_5.val t1_5.isLt)) = _
  rw [e1]
  show stepB V c t1_7 (stepB V c t1_6 (stepB V c t1_5 (outsAt1 V c t1_4.val t1_4.isLt))) = _
  rw [e0]

end Cert.KernelIdeal.Acc1

end
-- ==== Proof.KArr1.lean ====
/-
  Region 1: the three result arrays at the end of the region.  Each is two rows of 128 lanes; row 0 is written
  back after point 3 and row 1 after point 7, so the array holds, in row g, what the running output held after point
  4g + 3.
-/
import proofs.«403145_j71588514889841_3_alg».proof.Proof.KAcc1
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr1

open Cert.KernelIdeal Cert.KernelIdeal.Gen Cert.KernelIdeal.Vec Cert.KernelIdeal.Acc1

variable {F : FTy → Type} [FloatOps F]
variable (V : (c : Dev nD) → (b : Ref sig .tc) → Buf (Elt F) ((c : Thread nD τ).loc b))

/-- Two rows from the two write-backs. -/
def rows (p q : Vec F S1x1x128 .f32) : Vec F S2x1x128 .f32 :=
  fun j => if (j 0).val = 0 then p (ix3 0 0 (j 2)) else q (ix3 0 0 (j 2))

/-- What point 3 and point 7 write back of output 3 is row 0 and row 1 of the two rows. -/
theorem flushed_eq3 (c : Dev nD) (t : Fin cfg1.N) (hf : (cfg1.win 3).flush t = true) :
    (dat1 V c).flushed 3 t = ((cfg1.win 3).blk t).view.read (Elt F)
      (rows (outsAt1 V c t1_3.val t1_3.isLt).1 (outsAt1 V c t1_7.val t1_7.isLt).1) := by
  have h3 : t.val % 4 = 3 := (flush1_3 t).mp hf
  rcases fin_N1 t with rfl | rfl | rfl | rfl | rfl | rfl | rfl | rfl
  all_goals first
    | (exfalso; revert h3; decide)
    | skip
  ·
    show (cfg1.win 3).cut (grid1.coords t1_3) ((dat1 V c).after 3 t1_3) = _
    rw [after1_3]
    funext y
    show (outsAt1 V c t1_3.val t1_3.isLt).1 y = rows (outsAt1 V c t1_3.val t1_3.isLt).1 (outsAt1 V c t1_7.val t1_7.isLt).1 (((cfg1.win 3).blk t1_3).view.emb y)
    have e0 : ((((cfg1.win 3).blk t1_3).view.emb y) 0).val = 0 := by
      show win1_3.index t1_3 0 * 1 + 1 * (y 0).val = 0
      have h1 : (y 0).val < 1 := (y 0).isLt
      have h2 : win1_3.index t1_3 0 = 0 := by decide +kernel
      omega
    have e2 : ((((cfg1.win 3).blk t1_3).view.emb y) 2).val = (y 2).val := by
      show win1_3.index t1_3 2 * 128 + 1 * (y 2).val = (y 2).val
      have h2 : win1_3.index t1_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg1.win 3).cut (grid1.coords t1_7) ((dat1 V c).after 3 t1_7) = _
    rw [after1_3]
    funext y
    show (outsAt1 V c t1_7.val t1_7.isLt).1 y = rows (outsAt1 V c t1_3.val t1_3.isLt).1 (outsAt1 V c t1_7.val t1_7.isLt).1 (((cfg1.win 3).blk t1_7).view.emb y)
    have e0 : ((((cfg1.win 3).blk t1_7).view.emb y) 0).val = 1 := by
      show win1_3.index t1_7 0 * 1 + 1 * (y 0).val = 1
      have h1 : (y 0).val < 1 := (y 0).isLt
      have h2 : win1_3.index t1_7 0 = 1 := by decide +kernel
      omega
    have e2 : ((((cfg1.win 3).blk t1_7).view.emb y) 2).val = (y 2).val := by
      show win1_3.index t1_7 2 * 128 + 1 * (y 2).val = (y 2).val
      have h2 : win1_3.index t1_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover3 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t1_3, (flush1_3 t1_3).mpr (by decide), ?_⟩
    show i ∈ ((View.whole main_v1_0).slice (win1_3.rect t1_3)).set
    rw [View.set_slice_whole, Rect.mem_set_unit]
    intro a
    match a with
    | ⟨0, _⟩ => show win1_3.index t1_3 0 * win1_3.size 0 ≤ (i 0 : Nat) ∧ (i 0 : Nat) < win1_3.index t1_3 0 * win1_3.size 0 + win1_3.xsize (grid1.coords t1_3) 0
                rw [show win1_3.index t1_3 0 * win1_3.size 0 = 0 from by decide +kernel, show win1_3.xsize (grid1.coords t1_3) 0 = 1 from by decide +kernel]; omega
    | ⟨1, _⟩ => show win1_3.index t1_3 1 * win1_3.size 1 ≤ (i 1 : Nat) ∧ (i 1 : Nat) < win1_3.index t1_3 1 * win1_3.size 1 + win1_3.xsize (grid1.coords t1_3) 1
                rw [show win1_3.index t1_3 1 * win1_3.size 1 = 0 from by decide +kernel, show win1_3.xsize (grid1.coords t1_3) 1 = 1 from by decide +kernel]; omega
    | ⟨2, _⟩ => show win1_3.index t1_3 2 * win1_3.size 2 ≤ (i 2 : Nat) ∧ (i 2 : Nat) < win1_3.index t1_3 2 * win1_3.size 2 + win1_3.xsize (grid1.coords t1_3) 2
                rw [show win1_3.index t1_3 2 * win1_3.size 2 = 0 from by decide +kernel, show win1_3.xsize (grid1.coords t1_3) 2 = 128 from by decide +kernel]; omega
  · refine ⟨t1_7, (flush1_3 t1_7).mpr (by decide), ?_⟩
    show i ∈ ((View.whole main_v1_0).slice (win1_3.rect t1_7)).set
    rw [View.set_slice_whole, Rect.mem_set_unit]
    intro a
    match a with
    | ⟨0, _⟩ => show win1_3.index t1_7 0 * win1_3.size 0 ≤ (i 0 : Nat) ∧ (i 0 : Nat) < win1_3.index t1_7 0 * win1_3.size 0 + win1_3.xsize (grid1.coords t1_7) 0
                rw [show win1_3.index t1_7 0 * win1_3.size 0 = 1 from by decide +kernel, show win1_3.xsize (grid1.coords t1_7) 0 = 1 from by decide +kernel]; omega
    | ⟨1, _⟩ => show win1_3.index t1_7 1 * win1_3.size 1 ≤ (i 1 : Nat) ∧ (i 1 : Nat) < win1_3.index t1_7 1 * win1_3.size 1 + win1_3.xsize (grid1.coords t1_7) 1
                rw [show win1_3.index t1_7 1 * win1_3.size 1 = 0 from by decide +kernel, show win1_3.xsize (grid1.coords t1_7) 1 = 1 from by decide +kernel]; omega
    | ⟨2, _⟩ => show win1_3.index t1_7 2 * win1_3.size 2 ≤ (i 2 : Nat) ∧ (i 2 : Nat) < win1_3.index t1_7 2 * win1_3.size 2 + win1_3.xsize (grid1.coords t1_7) 2
                rw [show win1_3.index t1_7 2 * win1_3.size 2 = 0 from by decide +kernel, show win1_3.xsize (grid1.coords t1_7) 2 = 128 from by decide +kernel]; omega

/-- Result array 3 at the end of the region. -/
theorem arr3 (c : Dev nD) : (dat1 V c).arrAt 3 cfg1.N
    = rows (outsAt1 V c t1_3.val t1_3.isLt).1 (outsAt1 V c t1_7.val t1_7.isLt).1 :=
  (dat1 V c).arrAt_eq_of_cover 3 _ (flushed_eq3 V c) (cover3 c)

/-- What point 3 and point 7 write back of output 4 is row 0 and row 1 of the two rows. -/
theorem flushed_eq4 (c : Dev nD) (t : Fin cfg1.N) (hf : (cfg1.win 4).flush t = true) :
    (dat1 V c).flushed 4 t = ((cfg1.win 4).blk t).view.read (Elt F)
      (rows (outsAt1 V c t1_3.val t1_3.isLt).2.1 (outsAt1 V c t1_7.val t1_7.isLt).2.1) := by
  have h3 : t.val % 4 = 3 := (flush1_4 t).mp hf
  rcases fin_N1 t with rfl | rfl | rfl | rfl | rfl | rfl | rfl | rfl
  all_goals first
    | (exfalso; revert h3; decide)
    | skip
  ·
    show (cfg1.win 4).cut (grid1.coords t1_3) ((dat1 V c).after 4 t1_3) = _
    rw [after1_4]
    funext y
    show (outsAt1 V c t1_3.val t1_3.isLt).2.1 y = rows (outsAt1 V c t1_3.val t1_3.isLt).2.1 (outsAt1 V c t1_7.val t1_7.isLt).2.1 (((cfg1.win 4).blk t1_3).view.emb y)
    have e0 : ((((cfg1.win 4).blk t1_3).view.emb y) 0).val = 0 := by
      show win1_4.index t1_3 0 * 1 + 1 * (y 0).val = 0
      have h1 : (y 0).val < 1 := (y 0).isLt
      have h2 : win1_4.index t1_3 0 = 0 := by decide +kernel
      omega
    have e2 : ((((cfg1.win 4).blk t1_3).view.emb y) 2).val = (y 2).val := by
      show win1_4.index t1_3 2 * 128 + 1 * (y 2).val = (y 2).val
      have h2 : win1_4.index t1_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg1.win 4).cut (grid1.coords t1_7) ((dat1 V c).after 4 t1_7) = _
    rw [after1_4]
    funext y
    show (outsAt1 V c t1_7.val t1_7.isLt).2.1 y = rows (outsAt1 V c t1_3.val t1_3.isLt).2.1 (outsAt1 V c t1_7.val t1_7.isLt).2.1 (((cfg1.win 4).blk t1_7).view.emb y)
    have e0 : ((((cfg1.win 4).blk t1_7).view.emb y) 0).val = 1 := by
      show win1_4.index t1_7 0 * 1 + 1 * (y 0).val = 1
      have h1 : (y 0).val < 1 := (y 0).isLt
      have h2 : win1_4.index t1_7 0 = 1 := by decide +kernel
      omega
    have e2 : ((((cfg1.win 4).blk t1_7).view.emb y) 2).val = (y 2).val := by
      show win1_4.index t1_7 2 * 128 + 1 * (y 2).val = (y 2).val
      have h2 : win1_4.index t1_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover4 (c : Dev nD) (i : ((cfg1.win 4).arr.view.loc (c.tc : Thread nD τ)).2.ty.Idx) :
    ∃ t : Fin cfg1.N, (cfg1.win 4).flush t = true ∧ i ∈ ((cfg1.win 4).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t1_3, (flush1_4 t1_3).mpr (by decide), ?_⟩
    show i ∈ ((View.whole main_v1_1).slice (win1_4.rect t1_3)).set
    rw [View.set_slice_whole, Rect.mem_set_unit]
    intro a
    match a with
    | ⟨0, _⟩ => show win1_4.index t1_3 0 * win1_4.size 0 ≤ (i 0 : Nat) ∧ (i 0 : Nat) < win1_4.index t1_3 0 * win1_4.size 0 + win1_4.xsize (grid1.coords t1_3) 0
                rw [show win1_4.index t1_3 0 * win1_4.size 0 = 0 from by decide +kernel, show win1_4.xsize (grid1.coords t1_3) 0 = 1 from by decide +kernel]; omega
    | ⟨1, _⟩ => show win1_4.index t1_3 1 * win1_4.size 1 ≤ (i 1 : Nat) ∧ (i 1 : Nat) < win1_4.index t1_3 1 * win1_4.size 1 + win1_4.xsize (grid1.coords t1_3) 1
                rw [show win1_4.index t1_3 1 * win1_4.size 1 = 0 from by decide +kernel, show win1_4.xsize (grid1.coords t1_3) 1 = 1 from by decide +kernel]; omega
    | ⟨2, _⟩ => show win1_4.index t1_3 2 * win1_4.size 2 ≤ (i 2 : Nat) ∧ (i 2 : Nat) < win1_4.index t1_3 2 * win1_4.size 2 + win1_4.xsize (grid1.coords t1_3) 2
                rw [show win1_4.index t1_3 2 * win1_4.size 2 = 0 from by decide +kernel, show win1_4.xsize (grid1.coords t1_3) 2 = 128 from by decide +kernel]; omega
  · refine ⟨t1_7, (flush1_4 t1_7).mpr (by decide), ?_⟩
    show i ∈ ((View.whole main_v1_1).slice (win1_4.rect t1_7)).set
    rw [View.set_slice_whole, Rect.mem_set_unit]
    intro a
    match a with
    | ⟨0, _⟩ => show win1_4.index t1_7 0 * win1_4.size 0 ≤ (i 0 : Nat) ∧ (i 0 : Nat) < win1_4.index t1_7 0 * win1_4.size 0 + win1_4.xsize (grid1.coords t1_7) 0
                rw [show win1_4.index t1_7 0 * win1_4.size 0 = 1 from by decide +kernel, show win1_4.xsize (grid1.coords t1_7) 0 = 1 from by decide +kernel]; omega
    | ⟨1, _⟩ => show win1_4.index t1_7 1 * win1_4.size 1 ≤ (i 1 : Nat) ∧ (i 1 : Nat) < win1_4.index t1_7 1 * win1_4.size 1 + win1_4.xsize (grid1.coords t1_7) 1
                rw [show win1_4.index t1_7 1 * win1_4.size 1 = 0 from by decide +kernel, show win1_4.xsize (grid1.coords t1_7) 1 = 1 from by decide +kernel]; omega
    | ⟨2, _⟩ => show win1_4.index t1_7 2 * win1_4.size 2 ≤ (i 2 : Nat) ∧ (i 2 : Nat) < win1_4.index t1_7 2 * win1_4.size 2 + win1_4.xsize (grid1.coords t1_7) 2
                rw [show win1_4.index t1_7 2 * win1_4.size 2 = 0 from by decide +kernel, show win1_4.xsize (grid1.coords t1_7) 2 = 128 from by decide +kernel]; omega

/-- Result array 4 at the end of the region. -/
theorem arr4 (c : Dev nD) : (dat1 V c).arrAt 4 cfg1.N
    = rows (outsAt1 V c t1_3.val t1_3.isLt).2.1 (outsAt1 V c t1_7.val t1_7.isLt).2.1 :=
  (dat1 V c).arrAt_eq_of_cover 4 _ (flushed_eq4 V c) (cover4 c)

/-- What point 3 and point 7 write back of output 5 is row 0 and row 1 of the two rows. -/
theorem flushed_eq5 (c : Dev nD) (t : Fin cfg1.N) (hf : (cfg1.win 5).flush t = true) :
    (dat1 V c).flushed 5 t = ((cfg1.win 5).blk t).view.read (Elt F)
      (rows (outsAt1 V c t1_3.val t1_3.isLt).2.2 (outsAt1 V c t1_7.val t1_7.isLt).2.2) := by
  have h3 : t.val % 4 = 3 := (flush1_5 t).mp hf
  rcases fin_N1 t with rfl | rfl | rfl | rfl | rfl | rfl | rfl | rfl
  all_goals first
    | (exfalso; revert h3; decide)
    | skip
  ·
    show (cfg1.win 5).cut (grid1.coords t1_3) ((dat1 V c).after 5 t1_3) = _
    rw [after1_5]
    funext y
    show (outsAt1 V c t1_3.val t1_3.isLt).2.2 y = rows (outsAt1 V c t1_3.val t1_3.isLt).2.2 (outsAt1 V c t1_7.val t1_7.isLt).2.2 (((cfg1.win 5).blk t1_3).view.emb y)
    have e0 : ((((cfg1.win 5).blk t1_3).view.emb y) 0).val = 0 := by
      show win1_5.index t1_3 0 * 1 + 1 * (y 0).val = 0
      have h1 : (y 0).val < 1 := (y 0).isLt
      have h2 : win1_5.index t1_3 0 = 0 := by decide +kernel
      omega
    have e2 : ((((cfg1.win 5).blk t1_3).view.emb y) 2).val = (y 2).val := by
      show win1_5.index t1_3 2 * 128 + 1 * (y 2).val = (y 2).val
      have h2 : win1_5.index t1_3 2 = 0 := by decide +kernel
      omega
    unfold rows
    rw [if_pos e0]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm
  ·
    show (cfg1.win 5).cut (grid1.coords t1_7) ((dat1 V c).after 5 t1_7) = _
    rw [after1_5]
    funext y
    show (outsAt1 V c t1_7.val t1_7.isLt).2.2 y = rows (outsAt1 V c t1_3.val t1_3.isLt).2.2 (outsAt1 V c t1_7.val t1_7.isLt).2.2 (((cfg1.win 5).blk t1_7).view.emb y)
    have e0 : ((((cfg1.win 5).blk t1_7).view.emb y) 0).val = 1 := by
      show win1_5.index t1_7 0 * 1 + 1 * (y 0).val = 1
      have h1 : (y 0).val < 1 := (y 0).isLt
      have h2 : win1_5.index t1_7 0 = 1 := by decide +kernel
      omega
    have e2 : ((((cfg1.win 5).blk t1_7).view.emb y) 2).val = (y 2).val := by
      show win1_5.index t1_7 2 * 128 + 1 * (y 2).val = (y 2).val
      have h2 : win1_5.index t1_7 2 = 0 := by decide +kernel
      omega
    unfold rows
    rw [if_neg (by rw [e0]; decide)]
    refine congrArg _ (funext fun a => ?_)
    match a with
    | ⟨0, _⟩ => exact Fin.ext (by have h1 : (y 0).val < 1 := (y 0).isLt; show (y 0).val = 0; omega)
    | ⟨1, _⟩ => exact Fin.ext (by have h1 : (y 1).val < 1 := (y 1).isLt; show (y 1).val = 0; omega)
    | ⟨2, _⟩ => exact Fin.ext e2.symm

/-- The two written-back rows cover the array. -/
theorem cover5 (c : Dev nD) (i : ((cfg1.win 5).arr.view.loc (c.tc : Thread nD τ)).2.ty.Idx) :
    ∃ t : Fin cfg1.N, (cfg1.win 5).flush t = true ∧ i ∈ ((cfg1.win 5).blk t).view.set := by
  have h0 : (i 0 : Nat) < 2 := (i 0).isLt
  have h1 : (i 1 : Nat) < 1 := (i 1).isLt
  have h2 : (i 2 : Nat) < 128 := (i 2).isLt
  by_cases hg : (i 0 : Nat) = 0
  · refine ⟨t1_3, (flush1_5 t1_3).mpr (by decide), ?_⟩
    show i ∈ ((View.whole main_v1_2).slice (win1_5.rect t1_3)).set
    rw [View.set_slice_whole, Rect.mem_set_unit]
    intro a
    match a with
    | ⟨0, _⟩ => show win1_5.index t1_3 0 * win1_5.size 0 ≤ (i 0 : Nat) ∧ (i 0 : Nat) < win1_5.index t1_3 0 * win1_5.size 0 + win1_5.xsize (grid1.coords t1_3) 0
                rw [show win1_5.index t1_3 0 * win1_5.size 0 = 0 from by decide +kernel, show win1_5.xsize (grid1.coords t1_3) 0 = 1 from by decide +kernel]; omega
    | ⟨1, _⟩ => show win1_5.index t1_3 1 * win1_5.size 1 ≤ (i 1 : Nat) ∧ (i 1 : Nat) < win1_5.index t1_3 1 * win1_5.size 1 + win1_5.xsize (grid1.coords t1_3) 1
                rw [show win1_5.index t1_3 1 * win1_5.size 1 = 0 from by decide +kernel, show win1_5.xsize (grid1.coords t1_3) 1 = 1 from by decide +kernel]; omega
    | ⟨2, _⟩ => show win1_5.index t1_3 2 * win1_5.size 2 ≤ (i 2 : Nat) ∧ (i 2 : Nat) < win1_5.index t1_3 2 * win1_5.size 2 + win1_5.xsize (grid1.coords t1_3) 2
                rw [show win1_5.index t1_3 2 * win1_5.size 2 = 0 from by decide +kernel, show win1_5.xsize (grid1.coords t1_3) 2 = 128 from by decide +kernel]; omega
  · refine ⟨t1_7, (flush1_5 t1_7).mpr (by decide), ?_⟩
    show i ∈ ((View.whole main_v1_2).slice (win1_5.rect t1_7)).set
    rw [View.set_slice_whole, Rect.mem_set_unit]
    intro a
    match a with
    | ⟨0, _⟩ => show win1_5.index t1_7 0 * win1_5.size 0 ≤ (i 0 : Nat) ∧ (i 0 : Nat) < win1_5.index t1_7 0 * win1_5.size 0 + win1_5.xsize (grid1.coords t1_7) 0
                rw [show win1_5.index t1_7 0 * win1_5.size 0 = 1 from by decide +kernel, show win1_5.xsize (grid1.coords t1_7) 0 = 1 from by decide +kernel]; omega
    | ⟨1, _⟩ => show win1_5.index t1_7 1 * win1_5.size 1 ≤ (i 1 : Nat) ∧ (i 1 : Nat) < win1_5.index t1_7 1 * win1_5.size 1 + win1_5.xsize (grid1.coords t1_7) 1
                rw [show win1_5.index t1_7 1 * win1_5.size 1 = 0 from by decide +kernel, show win1_5.xsize (grid1.coords t1_7) 1 = 1 from by decide +kernel]; omega
    | ⟨2, _⟩ => show win1_5.index t1_7 2 * win1_5.size 2 ≤ (i 2 : Nat) ∧ (i 2 : Nat) < win1_5.index t1_7 2 * win1_5.size 2 + win1_5.xsize (grid1.coords t1_7) 2
                rw [show win1_5.index t1_7 2 * win1_5.size 2 = 0 from by decide +kernel, show win1_5.xsize (grid1.coords t1_7) 2 = 128 from by decide +kernel]; omega

/-- Result array 5 at the end of the region. -/
theorem arr5 (c : Dev nD) : (dat1 V c).arrAt 5 cfg1.N
    = rows (outsAt1 V c t1_3.val t1_3.isLt).2.2 (outsAt1 V c t1_7.val t1_7.isLt).2.2 :=
  (dat1 V c).arrAt_eq_of_cover 5 _ (flushed_eq5 V c) (cover5 c)

end Cert.KernelIdeal.Arr1

end
-- ==== Proof.KVal1.lean ====
/-
  Region 1 at the extended reals: every lane of row g of each of its three result arrays holds the scalars of batch
  elements 4g … 4g+3 chained from zero, each scalar the corresponding sum of Spec.lean over that batch element of
  the region's three input arrays.
-/
import proofs.«403145_j71588514889841_3_alg».proof.Proof.KArr1
import proofs.«403145_j71588514889841_3_alg».proof.Proof.KBlk
import proofs.«403145_j71588514889841_3_alg».proof.Proof.KVecIdx

set_option maxRecDepth 16384

noncomputable section

open Idealize.ShloMosaic Idealize.ShloMosaic.TcCoe Idealize.SL.Sem Idealize.ShloMosaic.ValueIdx

namespace Cert.KernelIdeal.Val1

open Cert.KernelIdeal Cert.KernelIdeal.Gen Cert.KernelIdeal.Vec Cert.KernelIdeal.Acc1 Cert.KernelIdeal.Arr1 Cert.KernelIdeal.Blk Cert.KernelIdeal.VecIdx Bicon

variable (V : (c : Dev nD) → (b : Ref sig .tc) → Buf (Elt Ideal) ((c : Thread nD τ).loc b))

theorem blk8_xb (c : Dev nD) (t : Fin cfg1.N) : blk8 (xb V c t) = arr4 (V c main_arg1) (bt1 t) :=
  funext fun k => funext fun h => funext fun w => iblk1_0 V c t k h w
theorem blk1_tb (c : Dev nD) (t : Fin cfg1.N) : blk1 (tb V c t) = arr3 (V c main_arg2) (bt1 t) :=
  funext fun h => funext fun w => iblk1_1 V c t h w
theorem blk8_cb (c : Dev nD) (t : Fin cfg1.N) : blk8 (cb V c t) = arr4 (V c main_arg3) (bt1 t) :=
  funext fun k => funext fun h => funext fun w => iblk1_2 V c t k h w

theorem sc_0 (c : Dev nD) (t : Fin cfg1.N) : (sc V c t).1 (ix2 0 0) = kBicon (arr4 (V c main_arg1) (bt1 t)) (arr4 (V c main_arg3) (bt1 t)) := by
  unfold sc
  dsimp only
  rw [sBicon_eq, blk8_xb, blk8_cb]
theorem stepA_0 (c : Dev nD) (t : Fin cfg1.N) (l : Fin 128) : (stepA V c t).1 (ix3 0 0 l) = 0 + kBicon (arr4 (V c main_arg1) (bt1 t)) (arr4 (V c main_arg3) (bt1 t)) := by
  unfold stepA
  dsimp only
  rw [accum_apply, zero3_apply, sc_0]
theorem stepB_0 (c : Dev nD) (t : Fin cfg1.N) (p : Vec Ideal S1x1x128 .f32 × Vec Ideal S1x1x128 .f32 × Vec Ideal S1x1x128 .f32) (l : Fin 128) :
    (stepB V c t p).1 (ix3 0 0 l) = p.1 (ix3 0 0 l) + kBicon (arr4 (V c main_arg1) (bt1 t)) (arr4 (V c main_arg3) (bt1 t)) := by
  unfold stepB
  dsimp only
  rw [accum_apply, sc_0]
/-- Row 0 and row 1 of result array 3. -/
theorem row0_0 (c : Dev nD) (l : Fin 128) : (outsAt1 V c t1_3.val t1_3.isLt).1 (ix3 0 0 l)
    = acc4 (fun b => kBicon (arr4 (V c main_arg1) b) (arr4 (V c main_arg3) b)) 0 := by
  rw [outs_3, stepB_0, stepB_0, stepB_0, stepA_0]
  rfl
theorem row1_0 (c : Dev nD) (l : Fin 128) : (outsAt1 V c t1_7.val t1_7.isLt).1 (ix3 0 0 l)
    = acc4 (fun b => kBicon (arr4 (V c main_arg1) b) (arr4 (V c main_arg3) b)) 1 := by
  rw [outs_7, stepB_0, stepB_0, stepB_0, stepA_0]
  rfl
/-- Lane 0 of row g of result array 3 at the end of the region. -/
theorem arr_0 (c : Dev nD) (g : Fin 2) : ((dat1 V c).arrAt 3 cfg1.N : Vec Ideal S2x1x128 .f32) (ix3 g 0 0)
    = acc4 (fun b => kBicon (arr4 (V c main_arg1) b) (arr4 (V c main_arg3) b)) g := by
  rw [Cert.KernelIdeal.Arr1.arr3]
  unfold rows
  match g with
  | ⟨0, _⟩ => rw [if_pos rfl]; exact row0_0 V c 0
  | ⟨1, _⟩ => rw [if_neg (Nat.succ_ne_zero 0)]; exact row1_0 V c 0

theorem sc_1 (c : Dev nD) (t : Fin cfg1.N) : (sc V c t).2.1 (ix2 0 0) = kConn (arr4 (V c main_arg1) (bt1 t)) (arr4 (V c main_arg3) (bt1 t)) := by
  unfold sc
  dsimp only
  rw [sConn_eq, blk8_xb, blk8_cb]
theorem stepA_1 (c : Dev nD) (t : Fin cfg1.N) (l : Fin 128) : (stepA V c t).2.1 (ix3 0 0 l) = 0 + kConn (arr4 (V c main_arg1) (bt1 t)) (arr4 (V c main_arg3) (bt1 t)) := by
  unfold stepA
  dsimp only
  rw [accum_apply, zero3_apply, sc_1]
theorem stepB_1 (c : Dev nD) (t : Fin cfg1.N) (p : Vec Ideal S1x1x128 .f32 × Vec Ideal S1x1x128 .f32 × Vec Ideal S1x1x128 .f32) (l : Fin 128) :
    (stepB V c t p).2.1 (ix3 0 0 l) = p.2.1 (ix3 0 0 l) + kConn (arr4 (V c main_arg1) (bt1 t)) (arr4 (V c main_arg3) (bt1 t)) := by
  unfold stepB
  dsimp only
  rw [accum_apply, sc_1]
/-- Row 0 and row 1 of result array 4. -/
theorem row0_1 (c : Dev nD) (l : Fin 128) : (outsAt1 V c t1_3.val t1_3.isLt).2.1 (ix3 0 0 l)
    = acc4 (fun b => kConn (arr4 (V c main_arg1) b) (arr4 (V c main_arg3) b)) 0 := by
  rw [outs_3, stepB_1, stepB_1, stepB_1, stepA_1]
  rfl
theorem row1_1 (c : Dev nD) (l : Fin 128) : (outsAt1 V c t1_7.val t1_7.isLt).2.1 (ix3 0 0 l)
    = acc4 (fun b => kConn (arr4 (V c main_arg1) b) (arr4 (V c main_arg3) b)) 1 := by
  rw [outs_7, stepB_1, stepB_1, stepB_1, stepA_1]
  rfl
/-- Lane 0 of row g of result array 4 at the end of the region. -/
theorem arr_1 (c : Dev nD) (g : Fin 2) : ((dat1 V c).arrAt 4 cfg1.N : Vec Ideal S2x1x128 .f32) (ix3 g 0 0)
    = acc4 (fun b => kConn (arr4 (V c main_arg1) b) (arr4 (V c main_arg3) b)) g := by
  rw [Cert.KernelIdeal.Arr1.arr4]
  unfold rows
  match g with
  | ⟨0, _⟩ => rw [if_pos rfl]; exact row0_1 V c 0
  | ⟨1, _⟩ => rw [if_neg (Nat.succ_ne_zero 0)]; exact row1_1 V c 0

theorem sc_2 (c : Dev nD) (t : Fin cfg1.N) : (sc V c t).2.2 (ix2 0 0) = kDe (arr4 (V c main_arg1) (bt1 t)) (arr4 (V c main_arg3) (bt1 t)) (arr3 (V c main_arg2) (bt1 t)) := by
  unfold sc
  dsimp only
  rw [sDe_eq, blk8_xb, blk1_tb, blk8_cb]
theorem stepA_2 (c : Dev nD) (t : Fin cfg1.N) (l : Fin 128) : (stepA V c t).2.2 (ix3 0 0 l) = 0 + kDe (arr4 (V c main_arg1) (bt1 t)) (arr4 (V c main_arg3) (bt1 t)) (arr3 (V c main_arg2) (bt1 t)) := by
  unfold stepA
  dsimp only
  rw [accum_apply, zero3_apply, sc_2]
theorem stepB_2 (c : Dev nD) (t : Fin cfg1.N) (p : Vec Ideal S1x1x128 .f32 × Vec Ideal S1x1x128 .f32 × Vec Ideal S1x1x128 .f32) (l : Fin 128) :
    (stepB V c t p).2.2 (ix3 0 0 l) = p.2.2 (ix3 0 0 l) + kDe (arr4 (V c main_arg1) (bt1 t)) (arr4 (V c main_arg3) (bt1 t)) (arr3 (V c main_arg2) (bt1 t)) := by
  unfold stepB
  dsimp only
  rw [accum_apply, sc_2]
/-- Row 0 and row 1 of result array 5. -/
theorem row0_2 (c : Dev nD) (l : Fin 128) : (outsAt1 V c t1_3.val t1_3.isLt).2.2 (ix3 0 0 l)
    = acc4 (fun b => kDe (arr4 (V c main_arg1) b) (arr4 (V c main_arg3) b) (arr3 (V c main_arg2) b)) 0 := by
  rw [outs_3, stepB_2, stepB_2, stepB_2, stepA_2]
  rfl
theorem row1_2 (c : Dev nD) (l : Fin 128) : (outsAt1 V c t1_7.val t1_7.isLt).2.2 (ix3 0 0 l)
    = acc4 (fun b => kDe (arr4 (V c main_arg1) b) (arr4 (V c main_arg3) b) (arr3 (V c main_arg2) b)) 1 := by
  rw [outs_7, stepB_2, stepB_2, stepB_2, stepA_2]
  rfl
/-- Lane 0 of row g of result array 5 at the end of the region. -/
theorem arr_2 (c : Dev nD) (g : Fin 2) : ((dat1 V c).arrAt 5 cfg1.N : Vec Ideal S2x1x128 .f32) (ix3 g 0 0)
    = acc4 (fun b => kDe (arr4 (V c main_arg1) b) (arr4 (V c main_arg3) b) (arr3 (V c main_arg2) b)) g := by
  rw [Cert.KernelIdeal.Arr1.arr5]
  unfold rows
  match g with
  | ⟨0, _⟩ => rw [if_pos rfl]; exact row0_2 V c 0
  | ⟨1, _⟩ => rw [if_neg (Nat.succ_ne_zero 0)]; exact row1_2 V c 0

end Cert.KernelIdeal.Val1

end
-- ==== Proof.KTail.lean ====
/-
  The host operations after the two regions.  From the three result arrays of each region (two rows of 128 lanes
  each) they take lane 0 of both rows, add the two from zero, divide by the number of summed terms, and combine the six
  quotients with the weights 0.2 and 0.8: the program's result is that combination of the six arrays.
-/
import proofs.«403145_j71588514889841_3_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

variable {F : FTy → Type} [FloatOps F]

/-- Lane 0 of the two rows, added from zero. -/
def red (a : Vec F S2x1x128 .f32) : FVec F S_ .f32 :=
  Host.reduceAdd (shapeCast S2 (extractStridedSlice S2x1x1 ![0, 0, 0] a slices_S2x1x128_S2x1x1_0_0_0) shapeCasts_S2x1x1_S2 : FVec F S2 .f32)
    (constant S_ .f32 0x00000000#32) reducesTo_S2_S_d0 h_S_

/-- The weighted combination of the six means. -/
def tail (a3 a4 a5 b3 b4 b5 : Vec F S2x1x128 .f32) : FVec F S_ .f32 :=
  addf (addf (addf (addf (addf
    (mulf (constant S_ .f32 0x3E4CCCCD#32) (Host.divf (red a4) (constant S_ .f32 0x4B800000#32)))
    (mulf (constant S_ .f32 0x3F4CCCCD#32) (Host.divf (red a5) (constant S_ .f32 0x4B800000#32))))
    (Host.divf (red a3) (constant S_ .f32 0x4A000000#32)))
    (mulf (constant S_ .f32 0x3E4CCCCD#32) (Host.divf (red b3) (constant S_ .f32 0x4B800000#32))))
    (mulf (constant S_ .f32 0x3F4CCCCD#32) (Host.divf (red b4) (constant S_ .f32 0x4B800000#32))))
    (Host.divf (red b5) (constant S_ .f32 0x4A000000#32))

variable (m : (ℓ : Loc nD τ sig) → Buf (Elt F) ℓ) (ρ : Dev nD → PrngReg)

set_option maxHeartbeats 2000000 in
/-- The result buffer after the last host stretch, from the six arrays as the second region leaves them. -/
theorem result_eq (c : Dev nD) :
    W3 m ρ c (Proc.devRef .tc main_v34)
      = tail (W2 m ρ c (Proc.devRef .tc main_v0_0)) (W2 m ρ c (Proc.devRef .tc main_v0_1)) (W2 m ρ c (Proc.devRef .tc main_v0_2))
          (W2 m ρ c (Proc.devRef .tc main_v1_0)) (W2 m ρ c (Proc.devRef .tc main_v1_1)) (W2 m ρ c (Proc.devRef .tc main_v1_2)) := by
  show StableHlo.after hostOps2 (W2 m ρ c) (Proc.devRef .tc main_v34) = _
  generalize W2 m ρ c = W
  after_results_simp
  rfl

end Cert.KernelIdeal.Tail

end
-- ==== Proof.KTailIdx.lean ====
/-
  The host tail read at the extended reals: lane 0 of the two rows of an array added from zero is 0 + the sum over the
  two rows, and the program's result is the weighted combination of the six quotients.

  The host's sum into the scalar shape is the initial value plus the sum over every index of the two-element vector, and
  an index of a rank-one shape is its one coordinate; the reshape [2,1,1] -> [2] and the slice [0:2, 0:1, 0:1] keep the
  row coordinate and put 0 on the other two.
-/
import proofs.«403145_j71588514889841_3_alg».proof.Proof.KTail
import proofs.«403145_j71588514889841_3_alg».proof.Proof.Arr
import proofs.«403145_j71588514889841_3_alg».proof.Proof.Consts
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.TailIdx

open Cert.KernelIdeal Cert.KernelIdeal.Tail Bicon

variable [Facts]
open Facts₀ Facts

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

theorem red_apply (a : Vec Ideal S2x1x128 .f32) : red (F := Ideal) a ix0 = 0 + ∑ g : Fin 2, a (ix3 g 0 0) := by
  show Ideal.hostReduceAdd reducesTo_S2_S_d0 _ _ ix0 = _
  rw [Ideal.hostReduceAdd_total reducesTo_S2_S_d0 (fun b => b.elim0), constant_apply, Ideal.ofBits_zero_f32]
  congr 1
  refine (sum_idx1 _).trans (Finset.sum_congr rfl fun g _ => ?_)
  refine (shapeCast_apply _ shapeCasts_S2x1x1_S2 (ix1 (g : Fin 2)) (ix3 (g : Fin 2) (0 : Fin 1) (0 : Fin 1)) (by
    rw [Shape.rowMajor_val_three, Shape.rowMajor_val_one]
    show (g.val * 1 + 0) * 1 + 0 = g.val
    omega)).trans ?_
  exact extractStridedSlice_apply _ _ slices_S2x1x128_S2x1x1_0_0_0 _ (ix3 (g : Fin 2) (0 : Fin 1) (0 : Fin 128))
    (fun d => match d with | ⟨0, _⟩ => by show g.val = 0 + g.val; omega | ⟨1, _⟩ => rfl | ⟨2, _⟩ => rfl)

theorem tail_apply (a3 a4 a5 b3 b4 b5 : Vec Ideal S2x1x128 .f32) :
    tail (F := Ideal) a3 a4 a5 b3 b4 b5 ix0
      = ((((c02 * Ideal.div (0 + ∑ g : Fin 2, a4 (ix3 g 0 0)) N24 + c08 * Ideal.div (0 + ∑ g : Fin 2, a5 (ix3 g 0 0)) N24)
            + Ideal.div (0 + ∑ g : Fin 2, a3 (ix3 g 0 0)) N21)
           + c02 * Ideal.div (0 + ∑ g : Fin 2, b3 (ix3 g 0 0)) N24)
          + c08 * Ideal.div (0 + ∑ g : Fin 2, b4 (ix3 g 0 0)) N24)
         + Ideal.div (0 + ∑ g : Fin 2, b5 (ix3 g 0 0)) N21 := by
  show ((((Ideal.ofBits .f32 0x3E4CCCCD#32 * Ideal.div (red (F := Ideal) a4 ix0) (Ideal.ofBits .f32 0x4B800000#32)
            + Ideal.ofBits .f32 0x3F4CCCCD#32 * Ideal.div (red (F := Ideal) a5 ix0) (Ideal.ofBits .f32 0x4B800000#32))
            + Ideal.div (red (F := Ideal) a3 ix0) (Ideal.ofBits .f32 0x4A000000#32))
           + Ideal.ofBits .f32 0x3E4CCCCD#32 * Ideal.div (red (F := Ideal) b3 ix0) (Ideal.ofBits .f32 0x4B800000#32))
          + Ideal.ofBits .f32 0x3F4CCCCD#32 * Ideal.div (red (F := Ideal) b4 ix0) (Ideal.ofBits .f32 0x4B800000#32))
         + Ideal.div (red (F := Ideal) b5 ix0) (Ideal.ofBits .f32 0x4A000000#32) = _
  rw [red_apply, red_apply, red_apply, red_apply, red_apply, red_apply, Consts.ofBits_2p24, Consts.ofBits_2p21]
  rfl

end Cert.KernelIdeal.TailIdx

end
-- ==== Proof.KResult.lean ====
/-
  The kernel program's result at the extended reals: the weighted combination the host tail forms of the six arrays is
  the kernel's side of Spec.lean over the four arguments as launched.
-/
import proofs.«403145_j71588514889841_3_alg».proof.Proof.KVal0
import proofs.«403145_j71588514889841_3_alg».proof.Proof.KVal1
import proofs.«403145_j71588514889841_3_alg».proof.Proof.KTail
import proofs.«403145_j71588514889841_3_alg».proof.Proof.KTailIdx

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Blk Bicon

variable (m : (ℓ : Loc nD τ sig) → Buf (Elt Ideal) ℓ) (ρ : Dev nD → PrngReg)

theorem result_eq (c : Dev nD) :
    (W3 m ρ c (Proc.devRef .tc main_v34) : FVec Ideal S_ .f32) ix0
      = lossK c02 c08 (arr4 (m ((c : Thread nD τ).loc main_arg0))) (arr4 (m ((c : Thread nD τ).loc main_arg1)))
          (arr3 (m ((c : Thread nD τ).loc main_arg2))) (arr4 (m ((c : Thread nD τ).loc main_arg3))) := by
  refine (congrFun (Tail.result_eq m ρ c) ix0).trans ?_
  rw [W2_v0_0 m ρ c, W2_v0_1 m ρ c, W2_v0_2 m ρ c, W2_v1_0 m ρ c, W2_v1_1 m ρ c, W2_v1_2 m ρ c]
  rw [TailIdx.tail_apply]
  have s0 := Val0.arr_0 (V0 m ρ) c
  have s1 := Val0.arr_1 (V0 m ρ) c
  have s2 := Val0.arr_2 (V0 m ρ) c
  have r0 := Val1.arr_0 (V1 m ρ) c
  have r1 := Val1.arr_1 (V1 m ρ) c
  have r2 := Val1.arr_2 (V1 m ρ) c
  rw [V1_main_arg1 m ρ c, V1_main_arg3 m ρ c] at r0 r1
  rw [V1_main_arg1 m ρ c, V1_main_arg2 m ρ c, V1_main_arg3 m ρ c] at r2
  simp only [s0, s1, s2, r0, r1, r2]
  rfl

end Cert.KernelIdeal.Result

end
-- ==== Proof.RefValueLib.lean ====
/-
  Reading tools for the reference's stages, over any operand: one batch element's plane of a rank-3 array; a sum over a
  rank-4 index set as the fourfold sum over its coordinates; a channel plane (slice of one channel, then the reshape that
  drops the unit axis); the four one-pixel shifts with zero fill (a pad by one zero in front or behind, then a slice);
  a plane broadcast to a one-channel block; and eight one-channel blocks concatenated along the channel axis.
-/
import proofs.«403145_j71588514889841_3_alg».proof.Proof.RefRead
import proofs.«403145_j71588514889841_3_alg».proof.Proof.Arr
import proofs.«403145_j71588514889841_3_alg».proof.Proof.Consts
import Idealize.ShloMosaic.Lib.ValueIdx
import Idealize.ShloMosaic.Lib.KernelVsHost

noncomputable section

open scoped BigOperators
open Idealize.ShloMosaic Idealize.ShloMosaic.ValueIdx

namespace Cert.ReferenceIdeal.RefValue

open Cert.ReferenceIdeal Bicon

/-- Batch element b's plane of a rank-3 array. -/
def pl3 (P : (⟨3, ![8, 512, 512]⟩ : Shape).Idx → EReal) (b : Fin 8) : Plane := fun h w => P (ix3 b h w)

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The integer constant 0 converted to a float is 0. -/
theorem sitofp_zero (i : S_.Idx) : (sitofp (F := Ideal) .f32 (constantI S_ 32 0#32)) i = (0 : EReal) := by
  show (((0#32 : BitVec 32).toInt : ℝ) : EReal) = 0
  simp

/-- Channel k of an array, as a rank-3 array: its plane of batch element b is the array's plane (b, k). -/
theorem plane_read (y : S8x8x512x512.Idx → EReal) (k : Nat) (hk : k < 8)
    (hs : S8x8x512x512.Slices ![0, k, 0, 0] S8x1x512x512) (hc : S8x1x512x512.ShapeCasts S8x512x512) (b : Fin 8) :
    pl3 (shapeCast S8x512x512 (extractStridedSlice S8x1x512x512 ![0, k, 0, 0] y hs) hc) b = arr4 y b ⟨k, hk⟩ := by
  funext h w
  show shapeCast S8x512x512 (extractStridedSlice S8x1x512x512 ![0, k, 0, 0] y hs) hc (ix3 b h w) = y (ix4 b ⟨k, hk⟩ h w)
  rw [shapeCast_apply _ hc (ix3 b h w) (ix4 b 0 h w) (by
    rewrite [Shape.rowMajor_val_four, Shape.rowMajor_val_three]
    show ((b.val * 1 + 0) * 512 + h.val) * 512 + w.val = (b.val * 512 + h.val) * 512 + w.val
    omega)]
  exact extractStridedSlice_apply ![0, k, 0, 0] y hs (ix4 b 0 h w) (ix4 b ⟨k, hk⟩ h w) (fun a => match a with
    | ⟨0, _⟩ => by show b.val = 0 + b.val; omega
    | ⟨1, _⟩ => by show k = k + 0; omega
    | ⟨2, _⟩ => by show h.val = 0 + h.val; omega
    | ⟨3, _⟩ => by show w.val = 0 + w.val; omega)

/-- A pad by one zero in front along the columns, then the first 512 columns: the plane moved right by one pixel. -/
theorem shR_read (P : S8x512x512.Idx → EReal) {u : Shape} (v : u.Idx → EReal) (hu : 0 < u.numel)
    (hv : v (Shape.Idx.first hu) = 0)
    (hp : S8x512x512.Pads ![0, 0, 1] ![0, 0, 0] ![0, 0, 0] S8x512x513) (hs : S8x512x513.Slices ![0, 0, 0] S8x512x512)
    (b : Fin 8) :
    pl3 (extractStridedSlice S8x512x512 ![0, 0, 0] (pad S8x512x513 ![0, 0, 1] ![0, 0, 0] ![0, 0, 0] P v hp hu) hs) b
      = shR (pl3 P b) := by
  funext h w
  show extractStridedSlice S8x512x512 ![0, 0, 0] (pad S8x512x513 ![0, 0, 1] ![0, 0, 0] ![0, 0, 0] P v hp hu) hs (ix3 b h w) = _
  rw [extractStridedSlice_apply ![0, 0, 0] _ hs (ix3 b h w) (ix3 b h ⟨w.val, by have := w.isLt; omega⟩) (fun a => match a with
    | ⟨0, _⟩ => by show b.val = 0 + b.val; omega
    | ⟨1, _⟩ => by show h.val = 0 + h.val; omega
    | ⟨2, _⟩ => by show w.val = 0 + w.val; omega)]
  unfold shR
  by_cases hw : 0 < w.val
  · rw [dif_pos hw]
    exact pad_apply_of_inside _ _ _ P v hp hu _ (ix3 b h ⟨w.val - 1, by have := w.isLt; omega⟩) (fun a => match a with
      | ⟨0, _⟩ => by show b.val = 0 + b.val * (0 + 1); omega
      | ⟨1, _⟩ => by show h.val = 0 + h.val * (0 + 1); omega
      | ⟨2, _⟩ => by show w.val = 1 + (w.val - 1) * (0 + 1); omega)
  · rw [dif_neg hw]
    refine (pad_apply_of_not_inside _ _ _ P v hp hu _ (⟨2, by decide⟩ : Fin 3) ?_).trans hv
    show ¬(1 ≤ w.val ∧ (w.val - 1) % (0 + 1) = 0 ∧ (w.val - 1) / (0 + 1) < 512)
    omega

/-- A pad by one zero behind along the columns, then columns 1 to 512: the plane moved left by one pixel. -/
theorem shL_read (P : S8x512x512.Idx → EReal) {u : Shape} (v : u.Idx → EReal) (hu : 0 < u.numel)
    (hv : v (Shape.Idx.first hu) = 0)
    (hp : S8x512x512.Pads ![0, 0, 0] ![0, 0, 1] ![0, 0, 0] S8x512x513) (hs : S8x512x513.Slices ![0, 0, 1] S8x512x512)
    (b : Fin 8) :
    pl3 (extractStridedSlice S8x512x512 ![0, 0, 1] (pad S8x512x513 ![0, 0, 0] ![0, 0, 1] ![0, 0, 0] P v hp hu) hs) b
      = shL (pl3 P b) := by
  funext h w
  show extractStridedSlice S8x512x512 ![0, 0, 1] (pad S8x512x513 ![0, 0, 0] ![0, 0, 1] ![0, 0, 0] P v hp hu) hs (ix3 b h w) = _
  rw [extractStridedSlice_apply ![0, 0, 1] _ hs (ix3 b h w) (ix3 b h ⟨w.val + 1, by have := w.isLt; omega⟩) (fun a => match a with
    | ⟨0, _⟩ => by show b.val = 0 + b.val; omega
    | ⟨1, _⟩ => by show h.val = 0 + h.val; omega
    | ⟨2, _⟩ => by show w.val + 1 = 1 + w.val; omega)]
  unfold shL
  by_cases hw : w.val < 511
  · rw [dif_pos hw]
    exact pad_apply_of_inside _ _ _ P v hp hu _ (ix3 b h ⟨w.val + 1, by omega⟩) (fun a => match a with
      | ⟨0, _⟩ => by show b.val = 0 + b.val * (0 + 1); omega
      | ⟨1, _⟩ => by show h.val = 0 + h.val * (0 + 1); omega
      | ⟨2, _⟩ => by show w.val + 1 = 0 + (w.val + 1) * (0 + 1); omega)
  · rw [dif_neg hw]
    refine (pad_apply_of_not_inside _ _ _ P v hp hu _ (⟨2, by decide⟩ : Fin 3) ?_).trans hv
    show ¬(0 ≤ w.val + 1 ∧ (w.val + 1 - 0) % (0 + 1) = 0 ∧ (w.val + 1 - 0) / (0 + 1) < 512)
    omega

/-- A pad by one zero in front along the rows, then the first 512 rows: the plane moved down by one pixel. -/
theorem shD_read (P : S8x512x512.Idx → EReal) {u : Shape} (v : u.Idx → EReal) (hu : 0 < u.numel)
    (hv : v (Shape.Idx.first hu) = 0)
    (hp : S8x512x512.Pads ![0, 1, 0] ![0, 0, 0] ![0, 0, 0] S8x513x512) (hs : S8x513x512.Slices ![0, 0, 0] S8x512x512)
    (b : Fin 8) :
    pl3 (extractStridedSlice S8x512x512 ![0, 0, 0] (pad S8x513x512 ![0, 1, 0] ![0, 0, 0] ![0, 0, 0] P v hp hu) hs) b
      = shD (pl3 P b) := by
  funext h w
  show extractStridedSlice S8x512x512 ![0, 0, 0] (pad S8x513x512 ![0, 1, 0] ![0, 0, 0] ![0, 0, 0] P v hp hu) hs (ix3 b h w) = _
  rw [extractStridedSlice_apply ![0, 0, 0] _ hs (ix3 b h w) (ix3 b ⟨h.val, by have := h.isLt; omega⟩ w) (fun a => match a with
    | ⟨0, _⟩ => by show b.val = 0 + b.val; omega
    | ⟨1, _⟩ => by show h.val = 0 + h.val; omega
    | ⟨2, _⟩ => by show w.val = 0 + w.val; omega)]
  unfold shD
  by_cases hh : 0 < h.val
  · rw [dif_pos hh]
    exact pad_apply_of_inside _ _ _ P v hp hu _ (ix3 b ⟨h.val - 1, by have := h.isLt; omega⟩ w) (fun a => match a with
      | ⟨0, _⟩ => by show b.val = 0 + b.val * (0 + 1); omega
      | ⟨1, _⟩ => by show h.val = 1 + (h.val - 1) * (0 + 1); omega
      | ⟨2, _⟩ => by show w.val = 0 + w.val * (0 + 1); omega)
  · rw [dif_neg hh]
    refine (pad_apply_of_not_inside _ _ _ P v hp hu _ (⟨1, by decide⟩ : Fin 3) ?_).trans hv
    show ¬(1 ≤ h.val ∧ (h.val - 1) % (0 + 1) = 0 ∧ (h.val - 1) / (0 + 1) < 512)
    omega

/-- A pad by one zero behind along the rows, then rows 1 to 512: the plane moved up by one pixel. -/
theorem shU_read (P : S8x512x512.Idx → EReal) {u : Shape} (v : u.Idx → EReal) (hu : 0 < u.numel)
    (hv : v (Shape.Idx.first hu) = 0)
    (hp : S8x512x512.Pads ![0, 0, 0] ![0, 1, 0] ![0, 0, 0] S8x513x512) (hs : S8x513x512.Slices ![0, 1, 0] S8x512x512)
    (b : Fin 8) :
    pl3 (extractStridedSlice S8x512x512 ![0, 1, 0] (pad S8x513x512 ![0, 0, 0] ![0, 1, 0] ![0, 0, 0] P v hp hu) hs) b
      = shU (pl3 P b) := by
  funext h w
  show extractStridedSlice S8x512x512 ![0, 1, 0] (pad S8x513x512 ![0, 0, 0] ![0, 1, 0] ![0, 0, 0] P v hp hu) hs (ix3 b h w) = _
  rw [extractStridedSlice_apply ![0, 1, 0] _ hs (ix3 b h w) (ix3 b ⟨h.val + 1, by have := h.isLt; omega⟩ w) (fun a => match a with
    | ⟨0, _⟩ => by show b.val = 0 + b.val; omega
    | ⟨1, _⟩ => by show h.val + 1 = 1 + h.val; omega
    | ⟨2, _⟩ => by show w.val = 0 + w.val; omega)]
  unfold shU
  by_cases hh : h.val < 511
  · rw [dif_pos hh]
    exact pad_apply_of_inside _ _ _ P v hp hu _ (ix3 b ⟨h.val + 1, by omega⟩ w) (fun a => match a with
      | ⟨0, _⟩ => by show b.val = 0 + b.val * (0 + 1); omega
      | ⟨1, _⟩ => by show h.val + 1 = 0 + (h.val + 1) * (0 + 1); omega
      | ⟨2, _⟩ => by show w.val = 0 + w.val * (0 + 1); omega)
  · rw [dif_neg hh]
    refine (pad_apply_of_not_inside _ _ _ P v hp hu _ (⟨1, by decide⟩ : Fin 3) ?_).trans hv
    show ¬(0 ≤ h.val + 1 ∧ (h.val + 1 - 0) % (0 + 1) = 0 ∧ (h.val + 1 - 0) / (0 + 1) < 512)
    omega

/-- A rank-3 array broadcast to a one-channel block: the block's plane of batch element b is the array's. -/
theorem bc_read (P : S8x512x512.Idx → EReal) (hb : S8x512x512.BroadcastsInDim S8x1x512x512 ![0, 2, 3]) (b : Fin 8) :
    arr3 (broadcastInDim S8x1x512x512 ![0, 2, 3] hb P) b = pl3 P b := by
  funext h w
  show broadcastInDim S8x1x512x512 ![0, 2, 3] hb P (ix4 b 0 h w) = P (ix3 b h w)
  exact broadcastInDim_apply _ hb P (ix4 b 0 h w) (ix3 b h w) (fun a => match a with
    | ⟨0, _⟩ => by show b.val = if (8 : Nat) = 1 then 0 else b.val; rw [if_neg (by decide)]
    | ⟨1, _⟩ => by show h.val = if (512 : Nat) = 1 then 0 else h.val; rw [if_neg (by decide)]
    | ⟨2, _⟩ => by show w.val = if (512 : Nat) = 1 then 0 else w.val; rw [if_neg (by decide)])

/-- A concatenation along the channel axis read in channel k, where piece k is a one-channel block and the pieces before
    it have k channels in all: that piece at channel 0. -/
theorem concat_at (xs : List ((s : Shape) × (s.Idx → EReal))) (hc : Shape.Concatenates (xs.map (·.1)) S8x8x512x512 1)
    (k : Nat) (hk8 : k < 8) (hk : k < xs.length) (x₁ : S8x1x512x512.Idx → EReal) (hxk : xs[k] = ⟨S8x1x512x512, x₁⟩)
    (hpre : (((xs.take k).map (·.1)).map fun s =>
      if h : s.rank = S8x8x512x512.rank then s.size ((1 : Fin S8x8x512x512.rank).cast h.symm) else 0).sum = k)
    (b : Fin 8) (h w : Fin 512) :
    concatenate S8x8x512x512 1 xs hc (ix4 b ⟨k, hk8⟩ h w) = x₁ (ix4 b 0 h w) :=
  concatenate_apply_piece 1 xs hc (ix4 b ⟨k, hk8⟩ h w) k hk S8x1x512x512 x₁ hxk rfl k hpre (ix4 b 0 h w)
    (fun a ha => match a, ha with
      | ⟨0, _⟩, _ => rfl
      | ⟨1, _⟩, ha => absurd rfl ha
      | ⟨2, _⟩, _ => rfl
      | ⟨3, _⟩, _ => rfl)
    (by show k + 0 = k; omega)

/-- Eight one-channel blocks concatenated along the channel axis: channel k of batch element b is piece k's plane. -/
theorem concat8_read (p0 p1 p2 p3 p4 p5 p6 p7 : S8x1x512x512.Idx → EReal)
    (hc : Shape.Concatenates (([⟨S8x1x512x512, p0⟩, ⟨S8x1x512x512, p1⟩, ⟨S8x1x512x512, p2⟩, ⟨S8x1x512x512, p3⟩,
      ⟨S8x1x512x512, p4⟩, ⟨S8x1x512x512, p5⟩, ⟨S8x1x512x512, p6⟩, ⟨S8x1x512x512, p7⟩] :
        List ((s : Shape) × (s.Idx → EReal))).map (·.1)) S8x8x512x512 1) (b : Fin 8) :
    arr4 (concatenate S8x8x512x512 1 [⟨S8x1x512x512, p0⟩, ⟨S8x1x512x512, p1⟩, ⟨S8x1x512x512, p2⟩, ⟨S8x1x512x512, p3⟩,
      ⟨S8x1x512x512, p4⟩, ⟨S8x1x512x512, p5⟩, ⟨S8x1x512x512, p6⟩, ⟨S8x1x512x512, p7⟩] hc) b
      = ![arr3 p0 b, arr3 p1 b, arr3 p2 b, arr3 p3 b, arr3 p4 b, arr3 p5 b, arr3 p6 b, arr3 p7 b] := by
  funext k h w
  match k with
  | ⟨0, _⟩ => exact concat_at _ hc 0 (by decide) (show (0 : Nat) < 8 by decide) p0 rfl rfl b h w
  | ⟨1, _⟩ => exact concat_at _ hc 1 (by decide) (show (1 : Nat) < 8 by decide) p1 rfl rfl b h w
  | ⟨2, _⟩ => exact concat_at _ hc 2 (by decide) (show (2 : Nat) < 8 by decide) p2 rfl rfl b h w
  | ⟨3, _⟩ => exact concat_at _ hc 3 (by decide) (show (3 : Nat) < 8 by decide) p3 rfl rfl b h w
  | ⟨4, _⟩ => exact concat_at _ hc 4 (by decide) (show (4 : Nat) < 8 by decide) p4 rfl rfl b h w
  | ⟨5, _⟩ => exact concat_at _ hc 5 (by decide) (show (5 : Nat) < 8 by decide) p5 rfl rfl b h w
  | ⟨6, _⟩ => exact concat_at _ hc 6 (by decide) (show (6 : Nat) < 8 by decide) p6 rfl rfl b h w
  | ⟨7, _⟩ => exact concat_at _ hc 7 (by decide) (show (7 : Nat) < 8 by decide) p7 rfl rfl b h w

/-- A host sum over the channel axis: at batch element b and pixel (h, w), the initial value plus the sum of the eight channels. -/
theorem reduceAdd1_read (y : FVec Ideal S8x8x512x512 .f32) (init : S_.Idx → EReal)
    (hr : S8x8x512x512.ReducesTo [1] S8x512x512) (hu : 0 < S_.numel) (b : Fin 8) :
    pl3 (Host.reduceAdd (F := Ideal) y init hr hu) b
      = fun h w => init (Shape.Idx.first hu) + ∑ k : Fin 8, arr4 y b k h w := by
  funext h w
  show Host.reduceAdd (F := Ideal) y init hr hu (ix3 b h w) = _
  simp only [Host.reduceAdd, Ideal.hostReduceAdd_def]
  rw [Ideal.hostReduceAdd_single hr (by decide)]
  refine congrArg (_ + ·) (Finset.sum_congr rfl fun k _ => ?_)
  exact congrArg y (funext fun a => Fin.ext (by match a with | ⟨0, _⟩ => rfl | ⟨1, _⟩ => rfl | ⟨2, _⟩ => rfl | ⟨3, _⟩ => rfl))

instance : Std.Commutative (α := EReal) min := ⟨min_comm⟩
instance : Std.Associative (α := EReal) min := ⟨min_assoc⟩

/-- A host minimum over the channel axis: at batch element b and pixel (h, w), the fold of min from the initial value over
    the eight channels. -/
theorem reduceMin1_read (y : FVec Ideal S8x8x512x512 .f32) (init : S_.Idx → EReal)
    (hr : S8x8x512x512.ReducesTo [1] S8x512x512) (hu : 0 < S_.numel) (b : Fin 8) :
    pl3 (Host.reduce (FloatOps.minimumf (F := Ideal) (φ := .f32)) y init hr hu) b
      = fun h w => (Finset.univ : Finset (Fin 8)).fold min (init (Shape.Idx.first hu)) (fun k => arr4 y b k h w) := by
  funext h w
  show Host.reduce (min : EReal → EReal → EReal) y init hr hu (ix3 b h w) = _
  rw [Host.reduce_eq_fold_single (min : EReal → EReal → EReal) y init hr (by decide) hu (ix3 b h w)]
  refine congrArg (Finset.fold min _ · Finset.univ) (funext fun k => ?_)
  exact congrArg y (funext fun a => Fin.ext (by match a with | ⟨0, _⟩ => rfl | ⟨1, _⟩ => rfl | ⟨2, _⟩ => rfl | ⟨3, _⟩ => rfl))

/-! ## The reference's mean, minimum and decoupled map over any eight planes of votes -/

/-- The mean of eight planes: their sum from zero, divided by 8. -/
def gloOf (V : Fin 8 → Plane) : Plane := fun h w => Ideal.div (0 + ∑ k : Fin 8, V k h w) ((8 : ℝ) : EReal)
/-- The minimum of eight planes, folded from +∞. -/
def minOf (V : Fin 8 → Plane) : Plane := fun h w => (Finset.univ : Finset (Fin 8)).fold min ⊤ (fun k => V k h w)
/-- The decoupled map: the mean off the edge, one minus the minimum on it. -/
def decOf (V C : Fin 8 → Plane) : Plane := fun h w =>
  gloOf V h w * (1 - edgeOf (sumConnR C h w)) + (1 - minOf V h w) * edgeOf (sumConnR C h w)

theorem gloR_eq (X : Fin 8 → Plane) : gloR X = gloOf (vote (sg X)) := rfl
theorem minR_eq (X : Fin 8 → Plane) : minR X = minOf (vote (sg X)) := rfl
theorem decR_eq (X C : Fin 8 → Plane) : decR X C = decOf (vote (sg X)) C := rfl

/-! ## One cross-entropy term and the two total sums -/

/-- The term as the reference spells it — the clamp written max (−100) (log ·), the words 1 and −100 — is bt. -/
theorem bt_word (p t : EReal) :
    t * max (Ideal.ofBits .f32 0xC2C80000#32) (Ideal.log p)
      + (Ideal.ofBits .f32 0x3F800000#32 - t)
        * max (Ideal.ofBits .f32 0xC2C80000#32) (Ideal.log (Ideal.ofBits .f32 0x3F800000#32 - p)) = bt p t := by
  rw [Consts.ofBits_m100, Consts.ofBits_one, max_comm, max_comm (((-100 : ℝ) : EReal))]
  rfl

/-- The total of the terms over an [8, 8, 512, 512] array from the word 0, over the word 2^24, negated. -/
theorem rLoss4_of (P T term : S8x8x512x512.Idx → EReal) (hterm : ∀ i, term i = bt (P i) (T i)) :
    -(Ideal.div (Ideal.ofBits .f32 0x00000000#32 + ∑ j : S8x8x512x512.Idx, term j) (Ideal.ofBits .f32 0x4B800000#32))
      = rLoss4 (arr4 P) (arr4 T) := by
  rw [Ideal.ofBits_zero_f32, Consts.ofBits_2p24, sum_idx4]
  simp only [hterm]
  rfl

/-- The total of the terms over an [8, 1, 512, 512] array from the word 0, over the word 2^21, negated. -/
theorem rLoss3_of (P T term : S8x1x512x512.Idx → EReal) (hterm : ∀ i, term i = bt (P i) (T i)) :
    -(Ideal.div (Ideal.ofBits .f32 0x00000000#32 + ∑ j : S8x1x512x512.Idx, term j) (Ideal.ofBits .f32 0x4A000000#32))
      = rLoss3 (arr3 P) (arr3 T) := by
  rw [Ideal.ofBits_zero_f32, Consts.ofBits_2p21, sum_idx4]
  simp only [hterm, Fin.sum_univ_one]
  rfl

end Cert.ReferenceIdeal.RefValue

end
-- ==== Proof.RefValueA.lean ====
/-
  The two branches' sigmoid arrays and bilateral votes. For each branch (the first input through the sigmoid array of
  stage 12, the second through that of stage 18): the sigmoid array is the logistic function of the input; every channel
  plane the reference cuts out is that channel of the sigmoid array; every shifted plane is the one-pixel shift of its
  operand; and the concatenation of the eight products, channel by channel, is the bilateral vote of the sigmoid array.
-/
import proofs.«403145_j71588514889841_3_alg».proof.Proof.RefValueLib

noncomputable section

open scoped BigOperators
open Idealize.ShloMosaic Idealize.ShloMosaic.ValueIdx

namespace Cert.ReferenceIdeal.RefValue

open Cert.ReferenceIdeal Cert.ReferenceIdeal.RefRead Bicon

/-! ## The first branch -/

section Atts
variable (x0 : (⟨S8x8x512x512, .f32⟩ : BufTy).Contents (Elt Ideal)) (b : Fin 8)

/-- Stage 12 is 1 / (1 + exp (−x)): the logistic function of the input. -/
theorem sg_atts : arr4 (val_main_v12 (F := Ideal) x0) b = sg (arr4 x0 b) := by
  funext k h w
  show Ideal.div (Ideal.ofBits .f32 0x3F800000#32) (Ideal.ofBits .f32 0x3F800000#32 + Ideal.exp (-(x0 (ix4 b k h w)))) = _
  rw [Consts.ofBits_one]
  rfl

theorem p20 : pl3 (val_main_v20 (F := Ideal) x0) b = arr4 (val_main_v12 (F := Ideal) x0) b 4 := plane_read (val_main_v12 (F := Ideal) x0) 4 (by decide) _ _ b
theorem p24 : pl3 (val_main_v24 (F := Ideal) x0) b = arr4 (val_main_v12 (F := Ideal) x0) b 3 := plane_read (val_main_v12 (F := Ideal) x0) 3 (by decide) _ _ b
theorem p28 : pl3 (val_main_v28 (F := Ideal) x0) b = arr4 (val_main_v12 (F := Ideal) x0) b 5 := plane_read (val_main_v12 (F := Ideal) x0) 5 (by decide) _ _ b
theorem p34 : pl3 (val_main_v34 (F := Ideal) x0) b = arr4 (val_main_v12 (F := Ideal) x0) b 2 := plane_read (val_main_v12 (F := Ideal) x0) 2 (by decide) _ _ b
theorem p40 : pl3 (val_main_v40 (F := Ideal) x0) b = arr4 (val_main_v12 (F := Ideal) x0) b 0 := plane_read (val_main_v12 (F := Ideal) x0) 0 (by decide) _ _ b
theorem p46 : pl3 (val_main_v46 (F := Ideal) x0) b = arr4 (val_main_v12 (F := Ideal) x0) b 6 := plane_read (val_main_v12 (F := Ideal) x0) 6 (by decide) _ _ b
theorem p50 : pl3 (val_main_v50 (F := Ideal) x0) b = arr4 (val_main_v12 (F := Ideal) x0) b 1 := plane_read (val_main_v12 (F := Ideal) x0) 1 (by decide) _ _ b
theorem p54 : pl3 (val_main_v54 (F := Ideal) x0) b = arr4 (val_main_v12 (F := Ideal) x0) b 7 := plane_read (val_main_v12 (F := Ideal) x0) 7 (by decide) _ _ b
theorem p60 : pl3 (val_main_v60 (F := Ideal) x0) b = arr4 (val_main_v12 (F := Ideal) x0) b 3 := plane_read (val_main_v12 (F := Ideal) x0) 3 (by decide) _ _ b
theorem p63 : pl3 (val_main_v63 (F := Ideal) x0) b = arr4 (val_main_v12 (F := Ideal) x0) b 4 := plane_read (val_main_v12 (F := Ideal) x0) 4 (by decide) _ _ b
theorem p66 : pl3 (val_main_v66 (F := Ideal) x0) b = arr4 (val_main_v12 (F := Ideal) x0) b 1 := plane_read (val_main_v12 (F := Ideal) x0) 1 (by decide) _ _ b
theorem p69 : pl3 (val_main_v69 (F := Ideal) x0) b = arr4 (val_main_v12 (F := Ideal) x0) b 6 := plane_read (val_main_v12 (F := Ideal) x0) 6 (by decide) _ _ b
theorem p72 : pl3 (val_main_v72 (F := Ideal) x0) b = arr4 (val_main_v12 (F := Ideal) x0) b 2 := plane_read (val_main_v12 (F := Ideal) x0) 2 (by decide) _ _ b
theorem p75 : pl3 (val_main_v75 (F := Ideal) x0) b = arr4 (val_main_v12 (F := Ideal) x0) b 5 := plane_read (val_main_v12 (F := Ideal) x0) 5 (by decide) _ _ b
theorem p78 : pl3 (val_main_v78 (F := Ideal) x0) b = arr4 (val_main_v12 (F := Ideal) x0) b 0 := plane_read (val_main_v12 (F := Ideal) x0) 0 (by decide) _ _ b
theorem p81 : pl3 (val_main_v81 (F := Ideal) x0) b = arr4 (val_main_v12 (F := Ideal) x0) b 7 := plane_read (val_main_v12 (F := Ideal) x0) 7 (by decide) _ _ b

theorem s22 : pl3 (val_main_v22 (F := Ideal) x0) b = shR (pl3 (val_main_v20 (F := Ideal) x0) b) := shR_read (val_main_v20 (F := Ideal) x0) _ _ (sitofp_zero _) _ _ b
theorem s26 : pl3 (val_main_v26 (F := Ideal) x0) b = shL (pl3 (val_main_v24 (F := Ideal) x0) b) := shL_read (val_main_v24 (F := Ideal) x0) _ _ (sitofp_zero _) _ _ b
theorem s30 : pl3 (val_main_v30 (F := Ideal) x0) b = shD (pl3 (val_main_v28 (F := Ideal) x0) b) := shD_read (val_main_v28 (F := Ideal) x0) _ _ (sitofp_zero _) _ _ b
theorem s32 : pl3 (val_main_v32 (F := Ideal) x0) b = shL (pl3 (val_main_v30 (F := Ideal) x0) b) := shL_read (val_main_v30 (F := Ideal) x0) _ _ (sitofp_zero _) _ _ b
theorem s36 : pl3 (val_main_v36 (F := Ideal) x0) b = shU (pl3 (val_main_v34 (F := Ideal) x0) b) := shU_read (val_main_v34 (F := Ideal) x0) _ _ (sitofp_zero _) _ _ b
theorem s38 : pl3 (val_main_v38 (F := Ideal) x0) b = shR (pl3 (val_main_v36 (F := Ideal) x0) b) := shR_read (val_main_v36 (F := Ideal) x0) _ _ (sitofp_zero _) _ _ b
theorem s42 : pl3 (val_main_v42 (F := Ideal) x0) b = shU (pl3 (val_main_v40 (F := Ideal) x0) b) := shU_read (val_main_v40 (F := Ideal) x0) _ _ (sitofp_zero _) _ _ b
theorem s44 : pl3 (val_main_v44 (F := Ideal) x0) b = shL (pl3 (val_main_v42 (F := Ideal) x0) b) := shL_read (val_main_v42 (F := Ideal) x0) _ _ (sitofp_zero _) _ _ b
theorem s48 : pl3 (val_main_v48 (F := Ideal) x0) b = shD (pl3 (val_main_v46 (F := Ideal) x0) b) := shD_read (val_main_v46 (F := Ideal) x0) _ _ (sitofp_zero _) _ _ b
theorem s52 : pl3 (val_main_v52 (F := Ideal) x0) b = shU (pl3 (val_main_v50 (F := Ideal) x0) b) := shU_read (val_main_v50 (F := Ideal) x0) _ _ (sitofp_zero _) _ _ b
theorem s56 : pl3 (val_main_v56 (F := Ideal) x0) b = shD (pl3 (val_main_v54 (F := Ideal) x0) b) := shD_read (val_main_v54 (F := Ideal) x0) _ _ (sitofp_zero _) _ _ b
theorem s58 : pl3 (val_main_v58 (F := Ideal) x0) b = shR (pl3 (val_main_v56 (F := Ideal) x0) b) := shR_read (val_main_v56 (F := Ideal) x0) _ _ (sitofp_zero _) _ _ b

theorem m61 : pl3 (val_main_v61 (F := Ideal) x0) b = fun h w => pl3 (val_main_v60 (F := Ideal) x0) b h w * pl3 (val_main_v22 (F := Ideal) x0) b h w := rfl
theorem m64 : pl3 (val_main_v64 (F := Ideal) x0) b = fun h w => pl3 (val_main_v63 (F := Ideal) x0) b h w * pl3 (val_main_v26 (F := Ideal) x0) b h w := rfl
theorem m67 : pl3 (val_main_v67 (F := Ideal) x0) b = fun h w => pl3 (val_main_v66 (F := Ideal) x0) b h w * pl3 (val_main_v48 (F := Ideal) x0) b h w := rfl
theorem m70 : pl3 (val_main_v70 (F := Ideal) x0) b = fun h w => pl3 (val_main_v69 (F := Ideal) x0) b h w * pl3 (val_main_v52 (F := Ideal) x0) b h w := rfl
theorem m73 : pl3 (val_main_v73 (F := Ideal) x0) b = fun h w => pl3 (val_main_v72 (F := Ideal) x0) b h w * pl3 (val_main_v32 (F := Ideal) x0) b h w := rfl
theorem m76 : pl3 (val_main_v76 (F := Ideal) x0) b = fun h w => pl3 (val_main_v75 (F := Ideal) x0) b h w * pl3 (val_main_v38 (F := Ideal) x0) b h w := rfl
theorem m79 : pl3 (val_main_v79 (F := Ideal) x0) b = fun h w => pl3 (val_main_v78 (F := Ideal) x0) b h w * pl3 (val_main_v58 (F := Ideal) x0) b h w := rfl
theorem m82 : pl3 (val_main_v82 (F := Ideal) x0) b = fun h w => pl3 (val_main_v81 (F := Ideal) x0) b h w * pl3 (val_main_v44 (F := Ideal) x0) b h w := rfl

theorem c83 : arr3 (val_main_v83 (F := Ideal) x0) b = pl3 (val_main_v79 (F := Ideal) x0) b := bc_read (val_main_v79 (F := Ideal) x0) _ b
theorem c84 : arr3 (val_main_v84 (F := Ideal) x0) b = pl3 (val_main_v67 (F := Ideal) x0) b := bc_read (val_main_v67 (F := Ideal) x0) _ b
theorem c85 : arr3 (val_main_v85 (F := Ideal) x0) b = pl3 (val_main_v73 (F := Ideal) x0) b := bc_read (val_main_v73 (F := Ideal) x0) _ b
theorem c86 : arr3 (val_main_v86 (F := Ideal) x0) b = pl3 (val_main_v61 (F := Ideal) x0) b := bc_read (val_main_v61 (F := Ideal) x0) _ b
theorem c87 : arr3 (val_main_v87 (F := Ideal) x0) b = pl3 (val_main_v64 (F := Ideal) x0) b := bc_read (val_main_v64 (F := Ideal) x0) _ b
theorem c88 : arr3 (val_main_v88 (F := Ideal) x0) b = pl3 (val_main_v76 (F := Ideal) x0) b := bc_read (val_main_v76 (F := Ideal) x0) _ b
theorem c89 : arr3 (val_main_v89 (F := Ideal) x0) b = pl3 (val_main_v70 (F := Ideal) x0) b := bc_read (val_main_v70 (F := Ideal) x0) _ b
theorem c90 : arr3 (val_main_v90 (F := Ideal) x0) b = pl3 (val_main_v82 (F := Ideal) x0) b := bc_read (val_main_v82 (F := Ideal) x0) _ b

/-- Stage 91, the concatenation in the order [a7, a3, a5, a1, a2, a6, a4, a8], is the bilateral vote of the sigmoid array. -/
theorem votes_atts : arr4 (val_main_v91 (F := Ideal) x0) b = vote (arr4 (val_main_v12 (F := Ideal) x0) b) := by
  refine (concat8_read (val_main_v83 (F := Ideal) x0) (val_main_v84 (F := Ideal) x0) (val_main_v85 (F := Ideal) x0)
    (val_main_v86 (F := Ideal) x0) (val_main_v87 (F := Ideal) x0) (val_main_v88 (F := Ideal) x0) (val_main_v89 (F := Ideal) x0)
    (val_main_v90 (F := Ideal) x0) _ b).trans ?_
  rw [c83, c84, c85, c86, c87, c88, c89, c90, m79, m67, m73, m61, m64, m76, m70, m82,
    p78, p66, p72, p60, p63, p75, p69, p81, s58, s48, s32, s22, s26, s38, s52, s44, s56, s30, s36, s42,
    p54, p46, p28, p20, p24, p34, p50, p40]
  funext k
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Atts

/-! ## The second branch -/

section Dets
variable (x1 : (⟨S8x8x512x512, .f32⟩ : BufTy).Contents (Elt Ideal)) (b : Fin 8)

/-- Stage 18 is 1 / (1 + exp (−x)): the logistic function of the input. -/
theorem sg_dets : arr4 (val_main_v18 (F := Ideal) x1) b = sg (arr4 x1 b) := by
  funext k h w
  show Ideal.div (Ideal.ofBits .f32 0x3F800000#32) (Ideal.ofBits .f32 0x3F800000#32 + Ideal.exp (-(x1 (ix4 b k h w)))) = _
  rw [Consts.ofBits_one]
  rfl

theorem p96 : pl3 (val_main_v96 (F := Ideal) x1) b = arr4 (val_main_v18 (F := Ideal) x1) b 4 := plane_read (val_main_v18 (F := Ideal) x1) 4 (by decide) _ _ b
theorem p100 : pl3 (val_main_v100 (F := Ideal) x1) b = arr4 (val_main_v18 (F := Ideal) x1) b 3 := plane_read (val_main_v18 (F := Ideal) x1) 3 (by decide) _ _ b
theorem p104 : pl3 (val_main_v104 (F := Ideal) x1) b = arr4 (val_main_v18 (F := Ideal) x1) b 5 := plane_read (val_main_v18 (F := Ideal) x1) 5 (by decide) _ _ b
theorem p110 : pl3 (val_main_v110 (F := Ideal) x1) b = arr4 (val_main_v18 (F := Ideal) x1) b 2 := plane_read (val_main_v18 (F := Ideal) x1) 2 (by decide) _ _ b
theorem p116 : pl3 (val_main_v116 (F := Ideal) x1) b = arr4 (val_main_v18 (F := Ideal) x1) b 0 := plane_read (val_main_v18 (F := Ideal) x1) 0 (by decide) _ _ b
theorem p122 : pl3 (val_main_v122 (F := Ideal) x1) b = arr4 (val_main_v18 (F := Ideal) x1) b 6 := plane_read (val_main_v18 (F := Ideal) x1) 6 (by decide) _ _ b
theorem p126 : pl3 (val_main_v126 (F := Ideal) x1) b = arr4 (val_main_v18 (F := Ideal) x1) b 1 := plane_read (val_main_v18 (F := Ideal) x1) 1 (by decide) _ _ b
theorem p130 : pl3 (val_main_v130 (F := Ideal) x1) b = arr4 (val_main_v18 (F := Ideal) x1) b 7 := plane_read (val_main_v18 (F := Ideal) x1) 7 (by decide) _ _ b
theorem p136 : pl3 (val_main_v136 (F := Ideal) x1) b = arr4 (val_main_v18 (F := Ideal) x1) b 3 := plane_read (val_main_v18 (F := Ideal) x1) 3 (by decide) _ _ b
theorem p139 : pl3 (val_main_v139 (F := Ideal) x1) b = arr4 (val_main_v18 (F := Ideal) x1) b 4 := plane_read (val_main_v18 (F := Ideal) x1) 4 (by decide) _ _ b
theorem p142 : pl3 (val_main_v142 (F := Ideal) x1) b = arr4 (val_main_v18 (F := Ideal) x1) b 1 := plane_read (val_main_v18 (F := Ideal) x1) 1 (by decide) _ _ b
theorem p145 : pl3 (val_main_v145 (F := Ideal) x1) b = arr4 (val_main_v18 (F := Ideal) x1) b 6 := plane_read (val_main_v18 (F := Ideal) x1) 6 (by decide) _ _ b
theorem p148 : pl3 (val_main_v148 (F := Ideal) x1) b = arr4 (val_main_v18 (F := Ideal) x1) b 2 := plane_read (val_main_v18 (F := Ideal) x1) 2 (by decide) _ _ b
theorem p151 : pl3 (val_main_v151 (F := Ideal) x1) b = arr4 (val_main_v18 (F := Ideal) x1) b 5 := plane_read (val_main_v18 (F := Ideal) x1) 5 (by decide) _ _ b
theorem p154 : pl3 (val_main_v154 (F := Ideal) x1) b = arr4 (val_main_v18 (F := Ideal) x1) b 0 := plane_read (val_main_v18 (F := Ideal) x1) 0 (by decide) _ _ b
theorem p157 : pl3 (val_main_v157 (F := Ideal) x1) b = arr4 (val_main_v18 (F := Ideal) x1) b 7 := plane_read (val_main_v18 (F := Ideal) x1) 7 (by decide) _ _ b

theorem s98 : pl3 (val_main_v98 (F := Ideal) x1) b = shR (pl3 (val_main_v96 (F := Ideal) x1) b) := shR_read (val_main_v96 (F := Ideal) x1) _ _ (sitofp_zero _) _ _ b
theorem s102 : pl3 (val_main_v102 (F := Ideal) x1) b = shL (pl3 (val_main_v100 (F := Ideal) x1) b) := shL_read (val_main_v100 (F := Ideal) x1) _ _ (sitofp_zero _) _ _ b
theorem s106 : pl3 (val_main_v106 (F := Ideal) x1) b = shD (pl3 (val_main_v104 (F := Ideal) x1) b) := shD_read (val_main_v104 (F := Ideal) x1) _ _ (sitofp_zero _) _ _ b
theorem s108 : pl3 (val_main_v108 (F := Ideal) x1) b = shL (pl3 (val_main_v106 (F := Ideal) x1) b) := shL_read (val_main_v106 (F := Ideal) x1) _ _ (sitofp_zero _) _ _ b
theorem s112 : pl3 (val_main_v112 (F := Ideal) x1) b = shU (pl3 (val_main_v110 (F := Ideal) x1) b) := shU_read (val_main_v110 (F := Ideal) x1) _ _ (sitofp_zero _) _ _ b
theorem s114 : pl3 (val_main_v114 (F := Ideal) x1) b = shR (pl3 (val_main_v112 (F := Ideal) x1) b) := shR_read (val_main_v112 (F := Ideal) x1) _ _ (sitofp_zero _) _ _ b
theorem s118 : pl3 (val_main_v118 (F := Ideal) x1) b = shU (pl3 (val_main_v116 (F := Ideal) x1) b) := shU_read (val_main_v116 (F := Ideal) x1) _ _ (sitofp_zero _) _ _ b
theorem s120 : pl3 (val_main_v120 (F := Ideal) x1) b = shL (pl3 (val_main_v118 (F := Ideal) x1) b) := shL_read (val_main_v118 (F := Ideal) x1) _ _ (sitofp_zero _) _ _ b
theorem s124 : pl3 (val_main_v124 (F := Ideal) x1) b = shD (pl3 (val_main_v122 (F := Ideal) x1) b) := shD_read (val_main_v122 (F := Ideal) x1) _ _ (sitofp_zero _) _ _ b
theorem s128 : pl3 (val_main_v128 (F := Ideal) x1) b = shU (pl3 (val_main_v126 (F := Ideal) x1) b) := shU_read (val_main_v126 (F := Ideal) x1) _ _ (sitofp_zero _) _ _ b
theorem s132 : pl3 (val_main_v132 (F := Ideal) x1) b = shD (pl3 (val_main_v130 (F := Ideal) x1) b) := shD_read (val_main_v130 (F := Ideal) x1) _ _ (sitofp_zero _) _ _ b
theorem s134 : pl3 (val_main_v134 (F := Ideal) x1) b = shR (pl3 (val_main_v132 (F := Ideal) x1) b) := shR_read (val_main_v132 (F := Ideal) x1) _ _ (sitofp_zero _) _ _ b

theorem m137 : pl3 (val_main_v137 (F := Ideal) x1) b = fun h w => pl3 (val_main_v136 (F := Ideal) x1) b h w * pl3 (val_main_v98 (F := Ideal) x1) b h w := rfl
theorem m140 : pl3 (val_main_v140 (F := Ideal) x1) b = fun h w => pl3 (val_main_v139 (F := Ideal) x1) b h w * pl3 (val_main_v102 (F := Ideal) x1) b h w := rfl
theorem m143 : pl3 (val_main_v143 (F := Ideal) x1) b = fun h w => pl3 (val_main_v142 (F := Ideal) x1) b h w * pl3 (val_main_v124 (F := Ideal) x1) b h w := rfl
theorem m146 : pl3 (val_main_v146 (F := Ideal) x1) b = fun h w => pl3 (val_main_v145 (F := Ideal) x1) b h w * pl3 (val_main_v128 (F := Ideal) x1) b h w := rfl
theorem m149 : pl3 (val_main_v149 (F := Ideal) x1) b = fun h w => pl3 (val_main_v148 (F := Ideal) x1) b h w * pl3 (val_main_v108 (F := Ideal) x1) b h w := rfl
theorem m152 : pl3 (val_main_v152 (F := Ideal) x1) b = fun h w => pl3 (val_main_v151 (F := Ideal) x1) b h w * pl3 (val_main_v114 (F := Ideal) x1) b h w := rfl
theorem m155 : pl3 (val_main_v155 (F := Ideal) x1) b = fun h w => pl3 (val_main_v154 (F := Ideal) x1) b h w * pl3 (val_main_v134 (F := Ideal) x1) b h w := rfl
theorem m158 : pl3 (val_main_v158 (F := Ideal) x1) b = fun h w => pl3 (val_main_v157 (F := Ideal) x1) b h w * pl3 (val_main_v120 (F := Ideal) x1) b h w := rfl

theorem c159 : arr3 (val_main_v159 (F := Ideal) x1) b = pl3 (val_main_v155 (F := Ideal) x1) b := bc_read (val_main_v155 (F := Ideal) x1) _ b
theorem c160 : arr3 (val_main_v160 (F := Ideal) x1) b = pl3 (val_main_v143 (F := Ideal) x1) b := bc_read (val_main_v143 (F := Ideal) x1) _ b
theorem c161 : arr3 (val_main_v161 (F := Ideal) x1) b = pl3 (val_main_v149 (F := Ideal) x1) b := bc_read (val_main_v149 (F := Ideal) x1) _ b
theorem c162 : arr3 (val_main_v162 (F := Ideal) x1) b = pl3 (val_main_v137 (F := Ideal) x1) b := bc_read (val_main_v137 (F := Ideal) x1) _ b
theorem c163 : arr3 (val_main_v163 (F := Ideal) x1) b = pl3 (val_main_v140 (F := Ideal) x1) b := bc_read (val_main_v140 (F := Ideal) x1) _ b
theorem c164 : arr3 (val_main_v164 (F := Ideal) x1) b = pl3 (val_main_v152 (F := Ideal) x1) b := bc_read (val_main_v152 (F := Ideal) x1) _ b
theorem c165 : arr3 (val_main_v165 (F := Ideal) x1) b = pl3 (val_main_v146 (F := Ideal) x1) b := bc_read (val_main_v146 (F := Ideal) x1) _ b
theorem c166 : arr3 (val_main_v166 (F := Ideal) x1) b = pl3 (val_main_v158 (F := Ideal) x1) b := bc_read (val_main_v158 (F := Ideal) x1) _ b

/-- Stage 167, the concatenation in the order [a7, a3, a5, a1, a2, a6, a4, a8], is the bilateral vote of the sigmoid array. -/
theorem votes_dets : arr4 (val_main_v167 (F := Ideal) x1) b = vote (arr4 (val_main_v18 (F := Ideal) x1) b) := by
  refine (concat8_read (val_main_v159 (F := Ideal) x1) (val_main_v160 (F := Ideal) x1) (val_main_v161 (F := Ideal) x1)
    (val_main_v162 (F := Ideal) x1) (val_main_v163 (F := Ideal) x1) (val_main_v164 (F := Ideal) x1) (val_main_v165 (F := Ideal) x1)
    (val_main_v166 (F := Ideal) x1) _ b).trans ?_
  rw [c159, c160, c161, c162, c163, c164, c165, c166, m155, m143, m149, m137, m140, m152, m146, m158,
    p154, p142, p148, p136, p139, p151, p145, p157, s134, s124, s108, s98, s102, s114, s128, s120, s132, s106, s112, s118,
    p130, p122, p104, p96, p100, p110, p126, p116]
  funext k
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Dets

/-! ## The two vote arrays over the inputs -/

theorem votes_atts_in (x0 : (⟨S8x8x512x512, .f32⟩ : BufTy).Contents (Elt Ideal)) :
    arr4 (val_main_v91 (F := Ideal) x0) = fun b => vote (sg (arr4 x0 b)) :=
  funext fun b => (votes_atts x0 b).trans (congrArg vote (sg_atts x0 b))

theorem votes_dets_in (x1 : (⟨S8x8x512x512, .f32⟩ : BufTy).Contents (Elt Ideal)) :
    arr4 (val_main_v167 (F := Ideal) x1) = fun b => vote (sg (arr4 x1 b)) :=
  funext fun b => (votes_dets x1 b).trans (congrArg vote (sg_dets x1 b))

theorem sg_atts_in (x0 : (⟨S8x8x512x512, .f32⟩ : BufTy).Contents (Elt Ideal)) :
    arr4 (val_main_v12 (F := Ideal) x0) = fun b => sg (arr4 x0 b) := funext fun b => sg_atts x0 b

theorem sg_dets_in (x1 : (⟨S8x8x512x512, .f32⟩ : BufTy).Contents (Elt Ideal)) :
    arr4 (val_main_v18 (F := Ideal) x1) = fun b => sg (arr4 x1 b) := funext fun b => sg_dets x1 b

end Cert.ReferenceIdeal.RefValue

end
-- ==== Proof.RefValueB.lean ====
/-
  The reference's maps between the votes and the last two losses, plane by plane of a batch element: the mean of the
  eight vote channels (a sum over the channel axis from the word 0, divided by the word 8), the count of connected
  neighbours, the edge mask (1 where the count is below 8 and above 0), the minimum of the eight vote channels (folded
  from +∞), and the decoupled map mean · (1 − edge) + (1 − minimum) · edge.
-/
import proofs.«403145_j71588514889841_3_alg».proof.Proof.RefValueLib

noncomputable section

open scoped BigOperators
open Idealize.ShloMosaic Idealize.ShloMosaic.ValueIdx

namespace Cert.ReferenceIdeal.RefValue

open Cert.ReferenceIdeal Cert.ReferenceIdeal.RefRead Bicon

/-- The mask's word: select on (s < 8 and s > 0) between the words 1 and 0 is edgeOf s. -/
theorem edge_word (s : EReal) :
    Scalar.select (IntOp.andi (Ideal.cmp .olt s (Ideal.ofBits .f32 0x41000000#32)) (Ideal.cmp .ogt s (Ideal.ofBits .f32 0x00000000#32)))
      (Ideal.ofBits .f32 0x3F800000#32) (Ideal.ofBits .f32 0x00000000#32) = edgeOf s := by
  rw [Consts.ofBits_eight, Ideal.ofBits_zero_f32, Consts.ofBits_one]
  unfold edgeOf Scalar.select IntOp.andi Ideal.cmp
  by_cases h1 : s < ((8 : ℝ) : EReal) <;> by_cases h2 : (0 : EReal) < s <;> simp [h1, h2]

section
variable (x0 x1 x3 : (⟨S8x8x512x512, .f32⟩ : BufTy).Contents (Elt Ideal)) (b : Fin 8)

/-- Stage 94: the mean of the first branch's votes. -/
theorem glo_atts : pl3 (val_main_v94 (F := Ideal) x0) b = gloOf (arr4 (val_main_v91 (F := Ideal) x0) b) := by
  funext h w
  show Ideal.div (pl3 (val_main_v92 (F := Ideal) x0) b h w) (Ideal.ofBits .f32 0x41000000#32) = _
  rw [show pl3 (val_main_v92 (F := Ideal) x0) b = _ from reduceAdd1_read (val_main_v91 (F := Ideal) x0) _ _ _ b,
    Consts.ofBits_eight]
  show Ideal.div (Ideal.ofBits .f32 0x00000000#32 + _) _ = _
  rw [Ideal.ofBits_zero_f32]
  rfl

/-- Stage 170: the mean of the second branch's votes. -/
theorem glo_dets : pl3 (val_main_v170 (F := Ideal) x1) b = gloOf (arr4 (val_main_v167 (F := Ideal) x1) b) := by
  funext h w
  show Ideal.div (pl3 (val_main_v168 (F := Ideal) x1) b h w) (Ideal.ofBits .f32 0x41000000#32) = _
  rw [show pl3 (val_main_v168 (F := Ideal) x1) b = _ from reduceAdd1_read (val_main_v167 (F := Ideal) x1) _ _ _ b,
    Consts.ofBits_eight]
  show Ideal.div (Ideal.ofBits .f32 0x00000000#32 + _) _ = _
  rw [Ideal.ofBits_zero_f32]
  rfl

/-- Stage 0: the count of connected neighbours. -/
theorem sumConn_read : pl3 (val_main_v0 (F := Ideal) x3) b = sumConnR (arr4 x3 b) := by
  rw [show pl3 (val_main_v0 (F := Ideal) x3) b = _ from reduceAdd1_read x3 _ _ _ b]
  funext h w
  show Ideal.ofBits .f32 0x00000000#32 + _ = _
  rw [Ideal.ofBits_zero_f32]
  rfl

/-- Stage 6: the edge mask. -/
theorem edge_read : pl3 (val_main_v6 (F := Ideal) x3) b = fun h w => edgeOf (sumConnR (arr4 x3 b) h w) := by
  funext h w
  rw [← sumConn_read x3 b]
  exact edge_word (val_main_v0 (F := Ideal) x3 (ix3 b h w))

/-- Stage 171: the minimum of the second branch's votes. -/
theorem min_dets : pl3 (val_main_v171 (F := Ideal) x1) b = minOf (arr4 (val_main_v167 (F := Ideal) x1) b) := by
  rw [show pl3 (val_main_v171 (F := Ideal) x1) b = _ from reduceMin1_read (val_main_v167 (F := Ideal) x1) _ _ _ b]
  funext h w
  show Finset.fold min (Ideal.ofBits .f32 0x7F800000#32) _ _ = _
  rw [Consts.ofBits_inf]
  rfl

/-- Stage 180: the decoupled map of the second branch. -/
theorem dec_dets : pl3 (val_main_v180 (F := Ideal) x1 x3) b = decOf (arr4 (val_main_v167 (F := Ideal) x1) b) (arr4 x3 b) := by
  funext h w
  have e1 : val_main_v170 (F := Ideal) x1 (ix3 b h w) = gloOf (arr4 (val_main_v167 (F := Ideal) x1) b) h w :=
    congrFun (congrFun (glo_dets x1 b) h) w
  have e2 : val_main_v6 (F := Ideal) x3 (ix3 b h w) = edgeOf (sumConnR (arr4 x3 b) h w) :=
    congrFun (congrFun (edge_read x3 b) h) w
  have e3 : val_main_v171 (F := Ideal) x1 (ix3 b h w) = minOf (arr4 (val_main_v167 (F := Ideal) x1) b) h w :=
    congrFun (congrFun (min_dets x1 b) h) w
  show val_main_v180 (F := Ideal) x1 x3 (ix3 b h w) = _
  rw [val_main_v180_apply, val_main_v179_apply, val_main_v175_apply, val_main_v178_apply, val_main_v177_apply,
    val_main_v174_apply, val_main_v173_apply, val_main_v176_apply, val_main_v172_apply, val_main_cst_37_apply,
    val_main_cst_36_apply, e1, e2, e3]
  simp only [Ideal.addf_def, Ideal.mulf_def, Ideal.subf_def, Ideal.ofBits_def, Consts.ofBits_one]
  rfl

/-- Stage 196, the first branch's mean map as a one-channel block. -/
theorem glo_block_atts : arr3 (val_main_v196 (F := Ideal) x0) b = gloOf (arr4 (val_main_v91 (F := Ideal) x0) b) :=
  (bc_read (val_main_v94 (F := Ideal) x0) _ b).trans (glo_atts x0 b)

/-- Stage 181, the second branch's decoupled map as a one-channel block. -/
theorem dec_block_dets : arr3 (val_main_v181 (F := Ideal) x1 x3) b = decOf (arr4 (val_main_v167 (F := Ideal) x1) b) (arr4 x3 b) :=
  (bc_read (val_main_v180 (F := Ideal) x1 x3) _ b).trans (dec_dets x1 x3 b)

end

end Cert.ReferenceIdeal.RefValue

end
-- ==== Proof.RefValueC.lean ====
/-
  The six losses of the reference: each is minus the total of the clamped cross-entropy terms over its array, from the
  word 0, divided by the number of entries (2^24 for the [8, 8, 512, 512] arrays, 2^21 for the [8, 1, 512, 512] ones).
  Stated over the arrays of predictions as the reference's stages hold them.
-/
import proofs.«403145_j71588514889841_3_alg».proof.Proof.RefValueLib

noncomputable section

open scoped BigOperators
open Idealize.ShloMosaic Idealize.ShloMosaic.ValueIdx

namespace Cert.ReferenceIdeal.RefValue

open Cert.ReferenceIdeal Cert.ReferenceIdeal.RefRead Bicon

variable (x0 x1 x3 : (⟨S8x8x512x512, .f32⟩ : BufTy).Contents (Elt Ideal)) (x2 : (⟨S8x1x512x512, .f32⟩ : BufTy).Contents (Elt Ideal))

/-- The loss of the first branch's votes against the connectivity labels. -/
theorem l224 : val_main_v224 (F := Ideal) x0 x3 ix0 = rLoss4 (arr4 (val_main_v91 (F := Ideal) x0)) (arr4 x3) := by
  show -(Ideal.div (val_main_v222 (F := Ideal) x0 x3 ix0) (Ideal.ofBits .f32 0x4B800000#32)) = _
  rw [val_main_v222_apply]
  exact rLoss4_of (val_main_v91 (F := Ideal) x0) x3 (val_main_v221 (F := Ideal) x0 x3)
    (fun i => bt_word (val_main_v91 (F := Ideal) x0 i) (x3 i))

/-- The loss of the first branch's sigmoid array against the connectivity labels. -/
theorem l238 : val_main_v238 (F := Ideal) x0 x3 ix0 = rLoss4 (arr4 (val_main_v12 (F := Ideal) x0)) (arr4 x3) := by
  show -(Ideal.div (val_main_v236 (F := Ideal) x0 x3 ix0) (Ideal.ofBits .f32 0x4B800000#32)) = _
  rw [val_main_v236_apply]
  exact rLoss4_of (val_main_v12 (F := Ideal) x0) x3 (val_main_v235 (F := Ideal) x0 x3)
    (fun i => bt_word (val_main_v12 (F := Ideal) x0 i) (x3 i))

/-- The loss of the second branch's votes against the connectivity labels. -/
theorem l252 : val_main_v252 (F := Ideal) x1 x3 ix0 = rLoss4 (arr4 (val_main_v167 (F := Ideal) x1)) (arr4 x3) := by
  show -(Ideal.div (val_main_v250 (F := Ideal) x1 x3 ix0) (Ideal.ofBits .f32 0x4B800000#32)) = _
  rw [val_main_v250_apply]
  exact rLoss4_of (val_main_v167 (F := Ideal) x1) x3 (val_main_v249 (F := Ideal) x1 x3)
    (fun i => bt_word (val_main_v167 (F := Ideal) x1 i) (x3 i))

/-- The loss of the second branch's sigmoid array against the connectivity labels. -/
theorem l266 : val_main_v266 (F := Ideal) x1 x3 ix0 = rLoss4 (arr4 (val_main_v18 (F := Ideal) x1)) (arr4 x3) := by
  show -(Ideal.div (val_main_v264 (F := Ideal) x1 x3 ix0) (Ideal.ofBits .f32 0x4B800000#32)) = _
  rw [val_main_v264_apply]
  exact rLoss4_of (val_main_v18 (F := Ideal) x1) x3 (val_main_v263 (F := Ideal) x1 x3)
    (fun i => bt_word (val_main_v18 (F := Ideal) x1 i) (x3 i))

/-- The loss of the first branch's mean map against the target. -/
theorem l210 : val_main_v210 (F := Ideal) x0 x2 ix0 = rLoss3 (arr3 (val_main_v196 (F := Ideal) x0)) (arr3 x2) := by
  show -(Ideal.div (val_main_v208 (F := Ideal) x0 x2 ix0) (Ideal.ofBits .f32 0x4A000000#32)) = _
  rw [val_main_v208_apply]
  exact rLoss3_of (val_main_v196 (F := Ideal) x0) x2 (val_main_v207 (F := Ideal) x0 x2)
    (fun i => bt_word (val_main_v196 (F := Ideal) x0 i) (x2 i))

/-- The loss of the second branch's decoupled map against the target. -/
theorem l195 : val_main_v195 (F := Ideal) x1 x2 x3 ix0 = rLoss3 (arr3 (val_main_v181 (F := Ideal) x1 x3)) (arr3 x2) := by
  show -(Ideal.div (val_main_v193 (F := Ideal) x1 x2 x3 ix0) (Ideal.ofBits .f32 0x4A000000#32)) = _
  rw [val_main_v193_apply]
  exact rLoss3_of (val_main_v181 (F := Ideal) x1 x3) x2 (val_main_v192 (F := Ideal) x1 x2 x3)
    (fun i => bt_word (val_main_v181 (F := Ideal) x1 x3 i) (x2 i))

end Cert.ReferenceIdeal.RefValue

end
-- ==== Proof.RefValue.lean ====
/-
  The reference's last stage, read at the extended reals, is the reference's side of Spec.lean over the four arrays:
  the weighted sum of the six losses, each over the votes, the sigmoid array, the mean map or the decoupled map of its branch.
-/
import proofs.«403145_j71588514889841_3_alg».proof.Proof.RefValueA
import proofs.«403145_j71588514889841_3_alg».proof.Proof.RefValueB
import proofs.«403145_j71588514889841_3_alg».proof.Proof.RefValueC

noncomputable section

open Idealize.ShloMosaic Idealize.ShloMosaic.ValueIdx

namespace Cert.ReferenceIdeal.RefValue

open Cert.ReferenceIdeal Cert.ReferenceIdeal.RefRead Bicon

/-- The first branch's mean map, as a one-channel block, is the mean of the votes of the input's sigmoid. -/
theorem glo_block_in (x0 : (⟨S8x8x512x512, .f32⟩ : BufTy).Contents (Elt Ideal)) :
    arr3 (val_main_v196 (F := Ideal) x0) = fun b => gloR (arr4 x0 b) := by
  funext b
  rw [glo_block_atts, votes_atts_in]
  rfl

/-- The second branch's decoupled map, as a one-channel block, is the decoupled map of the input's sigmoid and the labels. -/
theorem dec_block_in (x1 x3 : (⟨S8x8x512x512, .f32⟩ : BufTy).Contents (Elt Ideal)) :
    arr3 (val_main_v181 (F := Ideal) x1 x3) = fun b => decR (arr4 x1 b) (arr4 x3 b) := by
  funext b
  rw [dec_block_dets, votes_dets_in]
  rfl

theorem val_eq_lossR (x0 x1 x3 : (⟨S8x8x512x512, .f32⟩ : BufTy).Contents (Elt Ideal)) (x2 : (⟨S8x1x512x512, .f32⟩ : BufTy).Contents (Elt Ideal)) :
    val_main_v275 (F := Ideal) x0 x1 x2 x3 ix0 = lossR c02 c08 (arr4 x0) (arr4 x1) (arr3 x2) (arr4 x3) := by
  show ((((c02 * val_main_v224 (F := Ideal) x0 x3 ix0 + c08 * val_main_v238 (F := Ideal) x0 x3 ix0)
      + val_main_v210 (F := Ideal) x0 x2 ix0) + c02 * val_main_v252 (F := Ideal) x1 x3 ix0)
      + c08 * val_main_v266 (F := Ideal) x1 x3 ix0) + val_main_v195 (F := Ideal) x1 x2 x3 ix0 = _
  rw [l224, l238, l210, l252, l266, l195, votes_atts_in, sg_atts_in, votes_dets_in, sg_dets_in, glo_block_in, dec_block_in]
  rfl

end Cert.ReferenceIdeal.RefValue

end
-- ==== Proof.SpecMathA.lean ====
/-
  Real-valued twins of the pieces of the specification.  When every entry of a plane is the coercion of a real
  number, so is every entry of its shifts, its logistic, its votes, its clamped logarithms, its cross-entropy
  terms and its finite sums; the twins are those reals, and each lemma says "the piece at coerced arguments is
  the coercion of the twin".  The logistic takes values in (0, 1), the shifts keep [0, 1], and a product of two
  numbers of [0, 1] is in [0, 1]: every vote is in [0, 1].
-/
import proofs.«403145_j71588514889841_3_alg».proof.Proof.Spec
import Mathlib.Algebra.BigOperators.Fin
import Mathlib.Data.Finset.Fold

noncomputable section

namespace Bicon

open Idealize.ShloMosaic

/-- A plane of reals. -/
abbrev PlaneR := Fin 512 → Fin 512 → ℝ

/-- A plane of reals read as a plane of extended reals. -/
def cP (p : PlaneR) : Plane := fun h w => ((p h w : ℝ) : EReal)

@[simp] theorem cP_apply (p : PlaneR) (h w : Fin 512) : cP p h w = ((p h w : ℝ) : EReal) := rfl

/-! ## Coercion and the order, finite sums -/

theorem coe_max' (x y : ℝ) : ((max x y : ℝ) : EReal) = max (x : EReal) (y : EReal) :=
  EReal.coe_strictMono.monotone.map_max

theorem coe_min' (x y : ℝ) : ((min x y : ℝ) : EReal) = min (x : EReal) (y : EReal) :=
  EReal.coe_strictMono.monotone.map_min

/-- A finite sum of coercions is the coercion of the sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Shifts -/

def shRr (P : PlaneR) : PlaneR := fun h w => if hw : 0 < w.val then P h ⟨w.val - 1, by have := w.isLt; omega⟩ else 0
def shLr (P : PlaneR) : PlaneR := fun h w => if hw : w.val < 511 then P h ⟨w.val + 1, by omega⟩ else 0
def shDr (P : PlaneR) : PlaneR := fun h w => if hh : 0 < h.val then P ⟨h.val - 1, by have := h.isLt; omega⟩ w else 0
def shUr (P : PlaneR) : PlaneR := fun h w => if hh : h.val < 511 then P ⟨h.val + 1, by omega⟩ w else 0

theorem shR_cP (p : PlaneR) : shR (cP p) = cP (shRr p) := by
  funext h w; unfold shR shRr; simp only [cP_apply]; split_ifs <;> simp
theorem shL_cP (p : PlaneR) : shL (cP p) = cP (shLr p) := by
  funext h w; unfold shL shLr; simp only [cP_apply]; split_ifs <;> simp
theorem shD_cP (p : PlaneR) : shD (cP p) = cP (shDr p) := by
  funext h w; unfold shD shDr; simp only [cP_apply]; split_ifs <;> simp
theorem shU_cP (p : PlaneR) : shU (cP p) = cP (shUr p) := by
  funext h w; unfold shU shUr; simp only [cP_apply]; split_ifs <;> simp

/-- Every entry lies in [0, 1]. -/
def In01 (p : PlaneR) : Prop := ∀ h w, 0 ≤ p h w ∧ p h w ≤ 1

theorem In01.shR {p : PlaneR} (hp : In01 p) : In01 (shRr p) := by
  intro h w; unfold shRr; split_ifs
  · exact hp _ _
  · exact ⟨le_refl _, zero_le_one⟩
theorem In01.shL {p : PlaneR} (hp : In01 p) : In01 (shLr p) := by
  intro h w; unfold shLr; split_ifs
  · exact hp _ _
  · exact ⟨le_refl _, zero_le_one⟩
theorem In01.shD {p : PlaneR} (hp : In01 p) : In01 (shDr p) := by
  intro h w; unfold shDr; split_ifs
  · exact hp _ _
  · exact ⟨le_refl _, zero_le_one⟩
theorem In01.shU {p : PlaneR} (hp : In01 p) : In01 (shUr p) := by
  intro h w; unfold shUr; split_ifs
  · exact hp _ _
  · exact ⟨le_refl _, zero_le_one⟩

theorem In01.mul {p q : PlaneR} (hp : In01 p) (hq : In01 q) : In01 (fun h w => p h w * q h w) := by
  intro h w
  obtain ⟨hp0, hp1⟩ := hp h w
  obtain ⟨hq0, hq1⟩ := hq h w
  exact ⟨mul_nonneg hp0 hq0, by nlinarith⟩

/-! ## The logistic -/

def sgr (x : Fin 8 → PlaneR) : Fin 8 → PlaneR := fun k h w => (1 + Real.exp (-(x k h w)))⁻¹

theorem sg_cP (x : Fin 8 → PlaneR) : sg (fun k => cP (x k)) = fun k => cP (sgr x k) := by
  funext k h w
  simp only [sg, sgr, cP_apply, Ideal.logistic_coe]

theorem sgr_In01 (x : Fin 8 → PlaneR) (k : Fin 8) : In01 (sgr x k) := by
  intro h w
  have he : 0 < Real.exp (-(x k h w)) := Real.exp_pos _
  have h1 : (1 : ℝ) ≤ 1 + Real.exp (-(x k h w)) := by linarith
  refine ⟨?_, ?_⟩
  · unfold sgr; positivity
  · unfold sgr; exact inv_le_one_of_one_le₀ h1

/-! ## Votes -/

def voteR (c : Fin 8 → PlaneR) : Fin 8 → PlaneR
  | ⟨0, _⟩ => fun h w => c 0 h w * shRr (shDr (c 7)) h w
  | ⟨1, _⟩ => fun h w => c 1 h w * shDr (c 6) h w
  | ⟨2, _⟩ => fun h w => c 2 h w * shLr (shDr (c 5)) h w
  | ⟨3, _⟩ => fun h w => c 3 h w * shRr (c 4) h w
  | ⟨4, _⟩ => fun h w => c 4 h w * shLr (c 3) h w
  | ⟨5, _⟩ => fun h w => c 5 h w * shRr (shUr (c 2)) h w
  | ⟨6, _⟩ => fun h w => c 6 h w * shUr (c 1) h w
  | ⟨7, _⟩ => fun h w => c 7 h w * shLr (shUr (c 0)) h w
  | ⟨n + 8, h⟩ => absurd h (by omega)

theorem vote_cP (c : Fin 8 → PlaneR) (k : Fin 8) : vote (fun k => cP (c k)) k = cP (voteR c k) := by
  fin_cases k <;> funext h w <;>
    simp only [vote, voteR, shR_cP, shL_cP, shD_cP, shU_cP, cP_apply, EReal.coe_mul]

theorem voteR_In01 (c : Fin 8 → PlaneR) (hc : ∀ k, In01 (c k)) (k : Fin 8) : In01 (voteR c k) := by
  fin_cases k
  · exact (hc 0).mul (hc 7).shD.shR
  · exact (hc 1).mul (hc 6).shD
  · exact (hc 2).mul (hc 5).shD.shL
  · exact (hc 3).mul (hc 4).shR
  · exact (hc 4).mul (hc 3).shL
  · exact (hc 5).mul (hc 2).shU.shR
  · exact (hc 6).mul (hc 1).shU
  · exact (hc 7).mul (hc 0).shU.shL

/-- The votes of the logistic planes, as reals. -/
def vr (x : Fin 8 → PlaneR) : Fin 8 → PlaneR := voteR (sgr x)

theorem vote_sg_cP (x : Fin 8 → PlaneR) (k : Fin 8) : vote (sg (fun k => cP (x k))) k = cP (vr x k) := by
  rw [sg_cP, vote_cP]; rfl

theorem vr_In01 (x : Fin 8 → PlaneR) (k : Fin 8) : In01 (vr x k) := voteR_In01 _ (sgr_In01 x) k

end Bicon

end
-- ==== Proof.SpecMathB.lean ====
/-
  Cross-entropy terms and sums at real arguments.  The clamped logarithm of a real is a real (the logarithm of a
  nonpositive number is -∞ and the clamp lifts it to -100), so one cross-entropy term of two reals is a real; the
  kernel's chained sums and the reference's single sum are then coercions of plain finite sums of reals, where
  negation moves through sums and division by N is multiplication by 1/N.  Hence the two generic facts at the
  end: for planes of reals, the kernel's sign-flipped, chained and divided sum is the reference's negated mean.
-/
import proofs.«403145_j71588514889841_3_alg».proof.Proof.SpecMathA

noncomputable section

namespace Bicon

open Idealize.ShloMosaic

/-! ## One cross-entropy term -/

def clogr (r : ℝ) : ℝ := if r ≤ 0 then -100 else max (Real.log r) (-100)

theorem clog_coe (r : ℝ) : clog (r : EReal) = ((clogr r : ℝ) : EReal) := by
  unfold clog clogr
  rw [Ideal.log_coe]
  split_ifs with h
  · exact max_eq_right bot_le
  · exact (coe_max' _ _).symm

def btr (p t : ℝ) : ℝ := t * clogr p + (1 - t) * clogr (1 - p)

theorem bt_coe (p t : ℝ) : bt (p : EReal) (t : EReal) = ((btr p t : ℝ) : EReal) := by
  unfold bt btr
  rw [← EReal.coe_one, ← EReal.coe_sub, ← EReal.coe_sub, clog_coe, clog_coe, ← EReal.coe_mul, ← EReal.coe_mul,
    ← EReal.coe_add]

theorem zero_sub_coe (x : ℝ) : (0 : EReal) - (x : EReal) = ((-x : ℝ) : EReal) := by
  rw [← EReal.coe_zero, ← EReal.coe_sub, zero_sub]

/-! ## The kernel's sums -/

/-- The sum of one plane's cross-entropy terms, as a real. -/
def bceR (p t : PlaneR) : ℝ := ∑ h : Fin 512, ∑ w : Fin 512, btr (p h w) (t h w)

theorem bceK_cP (p t : PlaneR) : bceK (cP p) (cP t) = ((-(bceR p t) : ℝ) : EReal) := by
  unfold bceK bceR
  simp only [cP_apply, bt_coe, zero_sub_coe]
  rw [← Finset.sum_neg_distrib, coe_sum]
  refine Finset.sum_congr rfl fun h _ => ?_
  rw [← Finset.sum_neg_distrib, coe_sum]

theorem chain8_coe (f : Fin 8 → ℝ) : chain8 (fun k => ((f k : ℝ) : EReal)) = ((∑ k, f k : ℝ) : EReal) := by
  have h : (∑ k, f k) = (((((((0 + f 3) + f 4) + f 1) + f 6) + f 2) + f 5) + f 0) + f 7 := by
    rw [Fin.sum_univ_eight]; ring
  rw [h]; unfold chain8
  simp only [EReal.coe_add, EReal.coe_zero]

theorem acc4_zero (f : Fin 8 → EReal) : acc4 f 0 = (((0 + f 0) + f 1) + f 2) + f 3 := rfl
theorem acc4_one (f : Fin 8 → EReal) : acc4 f 1 = (((0 + f 4) + f 5) + f 6) + f 7 := rfl

theorem tot_coe (f : Fin 8 → ℝ) : tot (fun b => ((f b : ℝ) : EReal)) = ((∑ b, f b : ℝ) : EReal) := by
  have h : (∑ b, f b) = 0 + (((((0 + f 0) + f 1) + f 2) + f 3) + ((((0 + f 4) + f 5) + f 6) + f 7)) := by
    rw [Fin.sum_univ_eight]; ring
  rw [h]; unfold tot
  rw [Fin.sum_univ_two, acc4_zero, acc4_one]
  simp only [EReal.coe_add, EReal.coe_zero]

theorem div_N24_coe (x : ℝ) : Ideal.div (x : EReal) N24 = ((x * (1 / 16777216) : ℝ) : EReal) := by
  unfold N24
  rw [Ideal.div_coe (by norm_num), ← EReal.coe_mul]

theorem div_N21_coe (x : ℝ) : Ideal.div (x : EReal) N21 = ((x * (1 / 2097152) : ℝ) : EReal) := by
  unfold N21
  rw [Ideal.div_coe (by norm_num), ← EReal.coe_mul]

/-! ## The reference's means -/

theorem rLoss4_cP (P C : Fin 8 → Fin 8 → PlaneR) :
    rLoss4 (fun b k => cP (P b k)) (fun b k => cP (C b k))
      = ((-((∑ b : Fin 8, ∑ k : Fin 8, bceR (P b k) (C b k)) * (1 / 16777216)) : ℝ) : EReal) := by
  unfold rLoss4
  have h : (0 : EReal) + ∑ b : Fin 8, ∑ k : Fin 8, ∑ h : Fin 512, ∑ w : Fin 512, bt (cP (P b k) h w) (cP (C b k) h w)
      = ((∑ b : Fin 8, ∑ k : Fin 8, bceR (P b k) (C b k) : ℝ) : EReal) := by
    rw [zero_add, coe_sum]
    refine Finset.sum_congr rfl fun b _ => ?_
    rw [coe_sum]
    refine Finset.sum_congr rfl fun k _ => ?_
    unfold bceR
    rw [coe_sum]
    refine Finset.sum_congr rfl fun h _ => ?_
    rw [coe_sum]
    refine Finset.sum_congr rfl fun w _ => ?_
    rw [cP_apply, cP_apply, bt_coe]
  rw [h, div_N24_coe, ← EReal.coe_neg]

theorem rLoss3_cP (P T : Fin 8 → PlaneR) :
    rLoss3 (fun b => cP (P b)) (fun b => cP (T b))
      = ((-((∑ b : Fin 8, bceR (P b) (T b)) * (1 / 2097152)) : ℝ) : EReal) := by
  unfold rLoss3
  have h : (0 : EReal) + ∑ b : Fin 8, ∑ h : Fin 512, ∑ w : Fin 512, bt (cP (P b) h w) (cP (T b) h w)
      = ((∑ b : Fin 8, bceR (P b) (T b) : ℝ) : EReal) := by
    rw [zero_add, coe_sum]
    refine Finset.sum_congr rfl fun b _ => ?_
    unfold bceR
    rw [coe_sum]
    refine Finset.sum_congr rfl fun h _ => ?_
    rw [coe_sum]
    refine Finset.sum_congr rfl fun w _ => ?_
    rw [cP_apply, cP_apply, bt_coe]
  rw [h, div_N21_coe, ← EReal.coe_neg]

/-! ## Kernel sum against reference mean, generically -/

/-- Eight batch elements of eight planes: chained, sign-flipped and divided, against the negated mean. -/
theorem comp4 (P C : Fin 8 → Fin 8 → PlaneR) :
    Ideal.div (tot fun b => chain8 fun k => bceK (cP (P b k)) (cP (C b k))) N24
      = rLoss4 (fun b k => cP (P b k)) (fun b k => cP (C b k)) := by
  rw [rLoss4_cP]
  simp only [bceK_cP, chain8_coe, tot_coe]
  rw [div_N24_coe]
  congr 1
  simp only [Finset.sum_neg_distrib, neg_mul]

/-- Eight batch elements of one plane each. -/
theorem comp3 (P T : Fin 8 → PlaneR) :
    Ideal.div (tot fun b => bceK (cP (P b)) (cP (T b))) N21 = rLoss3 (fun b => cP (P b)) (fun b => cP (T b)) := by
  rw [rLoss3_cP]
  simp only [bceK_cP, tot_coe]
  rw [div_N21_coe]
  congr 1
  simp only [Finset.sum_neg_distrib, neg_mul]

end Bicon

end
-- ==== Proof.SpecMathC.lean ====
/-
  The pointwise planes of the two sides at real arguments, and the six component equalities.

  The mean vote: the kernel chains the eight votes and multiplies by 1/8, the reference divides their sum by 8;
  both are the real (Σ votes) · (1/8).  The minimum vote: the kernel's nested minimum starts from 1, the
  reference folds from +∞; every vote is at most 1, so both are the least vote.  The count of connected
  neighbours is the same real sum on both sides, so the edge masks agree.  With these the kernel's planes and the
  reference's planes are the same planes of reals, and each loss is an instance of the generic fact "chained,
  sign-flipped and divided sum = negated mean".
-/
import proofs.«403145_j71588514889841_3_alg».proof.Proof.SpecMathB

noncomputable section

namespace Bicon

open Idealize.ShloMosaic

/-! ## The mean vote -/

def glor (x : Fin 8 → PlaneR) : PlaneR := fun h w => (∑ k, vr x k h w) * (1 / 8)

theorem gloK_cP (x : Fin 8 → PlaneR) : gloK (fun k => cP (x k)) = cP (glor x) := by
  funext h w
  unfold gloK glor
  simp only [vote_sg_cP, cP_apply]
  rw [chain8_coe, ← EReal.coe_mul]

theorem gloR_cP (x : Fin 8 → PlaneR) : gloR (fun k => cP (x k)) = cP (glor x) := by
  funext h w
  unfold gloR glor
  simp only [vote_sg_cP, cP_apply]
  rw [zero_add, ← coe_sum, Ideal.div_coe (by norm_num), ← EReal.coe_mul]

/-! ## The count of connected neighbours and the edge mask -/

def sumConnr (c : Fin 8 → PlaneR) : PlaneR := fun h w => ∑ k, c k h w

theorem sumConnK_cP (c : Fin 8 → PlaneR) : sumConnK (fun k => cP (c k)) = cP (sumConnr c) := by
  funext h w
  unfold sumConnK sumConnr
  simp only [cP_apply]
  rw [chain8_coe]

theorem sumConnR_cP (c : Fin 8 → PlaneR) : sumConnR (fun k => cP (c k)) = cP (sumConnr c) := by
  funext h w
  unfold sumConnR sumConnr
  simp only [cP_apply]
  rw [zero_add, ← coe_sum]

def edger (s : ℝ) : ℝ := if s < 8 ∧ 0 < s then 1 else 0

theorem edgeOf_coe (s : ℝ) : edgeOf (s : EReal) = ((edger s : ℝ) : EReal) := by
  unfold edgeOf edger
  by_cases h : s < 8 ∧ 0 < s
  · rw [if_pos h, if_pos (show ((s : EReal) < ((8 : ℝ) : EReal) ∧ 0 < (s : EReal)) from
      ⟨EReal.coe_lt_coe_iff.2 h.1, EReal.coe_pos.2 h.2⟩), EReal.coe_one]
  · rw [if_neg h, if_neg (fun h' : ((s : EReal) < ((8 : ℝ) : EReal) ∧ 0 < (s : EReal)) =>
      h ⟨EReal.coe_lt_coe_iff.1 h'.1, EReal.coe_pos.1 h'.2⟩), EReal.coe_zero]

/-! ## The least vote -/

def minr (v : Fin 8 → ℝ) : ℝ :=
  min (min (min (min 1 (min (v 3) (v 4))) (min (v 1) (v 6))) (min (v 2) (v 5))) (min (v 0) (v 7))

def minPr (x : Fin 8 → PlaneR) : PlaneR := fun h w => minr (fun k => vr x k h w)

theorem minK_cP (x : Fin 8 → PlaneR) : minK (fun k => cP (x k)) = cP (minPr x) := by
  funext h w
  unfold minK minPr minr
  simp only [vote_sg_cP, cP_apply, coe_min', EReal.coe_one]

/-- Folding the minimum from +∞ over eight reals that are at most 1 gives the nested minimum started from 1. -/
theorem fold_min_coe (v : Fin 8 → ℝ) (hv : ∀ k, v k ≤ 1) :
    (Finset.univ : Finset (Fin 8)).fold min ⊤ (fun k => ((v k : ℝ) : EReal)) = ((minr v : ℝ) : EReal) := by
  refine eq_of_forall_le_iff fun c => ?_
  rw [Finset.le_fold_min]
  unfold minr
  simp only [coe_min', le_min_iff, EReal.coe_one]
  constructor
  · rintro ⟨-, h⟩
    have H : ∀ k, c ≤ ((v k : ℝ) : EReal) := fun k => h k (Finset.mem_univ k)
    have h1 : c ≤ 1 := (H 3).trans (by exact_mod_cast hv 3)
    exact ⟨⟨⟨⟨h1, H 3, H 4⟩, H 1, H 6⟩, H 2, H 5⟩, H 0, H 7⟩
  · rintro ⟨⟨⟨⟨-, h3, h4⟩, h1, h6⟩, h2, h5⟩, h0, h7⟩
    refine ⟨le_top, fun k _ => ?_⟩
    fin_cases k
    exacts [h0, h1, h2, h3, h4, h5, h6, h7]

theorem minR_cP (x : Fin 8 → PlaneR) : minR (fun k => cP (x k)) = cP (minPr x) := by
  funext h w
  unfold minR minPr
  simp only [vote_sg_cP, cP_apply]
  exact fold_min_coe _ fun k => (vr_In01 x k h w).2

/-! ## The decoupled plane -/

def decr (x c : Fin 8 → PlaneR) : PlaneR := fun h w =>
  glor x h w * (1 - edger (sumConnr c h w)) + (1 - minPr x h w) * edger (sumConnr c h w)

theorem dec_coe (g m s : ℝ) :
    (g : EReal) * (1 - edgeOf (s : EReal)) + (1 - (m : EReal)) * edgeOf (s : EReal)
      = ((g * (1 - edger s) + (1 - m) * edger s : ℝ) : EReal) := by
  rw [edgeOf_coe, ← EReal.coe_one, ← EReal.coe_sub, ← EReal.coe_sub, ← EReal.coe_mul, ← EReal.coe_mul,
    ← EReal.coe_add]

theorem decK_cP (x c : Fin 8 → PlaneR) : decK (fun k => cP (x k)) (fun k => cP (c k)) = cP (decr x c) := by
  funext h w
  unfold decK decr
  rw [gloK_cP, minK_cP, sumConnK_cP]
  simp only [cP_apply]
  exact dec_coe _ _ _

theorem decR_cP (x c : Fin 8 → PlaneR) : decR (fun k => cP (x k)) (fun k => cP (c k)) = cP (decr x c) := by
  funext h w
  unfold decR decr
  rw [gloR_cP, minR_cP, sumConnR_cP]
  simp only [cP_apply]
  exact dec_coe _ _ _

/-! ## The six components -/

theorem comp_bicon (x c : Fin 8 → Fin 8 → PlaneR) :
    Ideal.div (tot fun b => kBicon (fun k => cP (x b k)) (fun k => cP (c b k))) N24
      = rLoss4 (fun b => vote (sg (fun k => cP (x b k)))) (fun b k => cP (c b k)) := by
  have h : (fun b => vote (sg (fun k => cP (x b k)))) = fun b k => cP (vr (x b) k) := by
    funext b k; exact vote_sg_cP (x b) k
  rw [h, ← comp4]
  unfold kBicon
  simp only [vote_sg_cP]

theorem comp_conn (x c : Fin 8 → Fin 8 → PlaneR) :
    Ideal.div (tot fun b => kConn (fun k => cP (x b k)) (fun k => cP (c b k))) N24
      = rLoss4 (fun b => sg (fun k => cP (x b k))) (fun b k => cP (c b k)) := by
  have h : (fun b => sg (fun k => cP (x b k))) = fun b k => cP (sgr (x b) k) := by
    funext b; exact sg_cP (x b)
  rw [h, ← comp4]
  unfold kConn
  simp only [sg_cP]

theorem comp_bce (x : Fin 8 → Fin 8 → PlaneR) (t : Fin 8 → PlaneR) :
    Ideal.div (tot fun b => kBce (fun k => cP (x b k)) (cP (t b))) N21
      = rLoss3 (fun b => gloR (fun k => cP (x b k))) (fun b => cP (t b)) := by
  simp only [kBce, gloK_cP, gloR_cP]
  exact comp3 _ _

theorem comp_de (x c : Fin 8 → Fin 8 → PlaneR) (t : Fin 8 → PlaneR) :
    Ideal.div (tot fun b => kDe (fun k => cP (x b k)) (fun k => cP (c b k)) (cP (t b))) N21
      = rLoss3 (fun b => decR (fun k => cP (x b k)) (fun k => cP (c b k))) (fun b => cP (t b)) := by
  simp only [kDe, decK_cP, decR_cP]
  exact comp3 _ _

end Bicon

end
-- ==== Proof.SpecMath.lean ====
/-
  The two sides of Spec.lean are one number when every input entry is a real.

  Every input plane is then the coercion of a plane of reals; the six losses of the kernel's side equal the six
  losses of the reference's side one by one (the component equalities), and the weighted sums, formed in the same
  order with the same weights, are equal by congruence.
-/
import proofs.«403145_j71588514889841_3_alg».proof.Proof.SpecMathC

noncomputable section

namespace Bicon

open Idealize.ShloMosaic

/-- On real inputs the kernel's chained, sign-flipped partial sums and the reference's one negated mean agree, term by term
    of the weighted sum of six losses. -/
theorem lossK_eq_lossR (c02 c08 : EReal) (A D : Fin 8 → Fin 8 → Plane) (T : Fin 8 → Plane) (C : Fin 8 → Fin 8 → Plane)
    (hA : ∀ b k h w, ∃ r : ℝ, A b k h w = (r : EReal)) (hD : ∀ b k h w, ∃ r : ℝ, D b k h w = (r : EReal))
    (hT : ∀ b h w, ∃ r : ℝ, T b h w = (r : EReal)) (hC : ∀ b k h w, ∃ r : ℝ, C b k h w = (r : EReal)) :
    lossK c02 c08 A D T C = lossR c02 c08 A D T C := by
  choose a ha using hA
  choose d hd using hD
  choose t ht using hT
  choose c hc using hC
  obtain rfl : A = fun b k => cP (a b k) := by funext b k h w; exact ha b k h w
  obtain rfl : D = fun b k => cP (d b k) := by funext b k h w; exact hd b k h w
  obtain rfl : T = fun b => cP (t b) := by funext b h w; exact ht b h w
  obtain rfl : C = fun b k => cP (c b k) := by funext b k h w; exact hc b k h w
  unfold lossK lossR
  rw [comp_bicon a c, comp_conn a c, comp_bce a t, comp_bicon d c, comp_conn d c, comp_de d c t]

end Bicon

end
-- ==== Proof.Finite.lean ====
/-
  The precondition read back: if every entry of the four inputs is below +infinity in absolute value, every entry
  is a real number.
-/
import proofs.«403145_j71588514889841_3_alg».proof.Pre_finite_inputs
import proofs.«403145_j71588514889841_3_alg».proof.Proof.Consts
import Idealize.ShloMosaic.Lib.ReduceAll
import Idealize.ShloMosaic.Lib.ValueIdx

noncomputable section

open Idealize.ShloMosaic

namespace Cert.Pre_finite_inputs.Finite

open Cert.Pre_finite_inputs

variable [Facts]
open Facts

/-- The rank-0 shape has one index. -/
instance subsingletonIdx : Subsingleton S_.Idx := ⟨fun a b => funext fun d => d.elim0⟩

/-- One entry: over the extended reals |x| = max x (-x), and max x (-x) < +infinity rules out both infinities
    (at -infinity the maximum is -(-infinity) = +infinity), so the entry is a real number. -/
theorem real_of_abs_lt {s : Shape} (x b : FVec Ideal s .f32) (hb : ∀ i, b i = Ideal.ofBits .f32 0x7F800000#32)
    (i : s.Idx) (h : cmpf .olt (Host.absf x) b i = 1#1) : ∃ r : ℝ, x i = (r : EReal) := by
  have h1 : BitVec.ofBool (decide (max (x i) (-(x i)) < b i)) = 1#1 := h
  rw [hb i, Bicon.Consts.ofBits_inf] at h1
  have h2 : max (x i) (-(x i)) < (⊤ : EReal) := by
    by_contra hn
    rw [decide_eq_false hn] at h1
    exact absurd h1 (by decide)
  induction hx : x i using EReal.rec with
  | bot => rw [hx] at h2; simp at h2
  | top => rw [hx] at h2; simp at h2
  | coe r => exact ⟨r, rfl⟩

/-- The predicate is the conjunction of four "all entries" tests, one per input; each conjunct being 1 says every
    entry's comparison is 1, and the compared bound is the constant +infinity in every position. -/
theorem real_of_pre (x0 x1 x3 : FVec Ideal S8x8x512x512 .f32) (x2 : FVec Ideal S8x1x512x512 .f32)
    (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  unfold fn fn_part1 at h0
  dsimp only at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt x0 _ (fun _ => rfl) i (Host.reduce_andi_all _ _ _ _ _ e0 i),
    fun i => real_of_abs_lt x1 _ (fun _ => rfl) i (Host.reduce_andi_all _ _ _ _ _ e1 i),
    fun i => real_of_abs_lt x2 _ (fun _ => rfl) i (Host.reduce_andi_all _ _ _ _ _ e2 i),
    fun i => real_of_abs_lt x3 _ (fun _ => rfl) i (Host.reduce_andi_all _ _ _ _ _ e3 i)⟩

end Cert.Pre_finite_inputs.Finite

end
-- ==== Proof.lean ====
/-
  The certificate of the bilateral-connectivity loss kernel against its jnp reference.

  Both programs compute one number: the weighted sum 0.2·bicon₁ + 0.8·conn₁ + bce₁ + 0.2·bicon₂ + 0.8·conn₂ + de₂ of six
  clamped binary cross-entropies over 8 batch elements of 8 channels of 512 × 512 planes (sigmoids of the logits;
  "votes", each a channel times its partner channel shifted one pixel with zero fill; the votes' mean; and a blend of
  that mean with one minus the votes' minimum under an edge mask).  The kernel sums every cross-entropy with its sign
  already flipped, plane by plane, accumulates four batch elements on each of two cores in two pallas_calls, and lets
  the host add the two partial sums and divide; the reference takes one mean over everything and negates it.  On real
  inputs the two are equal (Spec.lean states both sides, SpecMath.lean proves them equal); the other modules read
  each program's result as its side of that statement.

  The frames of the word-level kernel and of its idealization are the generated frame certificates; the reference's
  frame is its run with the result dropped; the ideal pass rewrote nothing, so there is nothing to preserve.
-/
import proofs.«403145_j71588514889841_3_alg».proof.Defs
import proofs.«403145_j71588514889841_3_alg».proof.Proof.Gen.Kernel
import proofs.«403145_j71588514889841_3_alg».proof.Proof.Gen.Kernel.Frame
import proofs.«403145_j71588514889841_3_alg».proof.Proof.Gen.KernelIdeal
import proofs.«403145_j71588514889841_3_alg».proof.Proof.Gen.KernelIdeal.Frame
import proofs.«403145_j71588514889841_3_alg».proof.Proof.Gen.ReferenceIdeal
import proofs.«403145_j71588514889841_3_alg».proof.Proof.Gen.Pre_finite_inputs
import proofs.«403145_j71588514889841_3_alg».proof.Proof.KRun
import proofs.«403145_j71588514889841_3_alg».proof.Proof.KResult
import proofs.«403145_j71588514889841_3_alg».proof.Proof.RefRun
import proofs.«403145_j71588514889841_3_alg».proof.Proof.RefValue
import proofs.«403145_j71588514889841_3_alg».proof.Proof.SpecMath
import proofs.«403145_j71588514889841_3_alg».proof.Proof.Finite
import Idealize.ShloMosaic.Adequacy
import Idealize.ShloMosaic.Init

noncomputable section

namespace Cert.Proof

open Idealize.ShloMosaic Idealize.SL.Sem Idealize.ShloMosaic.ValueIdx Bicon

/-- The reference runs and leaves its arguments alone: its run with the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- From memories agreeing on the four inputs both programs end with the same loss: the kernel's result is the
    kernel's side of the statement, the reference's result the reference's side, and on real inputs (which the
    precondition gives) the two sides are one number. -/
theorem algebraic : Cert.algebraic_KernelIdeal_ReferenceIdeal := by
  intro m ρ m' ρ' hpre hagree
  refine ⟨fun c _ => lossK c02 c08 (arr4 (m ((c.tc : Thread Cert.KernelIdeal.nD Cert.KernelIdeal.τ).loc Cert.KernelIdeal.main_arg0)))
      (arr4 (m ((c.tc : Thread Cert.KernelIdeal.nD Cert.KernelIdeal.τ).loc Cert.KernelIdeal.main_arg1)))
      (arr3 (m ((c.tc : Thread Cert.KernelIdeal.nD Cert.KernelIdeal.τ).loc Cert.KernelIdeal.main_arg2)))
      (arr4 (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.Gen.run_result (F := Ideal) m ρ)
    funext i
    rw [eq_ix0 i]
    exact Cert.KernelIdeal.Result.result_eq m ρ c
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2]
    funext i
    rw [eq_ix0 i, Cert.ReferenceIdeal.RefValue.val_eq_lossR]
    obtain ⟨h0, h1, h2, h3⟩ := Cert.Pre_finite_inputs.Finite.real_of_pre _ _ _ _ (hpre c)
    exact (lossK_eq_lossR c02 c08 _ _ _ _ (fun b k h w => h0 (ix4 b k h w)) (fun b k h w => h1 (ix4 b k h w))
      (fun b h w => h2 (ix4 b 0 h w)) (fun b k h w => h3 (ix4 b k h w))).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ref, trivial, algebraic⟩

end Cert.Proof

end
